-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 32 := constantI S_ 32 20#32
  let main_v6 : IVec S8192 32 := broadcastInDim S8192 ![] bcast_S_S8192 main_c_1
  let main_v7 : IVec S8192 1 := cmpi .slt main_arg1 main_v6
  let main_v8 : IVec S8192 1 := andi main_v5 main_v7
  let main_c_2 : IVec S_ 1 := constantI S_ 1 1#1
  let main_v9 : IVec S_ 1 := (fun x v => Host.reduce IntOp.andi x v reducesTo_S8192_S_d0 h_S_) main_v8 main_c_2
  let main_v10 : IVec S_ 1 := andi main_v3 main_v9
  main_v10
-- ==== Kernel.lean ====
abbrev S8192x128 : Shape := ⟨2, ![8192, 128]⟩
abbrev S8192 : Shape := ⟨1, ![8192]⟩
abbrev S8192x1 : Shape := ⟨2, ![8192, 1]⟩
abbrev S1x128 : Shape := ⟨2, ![1, 128]⟩
abbrev S1024x128 : Shape := ⟨2, ![1024, 128]⟩
abbrev S2048x128 : Shape := ⟨2, ![2048, 128]⟩
abbrev S1024x1 : Shape := ⟨2, ![1024, 1]⟩
abbrev S1024x2048 : Shape := ⟨2, ![1024, 2048]⟩
abbrev S1024 : Shape := ⟨1, ![1024]⟩
abbrev S_ : Shape := ⟨0, ![]⟩
abbrev S8192x1x1 : Shape := ⟨3, ![8192, 1, 1]⟩
abbrev S1 : Shape := ⟨1, ![1]⟩
abbrev S1x1x1 : Shape := ⟨3, ![1, 1, 1]⟩
abbrev S20 : Shape := ⟨1, ![20]⟩

abbrev nBuf : Space → Nat
  | .hbm => 64
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .bf16⟩
  | .hbm, ⟨3, _⟩ => ⟨S8192x1, .i32⟩
  | .hbm, ⟨4, _⟩ => ⟨S1x128, .i32⟩
  | .hbm, ⟨5, _⟩ => ⟨S8192x128, .i32⟩
  | .hbm, ⟨6, _⟩ => ⟨S8192x128, .i32⟩
  | .hbm, ⟨7, _⟩ => ⟨S8192x128, .i1⟩
  | .hbm, ⟨8, _⟩ => ⟨S8192x128, .bf16⟩
  | .hbm, ⟨9, _⟩ => ⟨S8192x128, .f32⟩
  | .hbm, ⟨10, _⟩ => ⟨S_, .f32⟩
  | .hbm, ⟨11, _⟩ => ⟨S8192, .f32⟩
  | .hbm, ⟨12, _⟩ => ⟨S8192x1, .i32⟩
  | .hbm, ⟨13, _⟩ => ⟨S_, .i32⟩
  | .hbm, ⟨14, _⟩ => ⟨S8192x1, .i32⟩
  | .hbm, ⟨15, _⟩ => ⟨S8192x1, .i1⟩
  | .hbm, ⟨16, _⟩ => ⟨S_, .i32⟩
  | .hbm, ⟨17, _⟩ => ⟨S8192x1, .i32⟩
  | .hbm, ⟨18, _⟩ => ⟨S8192x1, .i32⟩
  | .hbm, ⟨19, _⟩ => ⟨S8192x1, .i32⟩
  | .hbm, ⟨20, _⟩ => ⟨S8192x1x1, .i32⟩
  | .hbm, ⟨21, _⟩ => ⟨S1, .i32⟩
  | .hbm, ⟨22, _⟩ => ⟨S_, .i32⟩
  | .hbm, ⟨23, _⟩ => ⟨S8192x1x1, .i32⟩
  | .hbm, ⟨24, _⟩ => ⟨S8192x1x1, .i1⟩
  | .hbm, ⟨25, _⟩ => ⟨S1x1x1, .i32⟩
  | .hbm, ⟨26, _⟩ => ⟨S8192x1x1, .i32⟩
  | .hbm, ⟨27, _⟩ => ⟨S8192x1x1, .i1⟩
  | .hbm, ⟨28, _⟩ => ⟨S8192x1x1, .i1⟩
  | .hbm, ⟨29, _⟩ => ⟨S_, .i1⟩
  | .hbm, ⟨30, _⟩ => ⟨S8192x1, .i1⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192, .f32⟩
  | .hbm, ⟨36, _⟩ => ⟨S_, .f32⟩
  | .hbm, ⟨37, _⟩ => ⟨S20, .f32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S8192x1, .i32⟩
  | .hbm, ⟨46, _⟩ => ⟨S_, .f32⟩
  | .hbm, ⟨47, _⟩ => ⟨S8192, .f32⟩
  | .hbm, ⟨48, _⟩ => ⟨S20, .f32⟩
  | .hbm, ⟨49, _⟩ => ⟨S_, .i32⟩
  | .hbm, ⟨50, _⟩ => ⟨S8192, .i32⟩
  | .hbm, ⟨51, _⟩ => ⟨S8192, .i1⟩
  | .hbm, ⟨52, _⟩ => ⟨S_, .i32⟩
  | .hbm, ⟨53, _⟩ => ⟨S8192, .i32⟩
  | .hbm, ⟨54, _⟩ => ⟨S8192, .i32⟩
  | .hbm, ⟨55, _⟩ => ⟨S8192, .i32⟩
  | .hbm, ⟨56, _⟩ => ⟨S8192x1, .i32⟩
  | .hbm, ⟨57, _⟩ => ⟨S8192, .f32⟩
  | .hbm, ⟨58, _⟩ => ⟨S8192, .f32⟩
  | .hbm, ⟨59, _⟩ => ⟨S8192, .f32⟩
  | .hbm, ⟨60, _⟩ => ⟨S8192, .f32⟩
  | .hbm, ⟨61, _⟩ => ⟨S8192, .f32⟩
  | .hbm, ⟨62, _⟩ => ⟨S_, .f32⟩
  | .hbm, ⟨63, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_call1_c : Ref sig .tc := ⟨.hbm, 13, rfl⟩
abbrev main_call1_v0 : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_c_1 : Ref sig .tc := ⟨.hbm, 21, rfl⟩
abbrev main_call1_c_2 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_3 : Ref sig .tc := ⟨.hbm, 29, rfl⟩
abbrev main_call1_v12 : Ref sig .tc := ⟨.hbm, 30, rfl⟩
abbrev main_call1_v13 : Ref sig .tc := ⟨.hbm, 31, rfl⟩
abbrev main_call1_cst : Ref sig .tc := ⟨.hbm, 32, rfl⟩
abbrev main_call1_v14 : Ref sig .tc := ⟨.hbm, 33, rfl⟩
abbrev main_v5 : Ref sig .tc := ⟨.hbm, 34, rfl⟩
abbrev main_v6 : Ref sig .tc := ⟨.hbm, 35, rfl⟩
abbrev main_cst_0 : Ref sig .tc := ⟨.hbm, 36, rfl⟩
abbrev main_v7 : Ref sig .tc := ⟨.hbm, 37, rfl⟩
abbrev main_c : Ref sig .tc := ⟨.hbm, 38, rfl⟩
abbrev main_v8 : Ref sig .tc := ⟨.hbm, 39, rfl⟩
abbrev main_v9 : Ref sig .tc := ⟨.hbm, 40, rfl⟩
abbrev main_c_1 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_2 : Ref sig .tc := ⟨.hbm, 46, rfl⟩
abbrev main_v14 : Ref sig .tc := ⟨.hbm, 47, rfl⟩
abbrev main_v15 : Ref sig .tc := ⟨.hbm, 48, rfl⟩
abbrev main_c_3 : Ref sig .tc := ⟨.hbm, 49, rfl⟩
abbrev main_v16 : Ref sig .tc := ⟨.hbm, 50, rfl⟩
abbrev main_v17 : Ref sig .tc := ⟨.hbm, 51, rfl⟩
abbrev main_c_4 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst_5 : Ref sig .tc := ⟨.hbm, 62, rfl⟩
abbrev main_v27 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v33 : BitVec 1 := Scalar.cmpi .eq arg1 c3_i32
  let v34 : BitVec 32 := Scalar.extui v33
  let c0_i32_17 : BitVec 32 := 0#32
  let v35 : BitVec 1 := Scalar.cmpi .ne v34 c0_i32_17
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bcast_S1x128_S8192x128_0_1 : S1x128.BroadcastsInDim S8192x128 (![0, 1] : Fin 2 → Fin S8192x128.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x128 : S1024x1.Broadcasts S1024x128
  reducesTo_S8192x128_S8192_d1 : S8192x128.ReducesTo [1] S8192
  h_S_ : 0 < S_.numel
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  bcast_S_S20 : S_.BroadcastsInDim S20 (![] : Fin 0 → Fin S20.rank)
  bcast_S_S8192 : S_.BroadcastsInDim S8192 (![] : Fin 0 → Fin S8192.rank)
  reducesTo_S8192_S_d0 : S8192.ReducesTo [0] S_
  dot_S1024x128_S2048x128_S1024x2048_1_1_0_0_n_n_wf : DotDims.WF S1024x128 S2048x128 S1024x2048 [1] [1] [0] [0] [] []
  dot_S1024x2048_S2048x128_S1024x128_1_0_0_1_n_n_wf : DotDims.WF S1024x2048 S2048x128 S1024x128 [1] [0] [0] [1] [] []
  gather_S8192x128_S8192x1x1_S8192x1_n_1_0_0_1_2_11_wf : GatherDims.WF S8192x128 S8192x1x1 S8192x1 [] [1] [0] [1] [0] 2 ![1, 1]
  scatter_S20_S8192x1_S8192_n_0_0_1_wf : ScatterDims.WF S20 S8192x1 S8192 [] [0] [0] 1
  gather_S20_S8192x1_S8192_n_0_n_n_0_1_1_wf : GatherDims.WF S20 S8192x1 S8192 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .bf16 = 32 ∨ (Rect.block (s := S8192x128) S2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S8192x128.size a
  hwx0_2 : ∀ i : grid0.Coords, EltTy.bits .bf16 = 32 ∨ (Rect.block (s := S8192x128) S2048x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .f32 = 32 ∨ (Rect.block (s := S8192x128) S1024x128.size (cc0_transform_3 i) (hinb0_3 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def gather_S8192x128_S8192x1x1_S8192x1_n_1_0_0_1_2_11 : GatherDims S8192x128 S8192x1x1 S8192x1 where
  offsetDims := []
  collapsedSliceDims := [1]
  operandBatchingDims := [0]
  startIndicesBatchingDims := [0]
  startIndexMap := [1]
  indexVectorDim := 2
  sliceSizes := ![1, 1]
  wf := gather_S8192x128_S8192x1x1_S8192x1_n_1_0_0_1_2_11_wf
def scatter_S20_S8192x1_S8192_n_0_0_1 : ScatterDims S20 S8192x1 S8192 where
  updateWindowDims := []
  insertedWindowDims := [0]
  scatterDimsToOperandDims := [0]
  indexVectorDim := 1
  wf := scatter_S20_S8192x1_S8192_n_0_0_1_wf
def gather_S20_S8192x1_S8192_n_0_n_n_0_1_1 : GatherDims S20 S8192x1 S8192 where
  offsetDims := []
  collapsedSliceDims := [0]
  operandBatchingDims := []
  startIndicesBatchingDims := []
  startIndexMap := [0]
  indexVectorDim := 1
  sliceSizes := ![1]
  wf := gather_S20_S8192x1_S8192_n_0_n_n_0_1_1_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S128x8192 : Shape := ⟨2, ![128, 8192]⟩
abbrev S8192x8192 : Shape := ⟨2, ![8192, 8192]⟩
abbrev S_ : Shape := ⟨0, ![]⟩
abbrev S8192x1 : Shape := ⟨2, ![8192, 1]⟩
abbrev S1x8192 : Shape := ⟨2, ![1, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S128x8192, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x1, .i32⟩
  | .hbm, ⟨9, _⟩ => ⟨S1x8192, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192, .f32⟩
  | .hbm, ⟨21, _⟩ => ⟨S8192x8192, .i32⟩
  | .hbm, ⟨22, _⟩ => ⟨S_, .i32⟩
  | .hbm, ⟨23, _⟩ => ⟨S8192, .i32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S8192, .f32⟩
  | .hbm, ⟨28, _⟩ => ⟨S8192, .f32⟩
  | .hbm, ⟨29, _⟩ => ⟨S_, .f32⟩
  | .hbm, ⟨30, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  transposes_S8192x128_S128x8192_1_0 : S8192x128.Transposes [1, 0] S128x8192
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  h_S_ : 0 < S_.numel
  natLt_1_32 : 1 < 32
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KB.Runs.lean ====
/-
  What the three runs of the kernel body share: the buffer contents when the region is entered, each window's block
  read off its array, the body's two branch conditions in closed form over the grid (the grid is 8 row blocks by 4
  key tiles, point t = 4·i + j: the first condition holds exactly at j = 0, where the two scratch buffers are reset,
  the second exactly at j = 3, where the accumulator is copied into the output block), and where the output window is
  idle (every point but j = 3).
-/
import proofs.«406752_j68152541053487_3_alg».proof.Proof.Gen.Kernel.Launch
import proofs.«406752_j68152541053487_3_alg».proof.Proof.Gen.Kernel.Skeleton
import proofs.«406752_j68152541053487_3_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents when the region is entered: the launch contents after the cast of the features and
    the one-hot encoding of the labels. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not (where it is
    not fetched the block index has not moved), for any proof data over these arrays that leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first conditional's condition, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's condition. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the second condition fails the output window is idle: the body stores nothing into it, -/
theorem idleAt0_3 : ∀ t : Fin cfg0.N, ¬cond0_1 (grid0.coords t) → cfg0.idle 3 (grid0.coords t) = true := by decide +kernel
/-- and the pipeline does not write its block back. -/
theorem noFlush0_3 : ∀ t : Fin cfg0.N, ¬cond0_1 (grid0.coords t) → (cfg0.win 3).flush t = false := by decide +kernel
/-- Where it holds the window is live. -/
theorem liveAt0_3 : ∀ t : Fin cfg0.N, cond0_1 (grid0.coords t) → cfg0.idle 3 (grid0.coords t) = false := by decide +kernel

/-! ## The memrefs the body is called with -/

abbrev VO0_3 : View sig .tc .vmem S1024x128 .f32 := (Memref.whole cc0_stg3_0 : Memref sig .tc .vmem S1024x128 .f32).view
abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
abbrev hs0_3 (t : Fin cfg0.N) : (ms0_3 t).IsWhole := hstage0_3 ((cfg0.slots t 3).cast nbuf0_3)
/-- The two scratch operands: the per-class accumulator and the running maximum. -/
abbrev scM0_0 : Memref sig .tc .vmem S1024x128 .f32 := Memref.whole cc0_scratch0
abbrev scM0_1 : Memref sig .tc .vmem S1024x1 .f32 := Memref.whole cc0_scratch1
abbrev VS0_0 : View sig .tc .vmem S1024x128 .f32 := scM0_0.view
abbrev VS0_1 : View sig .tc .vmem S1024x1 .f32 := scM0_1.view

end Cert.Kernel.Hand

end
-- ==== Proof.KB.RunA.lean ====
/-
  The kernel body run at the points j = 0: the scratch buffers are reset (zeros, bottom), then updated from the first key tile; the output window is left as found. The run is stated on any whole staging memrefs; the pieces each buffer ends with are
  found by the run itself.
-/
import proofs.«406752_j68152541053487_3_alg».proof.Proof.KB.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this case, with the pieces the output block (`L3`), the accumulator (`LS0`) and the
    running maximum (`LS1`) end with as its witness. -/
noncomputable def kernelRun0_A (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S2048x128 .bf16) (x2 : Vec F S2048x128 .bf16) :
    Σ' (L3 : List (View.Piece (Elt F) S1024x128 .f32)) (LS0 : List (View.Piece (Elt F) S1024x128 .f32)), { LS1 : List (View.Piece (Elt F) S1024x1 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__kernel i arg2 harg2 arg3 harg3 arg4 harg4 arg5 harg5 arg6 harg6 arg7 harg7) K } := by
  refine ⟨[], ?_, ?_, fun xi3 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.KB.RunB.lean ====
/-
  The kernel body run at the points j = 1, 2: the scratch buffers, found at what the point before left, are updated from the key tile; the output window is left as found. The run is stated on any whole staging memrefs; the pieces each buffer ends with are
  found by the run itself.
-/
import proofs.«406752_j68152541053487_3_alg».proof.Proof.KB.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this case, with the pieces the output block (`L3`), the accumulator (`LS0`) and the
    running maximum (`LS1`) end with as its witness. -/
noncomputable def kernelRun0_B (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S2048x128 .bf16) (x2 : Vec F S2048x128 .bf16) (xs0 : Vec F S1024x128 .f32) (xs1 : Vec F S1024x1 .f32) :
    Σ' (L3 : List (View.Piece (Elt F) S1024x128 .f32)) (LS0 : List (View.Piece (Elt F) S1024x128 .f32)), { LS1 : List (View.Piece (Elt F) S1024x1 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__kernel i arg2 harg2 arg3 harg3 arg4 harg4 arg5 harg5 arg6 harg6 arg7 harg7) K } := by
  refine ⟨[], ?_, ?_, fun xi3 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.KB.RunC.lean ====
/-
  The kernel body run at the points j = 3: the scratch buffers are updated from the last key tile and the accumulator is copied into the output block. The run is stated on any whole staging memrefs; the pieces each buffer ends with are
  found by the run itself.
-/
import proofs.«406752_j68152541053487_3_alg».proof.Proof.KB.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple in this case, with the pieces the output block (`L3`), the accumulator (`LS0`) and the
    running maximum (`LS1`) end with as its witness. -/
noncomputable def kernelRun0_C (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S2048x128 .bf16) (x2 : Vec F S2048x128 .bf16) (xs0 : Vec F S1024x128 .f32) (xs1 : Vec F S1024x1 .f32) :
    Σ' (L3 : List (View.Piece (Elt F) S1024x128 .f32)) (LS0 : List (View.Piece (Elt F) S1024x128 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, ?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Kernel.Hand

end
-- ==== Proof.KB.Body.lean ====
/-
  The kernel body at every grid point: what each of the three cases leaves in the output block, the accumulator and the
  running maximum; what these hold point by point (the reset at j = 0 makes the recursion restart in every row block);
  the region's invariant, which carries the two scratch buffers at what the point before left; the pipeline's proof
  data — the features array reaches the kernel through two windows (row blocks and key tiles), which hold it at
  complementary half shares —; and the body obligation.
-/
import proofs.«406752_j68152541053487_3_alg».proof.Proof.KB.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A: what the run leaves in the output block's staging buffer (its pieces read back; none here: a placeholder nothing consults, the window being idle). -/
def out0_A_3 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S2048x128 .bf16) (x2 : Vec F S2048x128 .bf16) : Vec F S1024x128 .f32 :=
  VO0_3.read (Elt F) (VO0_3.writes (Elt F) VO0_3.junk (kernelRun0_A c i arg2 harg2 arg3 harg3 arg4 harg4 arg5 harg5 arg6 harg6 arg7 harg7 hc0 hc1 x0 x1 x2).1)

/-- Case A's pieces for the accumulator cover it. -/
theorem scover0_A_0 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S2048x128 .bf16) (x2 : Vec F S2048x128 .bf16) (y : S1024x128.Idx) :
    ∃ pc ∈ (kernelRun0_A c i arg2 harg2 arg3 harg3 arg4 harg4 arg5 harg5 arg6 harg6 arg7 harg7 hc0 hc1 x0 x1 x2).2.1, y ∈ pc.1.set :=
  View.cover_of_tiledL (kernelRun0_A c i arg2 harg2 arg3 harg3 arg4 harg4 arg5 harg5 arg6 harg6 arg7 harg7 hc0 hc1 x0 x1 x2).2.1 S1024x128.size (by sl_kernel_rfl) y

/-- What case A leaves in the accumulator. -/
def sout0_A_0 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S2048x128 .bf16) (x2 : Vec F S2048x128 .bf16) : Vec F S1024x128 .f32 :=
  VS0_0.read (Elt F) (VS0_0.writes (Elt F) VS0_0.junk (kernelRun0_A c i arg2 harg2 arg3 harg3 arg4 harg4 arg5 harg5 arg6 harg6 arg7 harg7 hc0 hc1 x0 x1 x2).2.1)

/-- Case A's pieces for the running maximum cover it. -/
theorem scover0_A_1 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S2048x128 .bf16) (x2 : Vec F S2048x128 .bf16) (y : S1024x1.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S1024x1.size (by sl_kernel_rfl) y

/-- What case A leaves in the running maximum. -/
def sout0_A_1 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S2048x128 .bf16) (x2 : Vec F S2048x128 .bf16) : Vec F S1024x1 .f32 :=
  VS0_1.read (Elt F) (VS0_1.writes (Elt F) VS0_1.junk (kernelRun0_A c i arg2 harg2 arg3 harg3 arg4 harg4 arg5 harg5 arg6 harg6 arg7 harg7 hc0 hc1 x0 x1 x2).2.2.1)

/-- Case B: what the run leaves in the output block's staging buffer (its pieces read back; none here: a placeholder nothing consults, the window being idle). -/
def out0_B_3 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S2048x128 .bf16) (x2 : Vec F S2048x128 .bf16) (xs0 : Vec F S1024x128 .f32) (xs1 : Vec F S1024x1 .f32) : Vec F S1024x128 .f32 :=
  VO0_3.read (Elt F) (VO0_3.writes (Elt F) VO0_3.junk (kernelRun0_B c i arg2 harg2 arg3 harg3 arg4 harg4 arg5 harg5 arg6 harg6 arg7 harg7 hc0 hc1 x0 x1 x2 xs0 xs1).1)

/-- Case B's pieces for the accumulator cover it. -/
theorem scover0_B_0 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S2048x128 .bf16) (x2 : Vec F S2048x128 .bf16) (xs0 : Vec F S1024x128 .f32) (xs1 : Vec F S1024x1 .f32) (y : S1024x128.Idx) :
    ∃ pc ∈ (kernelRun0_B c i arg2 harg2 arg3 harg3 arg4 harg4 arg5 harg5 arg6 harg6 arg7 harg7 hc0 hc1 x0 x1 x2 xs0 xs1).2.1, y ∈ pc.1.set :=
  View.cover_of_tiledL (kernelRun0_B c i arg2 harg2 arg3 harg3 arg4 harg4 arg5 harg5 arg6 harg6 arg7 harg7 hc0 hc1 x0 x1 x2 xs0 xs1).2.1 S1024x128.size (by sl_kernel_rfl) y

/-- What case B leaves in the accumulator. -/
def sout0_B_0 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S2048x128 .bf16) (x2 : Vec F S2048x128 .bf16) (xs0 : Vec F S1024x128 .f32) (xs1 : Vec F S1024x1 .f32) : Vec F S1024x128 .f32 :=
  VS0_0.read (Elt F) (VS0_0.writes (Elt F) VS0_0.junk (kernelRun0_B c i arg2 harg2 arg3 harg3 arg4 harg4 arg5 harg5 arg6 harg6 arg7 harg7 hc0 hc1 x0 x1 x2 xs0 xs1).2.1)

/-- Case B's pieces for the running maximum cover it. -/
theorem scover0_B_1 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S2048x128 .bf16) (x2 : Vec F S2048x128 .bf16) (xs0 : Vec F S1024x128 .f32) (xs1 : Vec F S1024x1 .f32) (y : S1024x1.Idx) :
    ∃ pc ∈ (kernelRun0_B c i arg2 harg2 arg3 harg3 arg4 harg4 arg5 harg5 arg6 harg6 arg7 harg7 hc0 hc1 x0 x1 x2 xs0 xs1).2.2.1, y ∈ pc.1.set :=
  View.cover_of_tiledL (kernelRun0_B c i arg2 harg2 arg3 harg3 arg4 harg4 arg5 harg5 arg6 harg6 arg7 harg7 hc0 hc1 x0 x1 x2 xs0 xs1).2.2.1 S1024x1.size (by sl_kernel_rfl) y

/-- What case B leaves in the running maximum. -/
def sout0_B_1 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S2048x128 .bf16) (x2 : Vec F S2048x128 .bf16) (xs0 : Vec F S1024x128 .f32) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 hc0 hc1 x0 x1 x2 xs0 xs1).2.2.1)

/-- Case C: what the run leaves in the output block's staging buffer (its pieces read back). -/
def out0_C_3 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S2048x128 .bf16) (x2 : Vec F S2048x128 .bf16) (xs0 : Vec F S1024x128 .f32) (xs1 : Vec F S1024x1 .f32) : Vec F S1024x128 .f32 :=
  VO0_3.read (Elt F) (VO0_3.writes (Elt F) VO0_3.junk (kernelRun0_C c i arg2 harg2 arg3 harg3 arg4 harg4 arg5 harg5 arg6 harg6 arg7 harg7 hc0 hc1 x0 x1 x2 xs0 xs1).1)

/-- Case C's one store into the output block covers it. -/
theorem cover0_C_3 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S2048x128 .bf16) (x2 : Vec F S2048x128 .bf16) (xs0 : Vec F S1024x128 .f32) (xs1 : Vec F S1024x1 .f32) (y : S1024x128.Idx) :
    ∃ pc ∈ (kernelRun0_C c i arg2 harg2 arg3 harg3 arg4 harg4 arg5 harg5 arg6 harg6 arg7 harg7 hc0 hc1 x0 x1 x2 xs0 xs1).1, y ∈ pc.1.set :=
  View.cover_of_tiledL (kernelRun0_C c i arg2 harg2 arg3 harg3 arg4 harg4 arg5 harg5 arg6 harg6 arg7 harg7 hc0 hc1 x0 x1 x2 xs0 xs1).1 S1024x128.size (by sl_kernel_rfl) y

/-- Case C's pieces for the accumulator cover it. -/
theorem scover0_C_0 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S2048x128 .bf16) (x2 : Vec F S2048x128 .bf16) (xs0 : Vec F S1024x128 .f32) (xs1 : Vec F S1024x1 .f32) (y : S1024x128.Idx) :
    ∃ pc ∈ (kernelRun0_C c i arg2 harg2 arg3 harg3 arg4 harg4 arg5 harg5 arg6 harg6 arg7 harg7 hc0 hc1 x0 x1 x2 xs0 xs1).2.1, y ∈ pc.1.set :=
  View.cover_of_tiledL (kernelRun0_C c i arg2 harg2 arg3 harg3 arg4 harg4 arg5 harg5 arg6 harg6 arg7 harg7 hc0 hc1 x0 x1 x2 xs0 xs1).2.1 S1024x128.size (by sl_kernel_rfl) y

/-- What case C leaves in the accumulator. -/
def sout0_C_0 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S2048x128 .bf16) (x2 : Vec F S2048x128 .bf16) (xs0 : Vec F S1024x128 .f32) (xs1 : Vec F S1024x1 .f32) : Vec F S1024x128 .f32 :=
  VS0_0.read (Elt F) (VS0_0.writes (Elt F) VS0_0.junk (kernelRun0_C c i arg2 harg2 arg3 harg3 arg4 harg4 arg5 harg5 arg6 harg6 arg7 harg7 hc0 hc1 x0 x1 x2 xs0 xs1).2.1)

/-- Case C's pieces for the running maximum cover it. -/
theorem scover0_C_1 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S2048x128 .bf16) (x2 : Vec F S2048x128 .bf16) (xs0 : Vec F S1024x128 .f32) (xs1 : Vec F S1024x1 .f32) (y : S1024x1.Idx) :
    ∃ pc ∈ (kernelRun0_C c i arg2 harg2 arg3 harg3 arg4 harg4 arg5 harg5 arg6 harg6 arg7 harg7 hc0 hc1 x0 x1 x2 xs0 xs1).2.2.1, y ∈ pc.1.set :=
  View.cover_of_tiledL (kernelRun0_C c i arg2 harg2 arg3 harg3 arg4 harg4 arg5 harg5 arg6 harg6 arg7 harg7 hc0 hc1 x0 x1 x2 xs0 xs1).2.2.1 S1024x1.size (by sl_kernel_rfl) y

/-- What case C leaves in the running maximum. -/
def sout0_C_1 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S2048x128 .bf16) (x2 : Vec F S2048x128 .bf16) (xs0 : Vec F S1024x128 .f32) (xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 hc0 hc1 x0 x1 x2 xs0 xs1).2.2.1)

/-! ## What the buffers hold after each point -/

/-- After the body at position `n`: the output block's staging buffer, the accumulator, the running maximum. The case
    is the one the closed forms select; cases B and C start from what position `n - 1` left in the two scratch buffers. -/
def outsAt0 (c : Dev nD) : (n : ℕ) → n < cfg0.N → Vec F S1024x128 .f32 × Vec F S1024x128 .f32 × Vec F S1024x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 4 = 0 then
      if h1 : (n + 1) % 4 = 3 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)

theorem outsAt0_A (c : Dev nD) (t : Fin cfg0.N) (h0 : t.val % 4 = 0) (h1 : ¬t.val % 4 = 3) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: the two scratch buffers at anything before the first point, afterwards at what the point
    before left in them. -/
def PhiS (c : Dev nD) : (n : ℕ) → n ≤ cfg0.N → sProp 𝕄
  | 0, _ => iprop((∃ d, owns (c : Thread nD τ) scM0_0 fullShare d) ∗ (∃ d, owns (c : Thread nD τ) scM0_1 fullShare d))
  | n + 1, hn => iprop(owns (c : Thread nD τ) scM0_0 fullShare ((outsAt0 m c n hn).2.1) ∗ owns (c : Thread nD τ) scM0_1 fullShare ((outsAt0 m c n hn).2.2))

theorem PhiS_zero (c : Dev nD) (n : ℕ) (h : n ≤ cfg0.N) (hz : n = 0) :
    PhiS m c n h = iprop((∃ d, owns (c : Thread nD τ) scM0_0 fullShare d) ∗ (∃ d, owns (c : Thread nD τ) scM0_1 fullShare d)) := by
  subst hz; rfl

theorem PhiS_succ (c : Dev nD) (n : ℕ) (hn : n < cfg0.N) :
    PhiS m c (n + 1) hn = iprop(owns (c : Thread nD τ) scM0_0 fullShare ((outsAt0 m c n hn).2.1) ∗ owns (c : Thread nD τ) scM0_1 fullShare ((outsAt0 m c n hn).2.2)) := rfl

theorem PhiS_pos (c : Dev nD) (n : ℕ) (h : n ≤ cfg0.N) (hz : n ≠ 0) :
    PhiS m c n h = iprop(owns (c : Thread nD τ) scM0_0 fullShare ((outsAt0 m c (n - 1) (by omega)).2.1) ∗ owns (c : Thread nD τ) scM0_1 fullShare ((outsAt0 m c (n - 1) (by omega)).2.2)) := by
  cases n with
  | zero => exact absurd rfl hz
  | succ n => rfl

/-! ## The pipeline's proof data -/

/-- The arrays as the region finds them; after the body each input's buffer at its block and the output's at the
    recursion's first component; the invariant above; nothing owed; the features array, which two windows read, held
    by them at the two halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the closed forms say which case the point is in; the
    invariant hands the body the two scratch buffers at what the point before left (at anything at the first point) and
    takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz]
        iintro ⟨⟨HS0, HS1⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _)
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨HS0, HS1⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _)
        isplitl [Ho]; · iexact Ho
        isplitl [H0]; · iexact H0
        isplitl [H1]; · iexact H1
        isplitl [H2]; · iexact H2
        iexists _; iexact H3
  · by_cases h1 : t.val % 4 = 3
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_3 sout0_C_0 sout0_C_1; (try dsimp only)
      by_cases hz : t.val = 0
      · exfalso; omega
      · rw [PhiS_castSucc m c t, PhiS_pos m c _ _ hz]
        iintro ⟨⟨HS0, HS1⟩, Ho, ⟨%d0, H0⟩, ⟨%d1, H1⟩, ⟨%d2, H2⟩, ⟨%d3, H3⟩⟩
        iapply ((kernelRun0_C c (grid0.coords t) _ _ _ _ _ _ _ _ _ _ _ _ (fun h => h0 ((hcond0_0 t).mp h)) ((hcond0_1 t).mpr h1) (iblk m c 0 t) (iblk m c 1 t) (iblk m c 2 t) _ _).2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        iintro ⟨H0, H1, H2, ⟨%e3, H3⟩, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _)
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0 sout0_B_1; (try dsimp only)
      by_cases hz : t.val = 0
      · exfalso; omega
      · rw [PhiS_castSucc m c t, PhiS_pos m c _ _ hz]
        iintro ⟨⟨HS0, HS1⟩, Ho, ⟨%d0, H0⟩, ⟨%d1, H1⟩, ⟨%d2, H2⟩, ⟨%d3, H3⟩⟩
        iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _)
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region of the scoped buffers is the invariant before the first point, -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl, scopedRest0_eq]
  simp only [scM0_0, scM0_1, owns_whole]
  try exact Idealize.SL.BI.Entails.refl _

/-- and after the last point the invariant gives them back, their named contents forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), scopedRest0_eq]
  simp only [scM0_0, scM0_1, owns_whole]
  iintro ⟨HS0, HS1⟩
  isplitl [HS0]
  · iexists _; iexact HS0
  · iexists _; iexact HS1

end Cert.Kernel.Hand

end
-- ==== Proof.KB.Share.lean ====
/-
  The features array behind two windows. The launch hands the region the three distinct buffers behind the four
  windows' arrays, each whole at the full share; the pipeline wants one points-to per window. The features array
  (`main_v0`), read by the row-block window and by the key-tile window, is split between them along the full share's two
  halves at entry and joined again at exit, where both still hold the contents they were given.
-/
import proofs.«406752_j68152541053487_3_alg».proof.Proof.KB.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the windows' arrays. -/
theorem arrRefs_eq : (Finset.univ.image (Pipeline.arrRef spec0) : Finset (Ref sig .tc)) = [main_v0, main_v1, main_v2].toFinset := by decide

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl

/-- The three buffers, one by one. -/
theorem arrBufs_eq (c : Dev nD) (Vf : (b : Ref sig .tc) → Buf (Elt F) ((c : Thread nD τ).loc b)) :
    (Pipeline.arrBufs spec0 c Vf : sProp 𝕄)
      = iprop((((c : Thread nD τ).loc main_v0) ↦{fullShare} Vf main_v0) ∗ (((c : Thread nD τ).loc main_v1) ↦{fullShare} Vf main_v1)
          ∗ (((c : Thread nD τ).loc main_v2) ↦{fullShare} Vf main_v2)) := by
  unfold Pipeline.arrBufs
  exact bigSep_eq_bigSepL_of_eq [main_v0, main_v1, main_v2] arrRefs_eq (by decide) _

/-- ENTRY: the three buffers at contents `Vf` make the four windows' arrays at contents that read `Vf`. -/
theorem arrays_of_arrBufs (c : Dev nD) (Vf : (b : Ref sig .tc) → Buf (Elt F) ((c : Thread nD τ).loc b))
    (Fa : (w : Fin cfg0.W) → Buf (Elt F) ((cfg0.win w).arr.view.loc (c : Thread nD τ)))
    (h0 : Fa 0 = Vf main_v0) (h1 : Fa 1 = Vf main_v0) (h2 : Fa 2 = Vf main_v1) (h3 : Fa 3 = Vf main_v2) :
    (Pipeline.arrBufs spec0 c Vf : sProp 𝕄) ⊢ (dats m 0 c).arrays Fa := by
  rw [arrBufs_eq]
  unfold Dat.arrays
  rw [bigSep_W0]
  simp only [share0, share1, share2, share3, (arr_whole0 0).set_eq_univ, (arr_whole0 1).set_eq_univ,
    (arr_whole0 2).set_eq_univ, (arr_whole0 3).set_eq_univ]
  rw [h0, h1, h2, h3]
  iintro ⟨H0, H1, H2⟩
  ihave H := (pointsTo_share (PosShare.mem_left_op_right fullShare)).1 $$ H0
  icases H with ⟨Hl, Hr⟩
  isplitl [Hl]; · iexact Hl
  isplitl [Hr]; · iexact Hr
  isplitl [H1]; · iexact H1
  iexact H2

/-- EXIT: the converse. -/
theorem arrBufs_of_arrays (c : Dev nD) (Vf : (b : Ref sig .tc) → Buf (Elt F) ((c : Thread nD τ).loc b))
    (Fa : (w : Fin cfg0.W) → Buf (Elt F) ((cfg0.win w).arr.view.loc (c : Thread nD τ)))
    (h0 : Fa 0 = Vf main_v0) (h1 : Fa 1 = Vf main_v0) (h2 : Fa 2 = Vf main_v1) (h3 : Fa 3 = Vf main_v2) :
    (dats m 0 c).arrays Fa ⊢ (Pipeline.arrBufs spec0 c Vf : sProp 𝕄) := by
  rw [arrBufs_eq]
  unfold Dat.arrays
  rw [bigSep_W0]
  simp only [share0, share1, share2, share3, (arr_whole0 0).set_eq_univ, (arr_whole0 1).set_eq_univ,
    (arr_whole0 2).set_eq_univ, (arr_whole0 3).set_eq_univ]
  rw [h0, h1, h2, h3]
  iintro ⟨Hl, Hr, H1, H2⟩
  isplitl [Hl Hr]
  · iapply (pointsTo_share (PosShare.mem_left_op_right fullShare)).2
    isplitl [Hl]; · iexact Hl
    iexact Hr
  isplitl [H1]; · iexact H1
  iexact H2

end Cert.Kernel.Hand

end
-- ==== Proof.KB.Keep.lean ====
/-
  No operation of @main writes an argument array: each writes only its own result buffer.
-/
import proofs.«406752_j68152541053487_3_alg».proof.Proof.KB.Runs

set_option maxRecDepth 16384

noncomputable section

namespace Cert.Kernel.Hand

open Cert.Kernel Cert.Kernel.Gen
open Idealize.ShloMosaic Idealize.ShloMosaic.TcCoe Idealize.SL.Sem

variable {F : FTy → Type} [FloatOps F]

variable (m : (ℓ : Loc nD τ sig) → Buf (Elt F) ℓ)

theorem nw0 (b : Ref sig .tc) (hb : b = main_arg0 ∨ b = main_arg1) : ∀ op ∈ (hostOps0 (F := F)), Proc.devRef (τ := τ) .tc b ∉ op.writes := by
  intro op hop
  simp only [hostOps0, List.mem_cons, List.mem_nil_iff, or_false] at hop
  rcases hb with rfl | rfl <;> rcases hop with rfl <;>
    simp only [StableHlo.unary_writes, Finset.mem_singleton] <;> exact StableHlo.devRef_ne_of_ne (by decide)

theorem nw0_1 (b : Ref sig .tc) (hb : b = main_arg0 ∨ b = main_arg1) : ∀ op ∈ (hostOps0_1 (F := F)), Proc.devRef (τ := τ) .tc b ∉ op.writes := by
  intro op hop
  simp only [hostOps0_1, List.mem_cons, List.mem_nil_iff, or_false] at hop
  rcases hb with rfl | rfl <;> rcases hop with rfl | rfl | rfl | rfl | rfl | rfl <;>
    simp only [StableHlo.TRef.nullary, StableHlo.TRef.unary, StableHlo.TRef.binary, StableHlo.unary_writes, StableHlo.binary_writes, StableHlo.nullary_writes, Finset.mem_singleton] <;>
    exact StableHlo.devRef_ne_of_ne (by decide)

theorem nw1 (b : Ref sig .tc) (hb : b = main_arg0 ∨ b = main_arg1) : ∀ op ∈ (hostOps1 (F := F)), Proc.devRef (τ := τ) .tc b ∉ op.writes := by
  intro op hop
  simp only [hostOps1, List.mem_cons, List.mem_nil_iff, or_false] at hop
  rcases hb with rfl | rfl <;> rcases hop with rfl | rfl | rfl <;>
    simp only [StableHlo.unary_writes, StableHlo.binary_writes, StableHlo.nullary_writes, Finset.mem_singleton] <;>
    exact StableHlo.devRef_ne_of_ne (by decide)

theorem nw1_1 (b : Ref sig .tc) (hb : b = main_arg0 ∨ b = main_arg1) : ∀ op ∈ (hostOps1_1 (F := F)), Proc.devRef (τ := τ) .tc b ∉ op.writes := by
  intro op hop
  simp only [hostOps1_1, List.mem_cons, List.mem_nil_iff, or_false] at hop
  rcases hb with rfl | rfl <;> rcases hop with rfl | rfl | rfl | rfl | rfl | rfl | rfl | rfl | rfl | rfl | rfl | rfl | rfl | rfl | rfl | rfl | rfl | rfl | rfl | rfl | rfl | rfl <;>
    simp only [StableHlo.TRef.nullary, StableHlo.TRef.unary, StableHlo.TRef.binary, StableHlo.TRef.ternary, StableHlo.TRef.reshape,
      StableHlo.unary_writes, StableHlo.binary_writes, StableHlo.nullary_writes, StableHlo.ternary_writes, StableHlo.reshape_writes, Finset.mem_singleton] <;>
    exact StableHlo.devRef_ne_of_ne (by decide)

theorem nw1_2 (b : Ref sig .tc) (hb : b = main_arg0 ∨ b = main_arg1) : ∀ op ∈ (hostOps1_2 (F := F)), Proc.devRef (τ := τ) .tc b ∉ op.writes := by
  intro op hop
  simp only [hostOps1_2, List.mem_cons, List.mem_nil_iff, or_false] at hop
  rcases hb with rfl | rfl <;> rcases hop with rfl | rfl | rfl | rfl | rfl | rfl | rfl | rfl | rfl | rfl | rfl | rfl | rfl | rfl | rfl | rfl | rfl | rfl | rfl | rfl | rfl | rfl | rfl | rfl | rfl | rfl | rfl | rfl | rfl <;>
    simp only [StableHlo.unary_writes, StableHlo.binary_writes, StableHlo.nullary_writes, StableHlo.ternary_writes, StableHlo.reshape_writes, Finset.mem_singleton] <;>
    exact StableHlo.devRef_ne_of_ne (by decide)

/-- The two stretches before the region keep the arguments, -/
theorem keep_pre (c : Dev nD) (b : Ref sig .tc) (hb : b = main_arg0 ∨ b = main_arg1) : V m c b = m ((c : Thread nD τ).loc b) := by
  show StableHlo.after (List.flatten [hostOps0, hostOps0_1]) (fun b => m (c, b)) (Proc.devRef .tc b) = _
  simp only [List.flatten_cons, List.flatten_nil, List.append_nil]
  rw [StableHlo.after_append, StableHlo.after_of_forall_not_mem hostOps0_1 _ (nw0_1 b hb), StableHlo.after_of_forall_not_mem hostOps0 _ (nw0 b hb)]

/-- and so do the three after it. -/
theorem keep_tail (W : Valuation τ sig (Elt F)) (b : Ref sig .tc) (hb : b = main_arg0 ∨ b = main_arg1) :
    StableHlo.after hostOps1_2 (StableHlo.after hostOps1_1 (StableHlo.after hostOps1 W)) (Proc.devRef .tc b) = W (Proc.devRef .tc b) := by
  rw [StableHlo.after_of_forall_not_mem hostOps1_2 _ (nw1_2 b hb), StableHlo.after_of_forall_not_mem hostOps1_1 _ (nw1_1 b hb),
    StableHlo.after_of_forall_not_mem hostOps1 _ (nw1 b hb)]

end Cert.Kernel.Hand

end
-- ==== Proof.KB.Launch.lean ====
/-
  The launch. @main is six stretches in a row — the cast of the features, the one-hot encoding of the labels, the
  kernel region, and three stretches of operations on the kernel's result — and runs as that list: each stretch of
  operations runs within the core's unscoped buffers, held whole at a valuation that the stretch advances; the region
  takes its three arrays out of that set (the features array split between its two windows), runs the pipeline over
  the proof data, and puts them back with the result array at what the pipeline wrote back. At the end the result
  buffer holds what the last three stretches compute from the region's exit contents, and the two argument arrays,
  which no operation writes, hold what they held at launch.
-/
import proofs.«406752_j68152541053487_3_alg».proof.Proof.KB.Share
import proofs.«406752_j68152541053487_3_alg».proof.Proof.KB.Keep

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The valuations along @main -/

/-- At launch; after the cast; when the region is entered. -/
abbrev W₀ (c : Dev nD) : Valuation τ sig (Elt F) := fun b => m (c, b)
abbrev W₁ (c : Dev nD) : Valuation τ sig (Elt F) := StableHlo.after hostOps0 (W₀ m c)
abbrev Wₑ (c : Dev nD) : Valuation τ sig (Elt F) := StableHlo.after hostOps0_1 (W₁ m c)

theorem V0_eq (c : Dev nD) : V0 m c = Wₑ m c := by
  unfold V0
  simp only [List.flatten_cons, List.flatten_nil, List.append_nil]
  exact StableHlo.after_append _ _ _

/-- When the region is left: the result array at what the pipeline wrote back, every other buffer as entered. -/
def Wₓ (c : Dev nD) : Valuation τ sig (Elt F) :=
  Function.update (V0 m c) (Proc.devRef .tc main_v2) ((dats m 0 c).arrAt 3 cfg0.N)

theorem Wₓ_v2 (c : Dev nD) : Wₓ m c (Proc.devRef .tc main_v2) = (dats m 0 c).arrAt 3 cfg0.N := by
  unfold Wₓ; exact Function.update_self _ _ _

theorem Wₓ_of_ne (c : Dev nD) (b : Ref sig .tc) (hb : b ≠ main_v2) : Wₓ m c (Proc.devRef .tc b) = V m c b := by
  unfold Wₓ; exact Function.update_of_ne (StableHlo.devRef_ne_of_ne hb) _ _

/-- After the three stretches that follow the region. -/
abbrev W₂ (c : Dev nD) : Valuation τ sig (Elt F) := StableHlo.after hostOps1 (Wₓ m c)
abbrev W₃ (c : Dev nD) : Valuation τ sig (Elt F) := StableHlo.after hostOps1_1 (W₂ m c)
abbrev W₄ (c : Dev nD) : Valuation τ sig (Elt F) := StableHlo.after hostOps1_2 (W₃ m c)

/-! ## The segments -/

abbrev EP : Emb (UR sig nD τ) (MT nD τ sig Unit (Elt F) ℕ (UR sig nD τ) ℕ) := emb₁
abbrev 𝒱₀ : Variants := Variants.none
abbrev Lp : GSem nD τ sig → Finset Unit := fun _ => ∅
abbrev lvp : GSem nD τ sig → Unit → ℕ := fun _ _ => 0
abbrev adm : (p : Fin 1) → (pcfgs (F := F) p).Adm := fun p => (cfgs p).toPCfg_adm

/-- What rides beside the buffers: the core owing nothing. -/
abbrev R (c : Dev nD) : sProp 𝕄 := iprop(∃ W, owes (c : Thread nD τ) (0 : CellTallies nD τ sig Unit) W)

theorem fresh0 : ∀ op ∈ (hostOps0 (F := F)), op.fresh = ∅ := by
  intro _ h; (repeat (cases h with | head => rfl | tail _ h => ?_)); exact nomatch h
theorem fresh0_1 : ∀ op ∈ (hostOps0_1 (F := F)), op.fresh = ∅ := by
  intro _ h; (repeat (cases h with | head => rfl | tail _ h => ?_)); exact nomatch h
theorem fresh1 : ∀ op ∈ (hostOps1 (F := F)), op.fresh = ∅ := by
  intro _ h; (repeat (cases h with | head => rfl | tail _ h => ?_)); exact nomatch h
theorem fresh1_1 : ∀ op ∈ (hostOps1_1 (F := F)), op.fresh = ∅ := by
  intro _ h; (repeat (cases h with | head => rfl | tail _ h => ?_)); exact nomatch h
theorem fresh1_2 : ∀ op ∈ (hostOps1_2 (F := F)), op.fresh = ∅ := by
  intro _ h; (repeat (cases h with | head => rfl | tail _ h => ?_)); exact nomatch h

def seg0 : Pipeline.HostSeg (Name := ℕ) (U := UR sig nD τ) (pcfgs (F := F)) defs₀ 𝒱₀ Lp lvp :=
  Pipeline.HostSeg.ofOps _ _ _ _ _ (Pipeline.ucRefs τ sig) hostOps0
    (fun op h => Pipeline.sub_ucRefs op ((List.forall_iff_forall_mem.mp hostOps0_sub) op h)) fresh0 (W₀ m) R
def seg0_1 : Pipeline.HostSeg (Name := ℕ) (U := UR sig nD τ) (pcfgs (F := F)) defs₀ 𝒱₀ Lp lvp :=
  Pipeline.HostSeg.ofOps _ _ _ _ _ (Pipeline.ucRefs τ sig) hostOps0_1
    (fun op h => Pipeline.sub_ucRefs op ((List.forall_iff_forall_mem.mp hostOps0_1_sub) op h)) fresh0_1 (W₁ m) R
def seg1 : Pipeline.HostSeg (Name := ℕ) (U := UR sig nD τ) (pcfgs (F := F)) defs₀ 𝒱₀ Lp lvp :=
  Pipeline.HostSeg.ofOps _ _ _ _ _ (Pipeline.ucRefs τ sig) hostOps1
    (fun op h => Pipeline.sub_ucRefs op ((List.forall_iff_forall_mem.mp hostOps1_sub) op h)) fresh1 (Wₓ m) R
def seg1_1 : Pipeline.HostSeg (Name := ℕ) (U := UR sig nD τ) (pcfgs (F := F)) defs₀ 𝒱₀ Lp lvp :=
  Pipeline.HostSeg.ofOps _ _ _ _ _ (Pipeline.ucRefs τ sig) hostOps1_1
    (fun op h => Pipeline.sub_ucRefs op ((List.forall_iff_forall_mem.mp hostOps1_1_sub) op h)) fresh1_1 (W₂ m) R
def seg1_2 : Pipeline.HostSeg (Name := ℕ) (U := UR sig nD τ) (pcfgs (F := F)) defs₀ 𝒱₀ Lp lvp :=
  Pipeline.HostSeg.ofOps _ _ _ _ _ (Pipeline.ucRefs τ sig) hostOps1_2
    (fun op h => Pipeline.sub_ucRefs op ((List.forall_iff_forall_mem.mp hostOps1_2_sub) op h)) fresh1_2 (W₃ m) R

/-- The unscoped buffers that are no window's array are the same at the exit valuation as at entry. -/
theorem rest_exit (c : Dev nD) :
    (Pipeline.unscopedRest (Ix := Unit) (Name := ℕ) (U := UR sig nD τ) (Lvl := ℕ) spec0 c (fun b => Wₓ m c (Proc.devRef .tc b)) : sProp 𝕄)
      = Pipeline.unscopedRest spec0 c (V m c) := by
  unfold Pipeline.unscopedRest
  refine bigSep_congr fun b hb => ?_
  have hne : b ≠ main_v2 := fun e => (Finset.mem_sdiff.mp hb).2 (Finset.mem_image.mpr ⟨3, Finset.mem_univ _, e ▸ rfl⟩)
  show ((c : Thread nD τ).loc b ↦{fullShare} Wₓ m c (Proc.devRef .tc b) : sProp 𝕄) = _
  rw [Wₓ_of_ne m c b hne]

set_option backward.isDefEq.respectTransparency.types false in
/-- THE REGION. -/
def reg0 : Pipeline.RegionSeg (pcfgs (F := F)) adm (dats m) () defs₀ 𝒱₀ Lp lvp 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ Lp lvp 0 fun _ _ => rfl
  pre c := iprop(StableHlo.held (c : Thread nD τ) (Pipeline.ucRefs τ sig) (Wₑ m c) ∗ R c)
  post c := iprop(StableHlo.held (c : Thread nD τ) (Pipeline.ucRefs τ sig) (Wₓ m c) ∗ R c)
  X c := iprop(emp)
  Y c := iprop(emp)
  Z c := Pipeline.unscopedRest spec0 c (V m c)
  hentry c := by
    rw [← V0_eq m c,
      show StableHlo.held (c : Thread nD τ) (Pipeline.ucRefs τ sig) (V0 m c) = unscopedBufs c (V m c) from (Pipeline.unscopedBufs_held c _).symm,
      Pipeline.unscopedBufs_split₀ cfgs 0 winFacts₀0.arr_unscoped c (V m c)]
    iintro ⟨⟨⟨Hab, Hrest⟩, HO⟩, -, -⟩
    ihave Ha := (arrays_of_arrBufs m c (V m c) ((dats m 0 c).arrAt · 0) rfl rfl rfl rfl) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    iintro ⟨-, -, Hr⟩
    iapply (hin m c); iexact Hr
  hout c := by
    rw [Pipeline.ownSems0_none]
    iintro H
    isplitr; · iempintro
    isplitr; · iempintro
    iapply (hout m c); iexact H
  hexit c := by
    rw [show StableHlo.held (c : Thread nD τ) (Pipeline.ucRefs τ sig) (Wₓ m c) = unscopedBufs c (fun b => Wₓ m c (Proc.devRef .tc b)) from (Pipeline.unscopedBufs_held c _).symm,
      Pipeline.unscopedBufs_split₀ cfgs 0 winFacts₀0.arr_unscoped c (fun b => Wₓ m c (Proc.devRef .tc b)), rest_exit m c]
    iintro ⟨Ha, HO, -, HZ⟩
    ihave Hab := (arrBufs_of_arrays m c (fun b => Wₓ m c (Proc.devRef .tc b)) ((dats m 0 c).arrAt · cfg0.N)
      (((dats m 0 c).arrAt_in 0 rfl _).trans (Wₓ_of_ne m c main_v0 (by decide)).symm)
      (((dats m 0 c).arrAt_in 1 rfl _).trans (Wₓ_of_ne m c main_v0 (by decide)).symm)
      (((dats m 0 c).arrAt_in 2 rfl _).trans (Wₓ_of_ne m c main_v1 (by decide)).symm)
      (Wₓ_v2 m c).symm) $$ Ha
    imodintro
    isplitr [HO]
    · isplitl [Hab]; · iexact Hab
      iexact HZ
    · unfold Pipeline.Dat.owesAt Pipeline.owesWithin
      icases HO with ⟨%W, -, HO⟩; iexists W; iexact HO

abbrev segs : List (Pipeline.Seg (pcfgs (F := F)) adm (dats m) () defs₀ 𝒱₀ Lp lvp) :=
  [.host (seg0 m), .host (seg0_1 m), .region (reg0 m), .host (seg1 m), .host (seg1_1 m), .host (seg1_2 m)]

/-! ## The run -/

def u₀ : UR sig nD τ := initOf (Pipeline.cells cfgs cellOf_inj) (Pipeline.launchToks cfgs cellOf_inj)

/-- What the final state is read against: the result buffer at the last valuation, the argument arrays as launched. -/
def QC : PUnit × MemSt nD τ sig (Elt F) → Prop := fun r =>
  ∀ c : Dev nD, r.2.mem ((c : Thread nD τ).loc main_v27) = W₄ m c (Proc.devRef .tc main_v27)
    ∧ r.2.mem ((c : Thread nD τ).loc main_arg0) = m ((c : Thread nD τ).loc main_arg0)
    ∧ r.2.mem ((c : Thread nD τ).loc main_arg1) = m ((c : Thread nD τ).loc main_arg1)

theorem W₄_arg0 (c : Dev nD) : W₄ m c (Proc.devRef .tc main_arg0) = m ((c : Thread nD τ).loc main_arg0) :=
  (keep_tail (Wₓ m c) main_arg0 (.inl rfl)).trans ((Wₓ_of_ne m c main_arg0 (by decide)).trans (keep_pre m c main_arg0 (.inl rfl)))
theorem W₄_arg1 (c : Dev nD) : W₄ m c (Proc.devRef .tc main_arg1) = m ((c : Thread nD τ).loc main_arg1) :=
  (keep_tail (Wₓ m c) main_arg1 (.inr rfl)).trans ((Wₓ_of_ne m c main_arg1 (by decide)).trans (keep_pre m c main_arg1 (.inr rfl)))

set_option backward.isDefEq.respectTransparency.types false in
/-- At the compiled mesh, from any memory with zero counters: every weakly fair execution of @main terminates, nothing
    faulting, with the result buffer at what the operations after the region compute from the region's exit contents
    and both argument arrays unchanged. -/
theorem run_main : θ_run defs (onTc (τ := τ) (main (F := F))) (s₀ m ρ) (QC m) :=
  Pipeline.θ_run_regions_kit (pcfgs (F := F)) adm (dats m) () cellOf_inj EP defs₀ 𝒱₀ Lp lvp m ρ main (segs m)
    (fun c Q => by rw [main_chain, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W₀ m c) ∗ R c))
    (Tₙ := fun c => StableHlo.held (c : Thread nD τ) (Pipeline.ucRefs τ sig) (W₄ m c))
    (hch := ⟨fun _ => .rfl, fun _ => .rfl, fun _ => .rfl, fun _ => .rfl, fun _ => .rfl, fun _ => .rfl, fun _ => .rfl⟩)
    (hinit := by
      refine Pipeline.initEach Lp lvp fun c => ?_
      rw [show unscopedBufs c (fun b => m ((c : Thread nD τ).loc b)) = StableHlo.held (c : Thread nD τ) (Pipeline.ucRefs τ sig) (W₀ m c) from Pipeline.unscopedBufs_held c (W₀ m c)]
      iintro ⟨⟨Hh, -, HO, -, -, -⟩, -⟩
      imodintro
      isplitl [Hh]; · iexact Hh
      iexists ∅; iexact HO)
    (QY := fun c s => s.mem ((c : Thread nD τ).loc main_v27) = W₄ m c (Proc.devRef .tc main_v27)
      ∧ s.mem ((c : Thread nD τ).loc main_arg0) = m ((c : Thread nD τ).loc main_arg0)
      ∧ s.mem ((c : Thread nD τ).loc main_arg1) = m ((c : Thread nD τ).loc main_arg1))
    (hfin := fun c s' => by
      unfold StableHlo.held
      iintro ⟨Hh, HSI⟩
      ihave Hr := (pointsTo_read_all (Pipeline.ucRefs τ sig) (fun b => ((c : Thread nD τ).1, b)) (fun b => W₄ m c b) s') $$ [Hh HSI]
      · isplitl [Hh] <;> iassumption
      icases Hr with ⟨%hr, HSI⟩
      imodintro
      isplitr
      · ipureintro
        have hmem : ∀ b : Ref sig .tc, b.isScoped = false → Proc.devRef (τ := τ) .tc b ∈ Pipeline.ucRefs τ sig := fun b hb =>
          Finset.mem_filter.mpr ⟨StableHlo.devRef_mem_tcRefs b, by simpa using hb⟩
        exact ⟨hr _ (hmem main_v27 rfl), (hr _ (hmem main_arg0 rfl)).trans (W₄_arg0 m c), (hr _ (hmem main_arg1 rfl)).trans (W₄_arg1 m c)⟩
      iexact HSI)
    (hQ := fun _ h => h)

end Cert.Kernel.Hand

end
-- ==== Proof.KI.Runs.lean ====
/-
  What the three runs of the kernel body share: the buffer contents when the region is entered, each window's block
  read off its array, the body's two branch conditions in closed form over the grid (the grid is 8 row blocks by 4
  key tiles, point t = 4·i + j: the first condition holds exactly at j = 0, where the two scratch buffers are reset,
  the second exactly at j = 3, where the accumulator is copied into the output block), and where the output window is
  idle (every point but j = 3).
-/
import proofs.«406752_j68152541053487_3_alg».proof.Proof.Gen.KernelIdeal.Launch
import proofs.«406752_j68152541053487_3_alg».proof.Proof.Gen.KernelIdeal.Skeleton
import proofs.«406752_j68152541053487_3_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents when the region is entered: the launch contents after the cast of the features and
    the one-hot encoding of the labels. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not (where it is
    not fetched the block index has not moved), for any proof data over these arrays that leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first conditional's condition, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's condition. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the second condition fails the output window is idle: the body stores nothing into it, -/
theorem idleAt0_3 : ∀ t : Fin cfg0.N, ¬cond0_1 (grid0.coords t) → cfg0.idle 3 (grid0.coords t) = true := by decide +kernel
/-- and the pipeline does not write its block back. -/
theorem noFlush0_3 : ∀ t : Fin cfg0.N, ¬cond0_1 (grid0.coords t) → (cfg0.win 3).flush t = false := by decide +kernel
/-- Where it holds the window is live. -/
theorem liveAt0_3 : ∀ t : Fin cfg0.N, cond0_1 (grid0.coords t) → cfg0.idle 3 (grid0.coords t) = false := by decide +kernel

/-! ## The memrefs the body is called with -/

abbrev VO0_3 : View sig .tc .vmem S1024x128 .f32 := (Memref.whole cc0_stg3_0 : Memref sig .tc .vmem S1024x128 .f32).view
abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
abbrev hs0_3 (t : Fin cfg0.N) : (ms0_3 t).IsWhole := hstage0_3 ((cfg0.slots t 3).cast nbuf0_3)
/-- The two scratch operands: the per-class accumulator and the running maximum. -/
abbrev scM0_0 : Memref sig .tc .vmem S1024x128 .f32 := Memref.whole cc0_scratch0
abbrev scM0_1 : Memref sig .tc .vmem S1024x1 .f32 := Memref.whole cc0_scratch1
abbrev VS0_0 : View sig .tc .vmem S1024x128 .f32 := scM0_0.view
abbrev VS0_1 : View sig .tc .vmem S1024x1 .f32 := scM0_1.view

end Cert.KernelIdeal.Hand

end
-- ==== Proof.KI.RunA.lean ====
/-
  The kernel body run at the points j = 0: the scratch buffers are reset (zeros, bottom), then updated from the first key tile; the output window is left as found. The run is stated on any whole staging memrefs; the pieces each buffer ends with are
  found by the run itself.
-/
import proofs.«406752_j68152541053487_3_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body's triple in this case, with the pieces the output block (`L3`), the accumulator (`LS0`) and the
    running maximum (`LS1`) end with as its witness. -/
noncomputable def kernelRun0_A (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S2048x128 .bf16) (x2 : Vec F S2048x128 .bf16) :
    Σ' (L3 : List (View.Piece (Elt F) S1024x128 .f32)) (LS0 : List (View.Piece (Elt F) S1024x128 .f32)), { LS1 : List (View.Piece (Elt F) S1024x1 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__kernel i arg2 harg2 arg3 harg3 arg4 harg4 arg5 harg5 arg6 harg6 arg7 harg7) K } := by
  refine ⟨[], ?_, ?_, fun xi3 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KI.RunB.lean ====
/-
  The kernel body run at the points j = 1, 2: the scratch buffers, found at what the point before left, are updated from the key tile; the output window is left as found. The run is stated on any whole staging memrefs; the pieces each buffer ends with are
  found by the run itself.
-/
import proofs.«406752_j68152541053487_3_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body's triple in this case, with the pieces the output block (`L3`), the accumulator (`LS0`) and the
    running maximum (`LS1`) end with as its witness. -/
noncomputable def kernelRun0_B (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S2048x128 .bf16) (x2 : Vec F S2048x128 .bf16) (xs0 : Vec F S1024x128 .f32) (xs1 : Vec F S1024x1 .f32) :
    Σ' (L3 : List (View.Piece (Elt F) S1024x128 .f32)) (LS0 : List (View.Piece (Elt F) S1024x128 .f32)), { LS1 : List (View.Piece (Elt F) S1024x1 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__kernel i arg2 harg2 arg3 harg3 arg4 harg4 arg5 harg5 arg6 harg6 arg7 harg7) K } := by
  refine ⟨[], ?_, ?_, fun xi3 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KI.RunC.lean ====
/-
  The kernel body run at the points j = 3: the scratch buffers are updated from the last key tile and the accumulator is copied into the output block. The run is stated on any whole staging memrefs; the pieces each buffer ends with are
  found by the run itself.
-/
import proofs.«406752_j68152541053487_3_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body's triple in this case, with the pieces the output block (`L3`), the accumulator (`LS0`) and the
    running maximum (`LS1`) end with as its witness. -/
noncomputable def kernelRun0_C (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S2048x128 .bf16) (x2 : Vec F S2048x128 .bf16) (xs0 : Vec F S1024x128 .f32) (xs1 : Vec F S1024x1 .f32) :
    Σ' (L3 : List (View.Piece (Elt F) S1024x128 .f32)) (LS0 : List (View.Piece (Elt F) S1024x128 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, ?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.Hand

end
-- ==== Proof.KI.Body.lean ====
/-
  The kernel body at every grid point: what each of the three cases leaves in the output block, the accumulator and the
  running maximum; what these hold point by point (the reset at j = 0 makes the recursion restart in every row block);
  the region's invariant, which carries the two scratch buffers at what the point before left; the pipeline's proof
  data — the features array reaches the kernel through two windows (row blocks and key tiles), which hold it at
  complementary half shares —; and the body obligation.
-/
import proofs.«406752_j68152541053487_3_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Case A: what the run leaves in the output block's staging buffer (its pieces read back; none here: a placeholder nothing consults, the window being idle). -/
def out0_A_3 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S2048x128 .bf16) (x2 : Vec F S2048x128 .bf16) : Vec F S1024x128 .f32 :=
  VO0_3.read (Elt F) (VO0_3.writes (Elt F) VO0_3.junk (kernelRun0_A c i arg2 harg2 arg3 harg3 arg4 harg4 arg5 harg5 arg6 harg6 arg7 harg7 hc0 hc1 x0 x1 x2).1)

/-- Case A's pieces for the accumulator cover it. -/
theorem scover0_A_0 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S2048x128 .bf16) (x2 : Vec F S2048x128 .bf16) (y : S1024x128.Idx) :
    ∃ pc ∈ (kernelRun0_A c i arg2 harg2 arg3 harg3 arg4 harg4 arg5 harg5 arg6 harg6 arg7 harg7 hc0 hc1 x0 x1 x2).2.1, y ∈ pc.1.set :=
  View.cover_of_tiledL (kernelRun0_A c i arg2 harg2 arg3 harg3 arg4 harg4 arg5 harg5 arg6 harg6 arg7 harg7 hc0 hc1 x0 x1 x2).2.1 S1024x128.size (by sl_kernel_rfl) y

/-- What case A leaves in the accumulator. -/
def sout0_A_0 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S2048x128 .bf16) (x2 : Vec F S2048x128 .bf16) : Vec F S1024x128 .f32 :=
  VS0_0.read (Elt F) (VS0_0.writes (Elt F) VS0_0.junk (kernelRun0_A c i arg2 harg2 arg3 harg3 arg4 harg4 arg5 harg5 arg6 harg6 arg7 harg7 hc0 hc1 x0 x1 x2).2.1)

/-- Case A's pieces for the running maximum cover it. -/
theorem scover0_A_1 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S2048x128 .bf16) (x2 : Vec F S2048x128 .bf16) (y : S1024x1.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S1024x1.size (by sl_kernel_rfl) y

/-- What case A leaves in the running maximum. -/
def sout0_A_1 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S2048x128 .bf16) (x2 : Vec F S2048x128 .bf16) : Vec F S1024x1 .f32 :=
  VS0_1.read (Elt F) (VS0_1.writes (Elt F) VS0_1.junk (kernelRun0_A c i arg2 harg2 arg3 harg3 arg4 harg4 arg5 harg5 arg6 harg6 arg7 harg7 hc0 hc1 x0 x1 x2).2.2.1)

/-- Case B: what the run leaves in the output block's staging buffer (its pieces read back; none here: a placeholder nothing consults, the window being idle). -/
def out0_B_3 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S2048x128 .bf16) (x2 : Vec F S2048x128 .bf16) (xs0 : Vec F S1024x128 .f32) (xs1 : Vec F S1024x1 .f32) : Vec F S1024x128 .f32 :=
  VO0_3.read (Elt F) (VO0_3.writes (Elt F) VO0_3.junk (kernelRun0_B c i arg2 harg2 arg3 harg3 arg4 harg4 arg5 harg5 arg6 harg6 arg7 harg7 hc0 hc1 x0 x1 x2 xs0 xs1).1)

/-- Case B's pieces for the accumulator cover it. -/
theorem scover0_B_0 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S2048x128 .bf16) (x2 : Vec F S2048x128 .bf16) (xs0 : Vec F S1024x128 .f32) (xs1 : Vec F S1024x1 .f32) (y : S1024x128.Idx) :
    ∃ pc ∈ (kernelRun0_B c i arg2 harg2 arg3 harg3 arg4 harg4 arg5 harg5 arg6 harg6 arg7 harg7 hc0 hc1 x0 x1 x2 xs0 xs1).2.1, y ∈ pc.1.set :=
  View.cover_of_tiledL (kernelRun0_B c i arg2 harg2 arg3 harg3 arg4 harg4 arg5 harg5 arg6 harg6 arg7 harg7 hc0 hc1 x0 x1 x2 xs0 xs1).2.1 S1024x128.size (by sl_kernel_rfl) y

/-- What case B leaves in the accumulator. -/
def sout0_B_0 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S2048x128 .bf16) (x2 : Vec F S2048x128 .bf16) (xs0 : Vec F S1024x128 .f32) (xs1 : Vec F S1024x1 .f32) : Vec F S1024x128 .f32 :=
  VS0_0.read (Elt F) (VS0_0.writes (Elt F) VS0_0.junk (kernelRun0_B c i arg2 harg2 arg3 harg3 arg4 harg4 arg5 harg5 arg6 harg6 arg7 harg7 hc0 hc1 x0 x1 x2 xs0 xs1).2.1)

/-- Case B's pieces for the running maximum cover it. -/
theorem scover0_B_1 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S2048x128 .bf16) (x2 : Vec F S2048x128 .bf16) (xs0 : Vec F S1024x128 .f32) (xs1 : Vec F S1024x1 .f32) (y : S1024x1.Idx) :
    ∃ pc ∈ (kernelRun0_B c i arg2 harg2 arg3 harg3 arg4 harg4 arg5 harg5 arg6 harg6 arg7 harg7 hc0 hc1 x0 x1 x2 xs0 xs1).2.2.1, y ∈ pc.1.set :=
  View.cover_of_tiledL (kernelRun0_B c i arg2 harg2 arg3 harg3 arg4 harg4 arg5 harg5 arg6 harg6 arg7 harg7 hc0 hc1 x0 x1 x2 xs0 xs1).2.2.1 S1024x1.size (by sl_kernel_rfl) y

/-- What case B leaves in the running maximum. -/
def sout0_B_1 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S2048x128 .bf16) (x2 : Vec F S2048x128 .bf16) (xs0 : Vec F S1024x128 .f32) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 hc0 hc1 x0 x1 x2 xs0 xs1).2.2.1)

/-- Case C: what the run leaves in the output block's staging buffer (its pieces read back). -/
def out0_C_3 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S2048x128 .bf16) (x2 : Vec F S2048x128 .bf16) (xs0 : Vec F S1024x128 .f32) (xs1 : Vec F S1024x1 .f32) : Vec F S1024x128 .f32 :=
  VO0_3.read (Elt F) (VO0_3.writes (Elt F) VO0_3.junk (kernelRun0_C c i arg2 harg2 arg3 harg3 arg4 harg4 arg5 harg5 arg6 harg6 arg7 harg7 hc0 hc1 x0 x1 x2 xs0 xs1).1)

/-- Case C's one store into the output block covers it. -/
theorem cover0_C_3 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S2048x128 .bf16) (x2 : Vec F S2048x128 .bf16) (xs0 : Vec F S1024x128 .f32) (xs1 : Vec F S1024x1 .f32) (y : S1024x128.Idx) :
    ∃ pc ∈ (kernelRun0_C c i arg2 harg2 arg3 harg3 arg4 harg4 arg5 harg5 arg6 harg6 arg7 harg7 hc0 hc1 x0 x1 x2 xs0 xs1).1, y ∈ pc.1.set :=
  View.cover_of_tiledL (kernelRun0_C c i arg2 harg2 arg3 harg3 arg4 harg4 arg5 harg5 arg6 harg6 arg7 harg7 hc0 hc1 x0 x1 x2 xs0 xs1).1 S1024x128.size (by sl_kernel_rfl) y

/-- Case C's pieces for the accumulator cover it. -/
theorem scover0_C_0 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S2048x128 .bf16) (x2 : Vec F S2048x128 .bf16) (xs0 : Vec F S1024x128 .f32) (xs1 : Vec F S1024x1 .f32) (y : S1024x128.Idx) :
    ∃ pc ∈ (kernelRun0_C c i arg2 harg2 arg3 harg3 arg4 harg4 arg5 harg5 arg6 harg6 arg7 harg7 hc0 hc1 x0 x1 x2 xs0 xs1).2.1, y ∈ pc.1.set :=
  View.cover_of_tiledL (kernelRun0_C c i arg2 harg2 arg3 harg3 arg4 harg4 arg5 harg5 arg6 harg6 arg7 harg7 hc0 hc1 x0 x1 x2 xs0 xs1).2.1 S1024x128.size (by sl_kernel_rfl) y

/-- What case C leaves in the accumulator. -/
def sout0_C_0 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S2048x128 .bf16) (x2 : Vec F S2048x128 .bf16) (xs0 : Vec F S1024x128 .f32) (xs1 : Vec F S1024x1 .f32) : Vec F S1024x128 .f32 :=
  VS0_0.read (Elt F) (VS0_0.writes (Elt F) VS0_0.junk (kernelRun0_C c i arg2 harg2 arg3 harg3 arg4 harg4 arg5 harg5 arg6 harg6 arg7 harg7 hc0 hc1 x0 x1 x2 xs0 xs1).2.1)

/-- Case C's pieces for the running maximum cover it. -/
theorem scover0_C_1 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S2048x128 .bf16) (x2 : Vec F S2048x128 .bf16) (xs0 : Vec F S1024x128 .f32) (xs1 : Vec F S1024x1 .f32) (y : S1024x1.Idx) :
    ∃ pc ∈ (kernelRun0_C c i arg2 harg2 arg3 harg3 arg4 harg4 arg5 harg5 arg6 harg6 arg7 harg7 hc0 hc1 x0 x1 x2 xs0 xs1).2.2.1, y ∈ pc.1.set :=
  View.cover_of_tiledL (kernelRun0_C c i arg2 harg2 arg3 harg3 arg4 harg4 arg5 harg5 arg6 harg6 arg7 harg7 hc0 hc1 x0 x1 x2 xs0 xs1).2.2.1 S1024x1.size (by sl_kernel_rfl) y

/-- What case C leaves in the running maximum. -/
def sout0_C_1 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S2048x128 .bf16) (x2 : Vec F S2048x128 .bf16) (xs0 : Vec F S1024x128 .f32) (xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 hc0 hc1 x0 x1 x2 xs0 xs1).2.2.1)

/-! ## What the buffers hold after each point -/

/-- After the body at position `n`: the output block's staging buffer, the accumulator, the running maximum. The case
    is the one the closed forms select; cases B and C start from what position `n - 1` left in the two scratch buffers. -/
def outsAt0 (c : Dev nD) : (n : ℕ) → n < cfg0.N → Vec F S1024x128 .f32 × Vec F S1024x128 .f32 × Vec F S1024x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 4 = 0 then
      if h1 : (n + 1) % 4 = 3 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)

theorem outsAt0_A (c : Dev nD) (t : Fin cfg0.N) (h0 : t.val % 4 = 0) (h1 : ¬t.val % 4 = 3) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: the two scratch buffers at anything before the first point, afterwards at what the point
    before left in them. -/
def PhiS (c : Dev nD) : (n : ℕ) → n ≤ cfg0.N → sProp 𝕄
  | 0, _ => iprop((∃ d, owns (c : Thread nD τ) scM0_0 fullShare d) ∗ (∃ d, owns (c : Thread nD τ) scM0_1 fullShare d))
  | n + 1, hn => iprop(owns (c : Thread nD τ) scM0_0 fullShare ((outsAt0 m c n hn).2.1) ∗ owns (c : Thread nD τ) scM0_1 fullShare ((outsAt0 m c n hn).2.2))

theorem PhiS_zero (c : Dev nD) (n : ℕ) (h : n ≤ cfg0.N) (hz : n = 0) :
    PhiS m c n h = iprop((∃ d, owns (c : Thread nD τ) scM0_0 fullShare d) ∗ (∃ d, owns (c : Thread nD τ) scM0_1 fullShare d)) := by
  subst hz; rfl

theorem PhiS_succ (c : Dev nD) (n : ℕ) (hn : n < cfg0.N) :
    PhiS m c (n + 1) hn = iprop(owns (c : Thread nD τ) scM0_0 fullShare ((outsAt0 m c n hn).2.1) ∗ owns (c : Thread nD τ) scM0_1 fullShare ((outsAt0 m c n hn).2.2)) := rfl

theorem PhiS_pos (c : Dev nD) (n : ℕ) (h : n ≤ cfg0.N) (hz : n ≠ 0) :
    PhiS m c n h = iprop(owns (c : Thread nD τ) scM0_0 fullShare ((outsAt0 m c (n - 1) (by omega)).2.1) ∗ owns (c : Thread nD τ) scM0_1 fullShare ((outsAt0 m c (n - 1) (by omega)).2.2)) := by
  cases n with
  | zero => exact absurd rfl hz
  | succ n => rfl

/-! ## The pipeline's proof data -/

/-- The arrays as the region finds them; after the body each input's buffer at its block and the output's at the
    recursion's first component; the invariant above; nothing owed; the features array, which two windows read, held
    by them at the two halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the closed forms say which case the point is in; the
    invariant hands the body the two scratch buffers at what the point before left (at anything at the first point) and
    takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz]
        iintro ⟨⟨HS0, HS1⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _)
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨HS0, HS1⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _)
        isplitl [Ho]; · iexact Ho
        isplitl [H0]; · iexact H0
        isplitl [H1]; · iexact H1
        isplitl [H2]; · iexact H2
        iexists _; iexact H3
  · by_cases h1 : t.val % 4 = 3
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_3 sout0_C_0 sout0_C_1; (try dsimp only)
      by_cases hz : t.val = 0
      · exfalso; omega
      · rw [PhiS_castSucc m c t, PhiS_pos m c _ _ hz]
        iintro ⟨⟨HS0, HS1⟩, Ho, ⟨%d0, H0⟩, ⟨%d1, H1⟩, ⟨%d2, H2⟩, ⟨%d3, H3⟩⟩
        iapply ((kernelRun0_C c (grid0.coords t) _ _ _ _ _ _ _ _ _ _ _ _ (fun h => h0 ((hcond0_0 t).mp h)) ((hcond0_1 t).mpr h1) (iblk m c 0 t) (iblk m c 1 t) (iblk m c 2 t) _ _).2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        iintro ⟨H0, H1, H2, ⟨%e3, H3⟩, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _)
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0 sout0_B_1; (try dsimp only)
      by_cases hz : t.val = 0
      · exfalso; omega
      · rw [PhiS_castSucc m c t, PhiS_pos m c _ _ hz]
        iintro ⟨⟨HS0, HS1⟩, Ho, ⟨%d0, H0⟩, ⟨%d1, H1⟩, ⟨%d2, H2⟩, ⟨%d3, H3⟩⟩
        iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _)
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region of the scoped buffers is the invariant before the first point, -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl, scopedRest0_eq]
  simp only [scM0_0, scM0_1, owns_whole]
  try exact Idealize.SL.BI.Entails.refl _

/-- and after the last point the invariant gives them back, their named contents forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), scopedRest0_eq]
  simp only [scM0_0, scM0_1, owns_whole]
  iintro ⟨HS0, HS1⟩
  isplitl [HS0]
  · iexists _; iexact HS0
  · iexists _; iexact HS1

end Cert.KernelIdeal.Hand

end
-- ==== Proof.KI.Share.lean ====
/-
  The features array behind two windows. The launch hands the region the three distinct buffers behind the four
  windows' arrays, each whole at the full share; the pipeline wants one points-to per window. The features array
  (`main_v0`), read by the row-block window and by the key-tile window, is split between them along the full share's two
  halves at entry and joined again at exit, where both still hold the contents they were given.
-/
import proofs.«406752_j68152541053487_3_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The distinct buffers behind the windows' arrays. -/
theorem arrRefs_eq : (Finset.univ.image (Pipeline.arrRef spec0) : Finset (Ref sig .tc)) = [main_v0, main_v1, main_v2].toFinset := by decide

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl

/-- The three buffers, one by one. -/
theorem arrBufs_eq (c : Dev nD) (Vf : (b : Ref sig .tc) → Buf (Elt F) ((c : Thread nD τ).loc b)) :
    (Pipeline.arrBufs spec0 c Vf : sProp 𝕄)
      = iprop((((c : Thread nD τ).loc main_v0) ↦{fullShare} Vf main_v0) ∗ (((c : Thread nD τ).loc main_v1) ↦{fullShare} Vf main_v1)
          ∗ (((c : Thread nD τ).loc main_v2) ↦{fullShare} Vf main_v2)) := by
  unfold Pipeline.arrBufs
  exact bigSep_eq_bigSepL_of_eq [main_v0, main_v1, main_v2] arrRefs_eq (by decide) _

/-- ENTRY: the three buffers at contents `Vf` make the four windows' arrays at contents that read `Vf`. -/
theorem arrays_of_arrBufs (c : Dev nD) (Vf : (b : Ref sig .tc) → Buf (Elt F) ((c : Thread nD τ).loc b))
    (Fa : (w : Fin cfg0.W) → Buf (Elt F) ((cfg0.win w).arr.view.loc (c : Thread nD τ)))
    (h0 : Fa 0 = Vf main_v0) (h1 : Fa 1 = Vf main_v0) (h2 : Fa 2 = Vf main_v1) (h3 : Fa 3 = Vf main_v2) :
    (Pipeline.arrBufs spec0 c Vf : sProp 𝕄) ⊢ (dats m 0 c).arrays Fa := by
  rw [arrBufs_eq]
  unfold Dat.arrays
  rw [bigSep_W0]
  simp only [share0, share1, share2, share3, (arr_whole0 0).set_eq_univ, (arr_whole0 1).set_eq_univ,
    (arr_whole0 2).set_eq_univ, (arr_whole0 3).set_eq_univ]
  rw [h0, h1, h2, h3]
  iintro ⟨H0, H1, H2⟩
  ihave H := (pointsTo_share (PosShare.mem_left_op_right fullShare)).1 $$ H0
  icases H with ⟨Hl, Hr⟩
  isplitl [Hl]; · iexact Hl
  isplitl [Hr]; · iexact Hr
  isplitl [H1]; · iexact H1
  iexact H2

/-- EXIT: the converse. -/
theorem arrBufs_of_arrays (c : Dev nD) (Vf : (b : Ref sig .tc) → Buf (Elt F) ((c : Thread nD τ).loc b))
    (Fa : (w : Fin cfg0.W) → Buf (Elt F) ((cfg0.win w).arr.view.loc (c : Thread nD τ)))
    (h0 : Fa 0 = Vf main_v0) (h1 : Fa 1 = Vf main_v0) (h2 : Fa 2 = Vf main_v1) (h3 : Fa 3 = Vf main_v2) :
    (dats m 0 c).arrays Fa ⊢ (Pipeline.arrBufs spec0 c Vf : sProp 𝕄) := by
  rw [arrBufs_eq]
  unfold Dat.arrays
  rw [bigSep_W0]
  simp only [share0, share1, share2, share3, (arr_whole0 0).set_eq_univ, (arr_whole0 1).set_eq_univ,
    (arr_whole0 2).set_eq_univ, (arr_whole0 3).set_eq_univ]
  rw [h0, h1, h2, h3]
  iintro ⟨Hl, Hr, H1, H2⟩
  isplitl [Hl Hr]
  · iapply (pointsTo_share (PosShare.mem_left_op_right fullShare)).2
    isplitl [Hl]; · iexact Hl
    iexact Hr
  isplitl [H1]; · iexact H1
  iexact H2

end Cert.KernelIdeal.Hand

end
-- ==== Proof.KI.Keep.lean ====
/-
  No operation of @main writes an argument array: each writes only its own result buffer.
-/
import proofs.«406752_j68152541053487_3_alg».proof.Proof.KI.Runs

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F] [Named F]

variable (m : (ℓ : Loc nD τ sig) → Buf (Elt F) ℓ)

theorem nw0 (b : Ref sig .tc) (hb : b = main_arg0 ∨ b = main_arg1) : ∀ op ∈ (hostOps0 (F := F)), Proc.devRef (τ := τ) .tc b ∉ op.writes := by
  intro op hop
  simp only [hostOps0, List.mem_cons, List.mem_nil_iff, or_false] at hop
  rcases hb with rfl | rfl <;> rcases hop with rfl <;>
    simp only [StableHlo.unary_writes, Finset.mem_singleton] <;> exact StableHlo.devRef_ne_of_ne (by decide)

theorem nw0_1 (b : Ref sig .tc) (hb : b = main_arg0 ∨ b = main_arg1) : ∀ op ∈ (hostOps0_1 (F := F)), Proc.devRef (τ := τ) .tc b ∉ op.writes := by
  intro op hop
  simp only [hostOps0_1, List.mem_cons, List.mem_nil_iff, or_false] at hop
  rcases hb with rfl | rfl <;> rcases hop with rfl | rfl | rfl | rfl | rfl | rfl <;>
    simp only [StableHlo.TRef.nullary, StableHlo.TRef.unary, StableHlo.TRef.binary, StableHlo.unary_writes, StableHlo.binary_writes, StableHlo.nullary_writes, Finset.mem_singleton] <;>
    exact StableHlo.devRef_ne_of_ne (by decide)

theorem nw1 (b : Ref sig .tc) (hb : b = main_arg0 ∨ b = main_arg1) : ∀ op ∈ (hostOps1 (F := F)), Proc.devRef (τ := τ) .tc b ∉ op.writes := by
  intro op hop
  simp only [hostOps1, List.mem_cons, List.mem_nil_iff, or_false] at hop
  rcases hb with rfl | rfl <;> rcases hop with rfl | rfl | rfl <;>
    simp only [StableHlo.unary_writes, StableHlo.binary_writes, StableHlo.nullary_writes, Finset.mem_singleton] <;>
    exact StableHlo.devRef_ne_of_ne (by decide)

theorem nw1_1 (b : Ref sig .tc) (hb : b = main_arg0 ∨ b = main_arg1) : ∀ op ∈ (hostOps1_1 (F := F)), Proc.devRef (τ := τ) .tc b ∉ op.writes := by
  intro op hop
  simp only [hostOps1_1, List.mem_cons, List.mem_nil_iff, or_false] at hop
  rcases hb with rfl | rfl <;> rcases hop with rfl | rfl | rfl | rfl | rfl | rfl | rfl | rfl | rfl | rfl | rfl | rfl | rfl | rfl | rfl | rfl | rfl | rfl | rfl | rfl | rfl | rfl <;>
    simp only [StableHlo.TRef.nullary, StableHlo.TRef.unary, StableHlo.TRef.binary, StableHlo.TRef.ternary, StableHlo.TRef.reshape,
      StableHlo.unary_writes, StableHlo.binary_writes, StableHlo.nullary_writes, StableHlo.ternary_writes, StableHlo.reshape_writes, Finset.mem_singleton] <;>
    exact StableHlo.devRef_ne_of_ne (by decide)

theorem nw1_2 (b : Ref sig .tc) (hb : b = main_arg0 ∨ b = main_arg1) : ∀ op ∈ (hostOps1_2 (F := F)), Proc.devRef (τ := τ) .tc b ∉ op.writes := by
  intro op hop
  simp only [hostOps1_2, List.mem_cons, List.mem_nil_iff, or_false] at hop
  rcases hb with rfl | rfl <;> rcases hop with rfl | rfl | rfl | rfl | rfl | rfl | rfl | rfl | rfl | rfl | rfl | rfl | rfl | rfl | rfl | rfl | rfl | rfl | rfl | rfl | rfl | rfl | rfl | rfl | rfl | rfl | rfl | rfl | rfl <;>
    simp only [StableHlo.unary_writes, StableHlo.binary_writes, StableHlo.nullary_writes, StableHlo.ternary_writes, StableHlo.reshape_writes, Finset.mem_singleton] <;>
    exact StableHlo.devRef_ne_of_ne (by decide)

/-- The two stretches before the region keep the arguments, -/
theorem keep_pre (c : Dev nD) (b : Ref sig .tc) (hb : b = main_arg0 ∨ b = main_arg1) : V m c b = m ((c : Thread nD τ).loc b) := by
  show StableHlo.after (List.flatten [hostOps0, hostOps0_1]) (fun b => m (c, b)) (Proc.devRef .tc b) = _
  simp only [List.flatten_cons, List.flatten_nil, List.append_nil]
  rw [StableHlo.after_append, StableHlo.after_of_forall_not_mem hostOps0_1 _ (nw0_1 b hb), StableHlo.after_of_forall_not_mem hostOps0 _ (nw0 b hb)]

/-- and so do the three after it. -/
theorem keep_tail (W : Valuation τ sig (Elt F)) (b : Ref sig .tc) (hb : b = main_arg0 ∨ b = main_arg1) :
    StableHlo.after hostOps1_2 (StableHlo.after hostOps1_1 (StableHlo.after hostOps1 W)) (Proc.devRef .tc b) = W (Proc.devRef .tc b) := by
  rw [StableHlo.after_of_forall_not_mem hostOps1_2 _ (nw1_2 b hb), StableHlo.after_of_forall_not_mem hostOps1_1 _ (nw1_1 b hb),
    StableHlo.after_of_forall_not_mem hostOps1 _ (nw1 b hb)]

end Cert.KernelIdeal.Hand

end
-- ==== Proof.KI.Launch.lean ====
/-
  The launch. @main is six stretches in a row — the cast of the features, the one-hot encoding of the labels, the
  kernel region, and three stretches of operations on the kernel's result — and runs as that list: each stretch of
  operations runs within the core's unscoped buffers, held whole at a valuation that the stretch advances; the region
  takes its three arrays out of that set (the features array split between its two windows), runs the pipeline over
  the proof data, and puts them back with the result array at what the pipeline wrote back. At the end the result
  buffer holds what the last three stretches compute from the region's exit contents, and the two argument arrays,
  which no operation writes, hold what they held at launch.
-/
import proofs.«406752_j68152541053487_3_alg».proof.Proof.KI.Share
import proofs.«406752_j68152541053487_3_alg».proof.Proof.KI.Keep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The valuations along @main -/

/-- At launch; after the cast; when the region is entered. -/
abbrev W₀ (c : Dev nD) : Valuation τ sig (Elt F) := fun b => m (c, b)
abbrev W₁ (c : Dev nD) : Valuation τ sig (Elt F) := StableHlo.after hostOps0 (W₀ m c)
abbrev Wₑ (c : Dev nD) : Valuation τ sig (Elt F) := StableHlo.after hostOps0_1 (W₁ m c)

theorem V0_eq (c : Dev nD) : V0 m c = Wₑ m c := by
  unfold V0
  simp only [List.flatten_cons, List.flatten_nil, List.append_nil]
  exact StableHlo.after_append _ _ _

/-- When the region is left: the result array at what the pipeline wrote back, every other buffer as entered. -/
def Wₓ (c : Dev nD) : Valuation τ sig (Elt F) :=
  Function.update (V0 m c) (Proc.devRef .tc main_v2) ((dats m 0 c).arrAt 3 cfg0.N)

theorem Wₓ_v2 (c : Dev nD) : Wₓ m c (Proc.devRef .tc main_v2) = (dats m 0 c).arrAt 3 cfg0.N := by
  unfold Wₓ; exact Function.update_self _ _ _

theorem Wₓ_of_ne (c : Dev nD) (b : Ref sig .tc) (hb : b ≠ main_v2) : Wₓ m c (Proc.devRef .tc b) = V m c b := by
  unfold Wₓ; exact Function.update_of_ne (StableHlo.devRef_ne_of_ne hb) _ _

/-- After the three stretches that follow the region. -/
abbrev W₂ (c : Dev nD) : Valuation τ sig (Elt F) := StableHlo.after hostOps1 (Wₓ m c)
abbrev W₃ (c : Dev nD) : Valuation τ sig (Elt F) := StableHlo.after hostOps1_1 (W₂ m c)
abbrev W₄ (c : Dev nD) : Valuation τ sig (Elt F) := StableHlo.after hostOps1_2 (W₃ m c)

/-! ## The segments -/

abbrev EP : Emb (UR sig nD τ) (MT nD τ sig Unit (Elt F) ℕ (UR sig nD τ) ℕ) := emb₁
abbrev 𝒱₀ : Variants := Variants.none
abbrev Lp : GSem nD τ sig → Finset Unit := fun _ => ∅
abbrev lvp : GSem nD τ sig → Unit → ℕ := fun _ _ => 0
abbrev adm : (p : Fin 1) → (pcfgs (F := F) p).Adm := fun p => (cfgs p).toPCfg_adm

/-- What rides beside the buffers: the core owing nothing. -/
abbrev R (c : Dev nD) : sProp 𝕄 := iprop(∃ W, owes (c : Thread nD τ) (0 : CellTallies nD τ sig Unit) W)

theorem fresh0 : ∀ op ∈ (hostOps0 (F := F)), op.fresh = ∅ := by
  intro _ h; (repeat (cases h with | head => rfl | tail _ h => ?_)); exact nomatch h
theorem fresh0_1 : ∀ op ∈ (hostOps0_1 (F := F)), op.fresh = ∅ := by
  intro _ h; (repeat (cases h with | head => rfl | tail _ h => ?_)); exact nomatch h
theorem fresh1 : ∀ op ∈ (hostOps1 (F := F)), op.fresh = ∅ := by
  intro _ h; (repeat (cases h with | head => rfl | tail _ h => ?_)); exact nomatch h
theorem fresh1_1 : ∀ op ∈ (hostOps1_1 (F := F)), op.fresh = ∅ := by
  intro _ h; (repeat (cases h with | head => rfl | tail _ h => ?_)); exact nomatch h
theorem fresh1_2 : ∀ op ∈ (hostOps1_2 (F := F)), op.fresh = ∅ := by
  intro _ h; (repeat (cases h with | head => rfl | tail _ h => ?_)); exact nomatch h

def seg0 : Pipeline.HostSeg (Name := ℕ) (U := UR sig nD τ) (pcfgs (F := F)) defs₀ 𝒱₀ Lp lvp :=
  Pipeline.HostSeg.ofOps _ _ _ _ _ (Pipeline.ucRefs τ sig) hostOps0
    (fun op h => Pipeline.sub_ucRefs op ((List.forall_iff_forall_mem.mp hostOps0_sub) op h)) fresh0 (W₀ m) R
def seg0_1 : Pipeline.HostSeg (Name := ℕ) (U := UR sig nD τ) (pcfgs (F := F)) defs₀ 𝒱₀ Lp lvp :=
  Pipeline.HostSeg.ofOps _ _ _ _ _ (Pipeline.ucRefs τ sig) hostOps0_1
    (fun op h => Pipeline.sub_ucRefs op ((List.forall_iff_forall_mem.mp hostOps0_1_sub) op h)) fresh0_1 (W₁ m) R
def seg1 : Pipeline.HostSeg (Name := ℕ) (U := UR sig nD τ) (pcfgs (F := F)) defs₀ 𝒱₀ Lp lvp :=
  Pipeline.HostSeg.ofOps _ _ _ _ _ (Pipeline.ucRefs τ sig) hostOps1
    (fun op h => Pipeline.sub_ucRefs op ((List.forall_iff_forall_mem.mp hostOps1_sub) op h)) fresh1 (Wₓ m) R
def seg1_1 : Pipeline.HostSeg (Name := ℕ) (U := UR sig nD τ) (pcfgs (F := F)) defs₀ 𝒱₀ Lp lvp :=
  Pipeline.HostSeg.ofOps _ _ _ _ _ (Pipeline.ucRefs τ sig) hostOps1_1
    (fun op h => Pipeline.sub_ucRefs op ((List.forall_iff_forall_mem.mp hostOps1_1_sub) op h)) fresh1_1 (W₂ m) R
def seg1_2 : Pipeline.HostSeg (Name := ℕ) (U := UR sig nD τ) (pcfgs (F := F)) defs₀ 𝒱₀ Lp lvp :=
  Pipeline.HostSeg.ofOps _ _ _ _ _ (Pipeline.ucRefs τ sig) hostOps1_2
    (fun op h => Pipeline.sub_ucRefs op ((List.forall_iff_forall_mem.mp hostOps1_2_sub) op h)) fresh1_2 (W₃ m) R

/-- The unscoped buffers that are no window's array are the same at the exit valuation as at entry. -/
theorem rest_exit (c : Dev nD) :
    (Pipeline.unscopedRest (Ix := Unit) (Name := ℕ) (U := UR sig nD τ) (Lvl := ℕ) spec0 c (fun b => Wₓ m c (Proc.devRef .tc b)) : sProp 𝕄)
      = Pipeline.unscopedRest spec0 c (V m c) := by
  unfold Pipeline.unscopedRest
  refine bigSep_congr fun b hb => ?_
  have hne : b ≠ main_v2 := fun e => (Finset.mem_sdiff.mp hb).2 (Finset.mem_image.mpr ⟨3, Finset.mem_univ _, e ▸ rfl⟩)
  show ((c : Thread nD τ).loc b ↦{fullShare} Wₓ m c (Proc.devRef .tc b) : sProp 𝕄) = _
  rw [Wₓ_of_ne m c b hne]

set_option backward.isDefEq.respectTransparency.types false in
/-- THE REGION. -/
def reg0 : Pipeline.RegionSeg (pcfgs (F := F)) adm (dats m) () defs₀ 𝒱₀ Lp lvp 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ Lp lvp 0 fun _ _ => rfl
  pre c := iprop(StableHlo.held (c : Thread nD τ) (Pipeline.ucRefs τ sig) (Wₑ m c) ∗ R c)
  post c := iprop(StableHlo.held (c : Thread nD τ) (Pipeline.ucRefs τ sig) (Wₓ m c) ∗ R c)
  X c := iprop(emp)
  Y c := iprop(emp)
  Z c := Pipeline.unscopedRest spec0 c (V m c)
  hentry c := by
    rw [← V0_eq m c,
      show StableHlo.held (c : Thread nD τ) (Pipeline.ucRefs τ sig) (V0 m c) = unscopedBufs c (V m c) from (Pipeline.unscopedBufs_held c _).symm,
      Pipeline.unscopedBufs_split₀ cfgs 0 winFacts₀0.arr_unscoped c (V m c)]
    iintro ⟨⟨⟨Hab, Hrest⟩, HO⟩, -, -⟩
    ihave Ha := (arrays_of_arrBufs m c (V m c) ((dats m 0 c).arrAt · 0) rfl rfl rfl rfl) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    iintro ⟨-, -, Hr⟩
    iapply (hin m c); iexact Hr
  hout c := by
    rw [Pipeline.ownSems0_none]
    iintro H
    isplitr; · iempintro
    isplitr; · iempintro
    iapply (hout m c); iexact H
  hexit c := by
    rw [show StableHlo.held (c : Thread nD τ) (Pipeline.ucRefs τ sig) (Wₓ m c) = unscopedBufs c (fun b => Wₓ m c (Proc.devRef .tc b)) from (Pipeline.unscopedBufs_held c _).symm,
      Pipeline.unscopedBufs_split₀ cfgs 0 winFacts₀0.arr_unscoped c (fun b => Wₓ m c (Proc.devRef .tc b)), rest_exit m c]
    iintro ⟨Ha, HO, -, HZ⟩
    ihave Hab := (arrBufs_of_arrays m c (fun b => Wₓ m c (Proc.devRef .tc b)) ((dats m 0 c).arrAt · cfg0.N)
      (((dats m 0 c).arrAt_in 0 rfl _).trans (Wₓ_of_ne m c main_v0 (by decide)).symm)
      (((dats m 0 c).arrAt_in 1 rfl _).trans (Wₓ_of_ne m c main_v0 (by decide)).symm)
      (((dats m 0 c).arrAt_in 2 rfl _).trans (Wₓ_of_ne m c main_v1 (by decide)).symm)
      (Wₓ_v2 m c).symm) $$ Ha
    imodintro
    isplitr [HO]
    · isplitl [Hab]; · iexact Hab
      iexact HZ
    · unfold Pipeline.Dat.owesAt Pipeline.owesWithin
      icases HO with ⟨%W, -, HO⟩; iexists W; iexact HO

abbrev segs : List (Pipeline.Seg (pcfgs (F := F)) adm (dats m) () defs₀ 𝒱₀ Lp lvp) :=
  [.host (seg0 m), .host (seg0_1 m), .region (reg0 m), .host (seg1 m), .host (seg1_1 m), .host (seg1_2 m)]

/-! ## The run -/

def u₀ : UR sig nD τ := initOf (Pipeline.cells cfgs cellOf_inj) (Pipeline.launchToks cfgs cellOf_inj)

/-- What the final state is read against: the result buffer at the last valuation, the argument arrays as launched. -/
def QC : PUnit × MemSt nD τ sig (Elt F) → Prop := fun r =>
  ∀ c : Dev nD, r.2.mem ((c : Thread nD τ).loc main_v27) = W₄ m c (Proc.devRef .tc main_v27)
    ∧ r.2.mem ((c : Thread nD τ).loc main_arg0) = m ((c : Thread nD τ).loc main_arg0)
    ∧ r.2.mem ((c : Thread nD τ).loc main_arg1) = m ((c : Thread nD τ).loc main_arg1)

theorem W₄_arg0 (c : Dev nD) : W₄ m c (Proc.devRef .tc main_arg0) = m ((c : Thread nD τ).loc main_arg0) :=
  (keep_tail (Wₓ m c) main_arg0 (.inl rfl)).trans ((Wₓ_of_ne m c main_arg0 (by decide)).trans (keep_pre m c main_arg0 (.inl rfl)))
theorem W₄_arg1 (c : Dev nD) : W₄ m c (Proc.devRef .tc main_arg1) = m ((c : Thread nD τ).loc main_arg1) :=
  (keep_tail (Wₓ m c) main_arg1 (.inr rfl)).trans ((Wₓ_of_ne m c main_arg1 (by decide)).trans (keep_pre m c main_arg1 (.inr rfl)))

set_option backward.isDefEq.respectTransparency.types false in
/-- At the compiled mesh, from any memory with zero counters: every weakly fair execution of @main terminates, nothing
    faulting, with the result buffer at what the operations after the region compute from the region's exit contents
    and both argument arrays unchanged. -/
theorem run_main : θ_run defs (onTc (τ := τ) (main (F := F))) (s₀ m ρ) (QC m) :=
  Pipeline.θ_run_regions_kit (pcfgs (F := F)) adm (dats m) () cellOf_inj EP defs₀ 𝒱₀ Lp lvp m ρ main (segs m)
    (fun c Q => by rw [main_chain, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W₀ m c) ∗ R c))
    (Tₙ := fun c => StableHlo.held (c : Thread nD τ) (Pipeline.ucRefs τ sig) (W₄ m c))
    (hch := ⟨fun _ => .rfl, fun _ => .rfl, fun _ => .rfl, fun _ => .rfl, fun _ => .rfl, fun _ => .rfl, fun _ => .rfl⟩)
    (hinit := by
      refine Pipeline.initEach Lp lvp fun c => ?_
      rw [show unscopedBufs c (fun b => m ((c : Thread nD τ).loc b)) = StableHlo.held (c : Thread nD τ) (Pipeline.ucRefs τ sig) (W₀ m c) from Pipeline.unscopedBufs_held c (W₀ m c)]
      iintro ⟨⟨Hh, -, HO, -, -, -⟩, -⟩
      imodintro
      isplitl [Hh]; · iexact Hh
      iexists ∅; iexact HO)
    (QY := fun c s => s.mem ((c : Thread nD τ).loc main_v27) = W₄ m c (Proc.devRef .tc main_v27)
      ∧ s.mem ((c : Thread nD τ).loc main_arg0) = m ((c : Thread nD τ).loc main_arg0)
      ∧ s.mem ((c : Thread nD τ).loc main_arg1) = m ((c : Thread nD τ).loc main_arg1))
    (hfin := fun c s' => by
      unfold StableHlo.held
      iintro ⟨Hh, HSI⟩
      ihave Hr := (pointsTo_read_all (Pipeline.ucRefs τ sig) (fun b => ((c : Thread nD τ).1, b)) (fun b => W₄ m c b) s') $$ [Hh HSI]
      · isplitl [Hh] <;> iassumption
      icases Hr with ⟨%hr, HSI⟩
      imodintro
      isplitr
      · ipureintro
        have hmem : ∀ b : Ref sig .tc, b.isScoped = false → Proc.devRef (τ := τ) .tc b ∈ Pipeline.ucRefs τ sig := fun b hb =>
          Finset.mem_filter.mpr ⟨StableHlo.devRef_mem_tcRefs b, by simpa using hb⟩
        exact ⟨hr _ (hmem main_v27 rfl), (hr _ (hmem main_arg0 rfl)).trans (W₄_arg0 m c), (hr _ (hmem main_arg1 rfl)).trans (W₄_arg1 m c)⟩
      iexact HSI)
    (hQ := fun _ h => h)

end Cert.KernelIdeal.Hand

end
-- ==== Proof.KI.Pieces.lean ====
/-
  What the runs' pieces read back to. At a reset point (j = 0) the accumulator ends at the update of zero and the
  running maximum at the update of bottom; at every other point they end at the update of what the point before left;
  at j = 3 the output block is that same updated accumulator.
-/
import proofs.«406752_j68152541053487_3_alg».proof.Proof.KI.Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The zero offsets of a store through a whole rank-2 buffer, however spelt. -/
private theorem hz2 : (![0, 0] : Fin 2 → Nat) = fun _ => 0 := funext fun a => by fin_cases a <;> rfl

/-- At a reset point the accumulator is first zeroed, then read back and updated: the update's store is the later
    piece and covers, so the accumulator ends at the update of zero (with the running maximum read back as bottom). -/
theorem sout0_A_0_eq (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : cond0_0 i) (hc1 : ¬cond0_1 i) (x0 : Vec F S1024x128 .bf16) (x1 : Vec F S2048x128 .bf16) (x2 : Vec F S2048x128 .bf16) :
    sout0_A_0 c i arg2 harg2 arg3 harg3 arg4 harg4 arg5 harg5 arg6 harg6 arg7 harg7 hc0 hc1 x0 x1 x2 = k0_pay5 x0 x1 (k0_pay2 (F := F)) x2 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S1024x128) hz2]
  simp only [View.readAt_eq_ld, harg2.read_unread, harg3.read_unread, harg4.read_unread, harg6.read_unread, harg7.read_unread, View.ld_unit_zero (S := S1024x128) hz2, View.ld_unit_zero (S := S2048x128) hz2, View.ld_unit_zero (S := S1024x1) hz2, View.readCov_unit_zero (S := S1024x128) _ hz2, View.readCov_unit_zero (S := S1024x1) _ hz2]

/-- At a reset point the running maximum is first set to bottom, then read back and updated: it ends at the
    maximum of bottom and the key tile's row maxima. -/
theorem sout0_A_1_eq (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : cond0_0 i) (hc1 : ¬cond0_1 i) (x0 : Vec F S1024x128 .bf16) (x1 : Vec F S2048x128 .bf16) (x2 : Vec F S2048x128 .bf16) :
    sout0_A_1 c i arg2 harg2 arg3 harg3 arg4 harg4 arg5 harg5 arg6 harg6 arg7 harg7 hc0 hc1 x0 x1 x2 = k0_pay6 x0 x1 (k0_pay2 (F := F)) := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S1024x1) hz2]
  simp only [View.readAt_eq_ld, harg2.read_unread, harg3.read_unread, harg4.read_unread, harg6.read_unread, harg7.read_unread, View.ld_unit_zero (S := S1024x128) hz2, View.ld_unit_zero (S := S2048x128) hz2, View.ld_unit_zero (S := S1024x1) hz2, View.readCov_unit_zero (S := S1024x128) _ hz2, View.readCov_unit_zero (S := S1024x1) _ hz2]

/-- Away from a reset point the accumulator's one covering store is the update of the incoming scratch contents. -/
theorem sout0_B_0_eq (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : ¬cond0_1 i) (x0 : Vec F S1024x128 .bf16) (x1 : Vec F S2048x128 .bf16) (x2 : Vec F S2048x128 .bf16) (xs0 : Vec F S1024x128 .f32) (xs1 : Vec F S1024x1 .f32) :
    sout0_B_0 c i arg2 harg2 arg3 harg3 arg4 harg4 arg5 harg5 arg6 harg6 arg7 harg7 hc0 hc1 x0 x1 x2 xs0 xs1 = k0_pay5 x0 x1 xs1 x2 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero hz2]
  simp only [View.readAt_eq_ld, harg2.read_unread, harg3.read_unread, harg4.read_unread, harg6.read_unread, harg7.read_unread, View.ld_unit_zero (S := S1024x128) hz2, View.ld_unit_zero (S := S2048x128) hz2, View.ld_unit_zero (S := S1024x1) hz2]

/-- Away from a reset point the running maximum's one covering store is the update of the incoming maximum. -/
theorem sout0_B_1_eq (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : ¬cond0_1 i) (x0 : Vec F S1024x128 .bf16) (x1 : Vec F S2048x128 .bf16) (x2 : Vec F S2048x128 .bf16) (xs0 : Vec F S1024x128 .f32) (xs1 : Vec F S1024x1 .f32) :
    sout0_B_1 c i arg2 harg2 arg3 harg3 arg4 harg4 arg5 harg5 arg6 harg6 arg7 harg7 hc0 hc1 x0 x1 x2 xs0 xs1 = k0_pay6 x0 x1 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero hz2]
  simp only [View.readAt_eq_ld, harg2.read_unread, harg3.read_unread, harg4.read_unread, harg6.read_unread, harg7.read_unread, View.ld_unit_zero (S := S1024x128) hz2, View.ld_unit_zero (S := S2048x128) hz2, View.ld_unit_zero (S := S1024x1) hz2]

/-- At the last key tile the accumulator is updated as at any point that is not a reset. -/
theorem sout0_C_0_eq (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i) (x0 : Vec F S1024x128 .bf16) (x1 : Vec F S2048x128 .bf16) (x2 : Vec F S2048x128 .bf16) (xs0 : Vec F S1024x128 .f32) (xs1 : Vec F S1024x1 .f32) :
    sout0_C_0 c i arg2 harg2 arg3 harg3 arg4 harg4 arg5 harg5 arg6 harg6 arg7 harg7 hc0 hc1 x0 x1 x2 xs0 xs1 = k0_pay5 x0 x1 xs1 x2 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero hz2]
  simp only [View.readAt_eq_ld, harg2.read_unread, harg3.read_unread, harg4.read_unread, harg6.read_unread, harg7.read_unread, View.ld_unit_zero (S := S1024x128) hz2, View.ld_unit_zero (S := S2048x128) hz2, View.ld_unit_zero (S := S1024x1) hz2]

/-- At the last key tile the running maximum is updated as at any point that is not a reset. -/
theorem sout0_C_1_eq (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i) (x0 : Vec F S1024x128 .bf16) (x1 : Vec F S2048x128 .bf16) (x2 : Vec F S2048x128 .bf16) (xs0 : Vec F S1024x128 .f32) (xs1 : Vec F S1024x1 .f32) :
    sout0_C_1 c i arg2 harg2 arg3 harg3 arg4 harg4 arg5 harg5 arg6 harg6 arg7 harg7 hc0 hc1 x0 x1 x2 xs0 xs1 = k0_pay6 x0 x1 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero hz2]
  simp only [View.readAt_eq_ld, harg2.read_unread, harg3.read_unread, harg4.read_unread, harg6.read_unread, harg7.read_unread, View.ld_unit_zero (S := S1024x128) hz2, View.ld_unit_zero (S := S2048x128) hz2, View.ld_unit_zero (S := S1024x1) hz2]

/-- At the last key tile the output block receives the accumulator as read back after its update: the same
    updated accumulator. -/
theorem out0_C_3_eq (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (hc0 : ¬cond0_0 i) (hc1 : cond0_1 i) (x0 : Vec F S1024x128 .bf16) (x1 : Vec F S2048x128 .bf16) (x2 : Vec F S2048x128 .bf16) (xs0 : Vec F S1024x128 .f32) (xs1 : Vec F S1024x1 .f32) :
    out0_C_3 c i arg2 harg2 arg3 harg3 arg4 harg4 arg5 harg5 arg6 harg6 arg7 harg7 hc0 hc1 x0 x1 x2 xs0 xs1 = k0_pay5 x0 x1 xs1 x2 xs0 := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero hz2]
  simp only [View.readAt_eq_ld, harg2.read_unread, harg3.read_unread, harg4.read_unread, harg6.read_unread, harg7.read_unread, View.ld_unit_zero (S := S1024x128) hz2, View.ld_unit_zero (S := S2048x128) hz2, View.ld_unit_zero (S := S1024x1) hz2, View.readCov_unit_zero (S := S1024x128) _ hz2]

end Cert.KernelIdeal.Hand

end
-- ==== Proof.Spec.lean ====
/-
  The mathematics of the claim, stated once over the two argument arrays and no program.

  Inputs: the features `x` (8192 rows of 128 extended reals) and the labels `lab` (8192 words).
  With `sim r k = (Σ_d x[r,d] · x[k,d]) · (1/T)` and `e r k = exp (sim r k)`, the loss is
      Σ_r  −log ( (Σ_{k : lab k = lab r} e r k) / (Σ_k e r k) ) / #{k : lab k = lab r}.
  The kernel never forms `e r k`: per row it keeps a running maximum of `sim r ·` over the key tiles seen so far
  and a per-class accumulator rescaled whenever the maximum grows, so that after the last tile the accumulator
  holds `cs r c = Σ_k exp (sim r k − M r) · [lab k = c]` with `M r` the row's maximum; the common factor
  `exp (−M r)` cancels in the quotient.
-/
import Idealize.ShloMosaic.PureOps.Ideal
import Idealize.ShloMosaic.Lib.ValueIdx

noncomputable section

namespace Cert.Spec

open Idealize.ShloMosaic Idealize.ShloMosaic.ValueIdx

/-- The feature array and the label array, as the programs' argument buffers read at the ideal instance. -/
abbrev XArr : Type := (⟨2, ![8192, 128]⟩ : Shape).Idx → EReal
abbrev LArr : Type := (⟨1, ![8192]⟩ : Shape).Idx → BitVec 32

/-- Every feature is a real number (what the precondition's first conjunct says of the array). -/
def Finite (x : XArr) : Prop := ∀ i, ∃ v : ℝ, x i = (v : EReal)

/-- Every label lies in the label range `[0, 20)` (the precondition's second conjunct). -/
def LabOk (lab : LArr) : Prop := ∀ k : Fin 8192, (lab (ix1 k)).toNat < 20

/-- The reciprocal of the temperature: the reference divides by the binary value `13421773 / 2^28` its literal
    denotes, so the exact reciprocal is `2^28 / 13421773`. -/
def invT : EReal := ((268435456 / 13421773 : ℝ) : EReal)

/-- The scaled similarity of row `r` and key `k`. -/
def sim (x : XArr) (r k : Fin 8192) : EReal := (∑ d : Fin 128, x (ix2 r d) * x (ix2 k d)) * invT

/-- Its exponential. -/
def e (x : XArr) (r k : Fin 8192) : EReal := Ideal.exp (sim x r k)

/-- The sum of a row's exponentials over every key. -/
def rowSum (x : XArr) (r : Fin 8192) : EReal := ∑ k : Fin 8192, e x r k

/-- The same over the keys that carry the row's own label. -/
def posSum (x : XArr) (lab : LArr) (r : Fin 8192) : EReal :=
  ∑ k : Fin 8192, if lab (ix1 r) = lab (ix1 k) then e x r k else 0

/-- How many keys carry the row's label. -/
def cnt (lab : LArr) (r : Fin 8192) : ℕ := (Finset.univ.filter fun k : Fin 8192 => lab (ix1 r) = lab (ix1 k)).card

/-- One row's term of the loss. -/
def perSample (x : XArr) (lab : LArr) (r : Fin 8192) : EReal :=
  Ideal.div (-(Ideal.log (Ideal.div (posSum x lab r) (rowSum x r)))) (((cnt lab r : ℕ) : ℝ) : EReal)

/-- The loss. -/
def loss (x : XArr) (lab : LArr) : EReal := ∑ r : Fin 8192, perSample x lab r

/-! ## What the kernel computes instead -/

/-- The one-hot matrix of the labels over 128 class columns. -/
def oh (lab : LArr) (k : Fin 8192) (c : Fin 128) : EReal := if lab (ix1 k) = BitVec.ofNat 32 c.val then 1 else 0

/-- A row's largest scaled similarity. -/
def rowMax (x : XArr) (r : Fin 8192) : EReal := Finset.univ.sup fun k : Fin 8192 => sim x r k

/-- The class sums: per row and class column, the exponentials of the similarities shifted by the row's maximum,
    summed over the keys of that class. -/
def cs (x : XArr) (lab : LArr) (r : Fin 8192) (c : Fin 128) : EReal :=
  ∑ k : Fin 8192, Ideal.exp (sim x r k - rowMax x r) * oh lab k c

/-- The column a row's own label selects (labels are below 128 wherever this is used). -/
def col (lab : LArr) (r : Fin 8192) : Fin 128 := ⟨(lab (ix1 r)).toNat % 128, Nat.mod_lt _ (by decide)⟩

/-- The loss as the kernel's program assembles it from the class sums. -/
def lossK (x : XArr) (lab : LArr) : EReal :=
  ∑ r : Fin 8192, Ideal.div (-(Ideal.log (Ideal.div (cs x lab r (col lab r)) (∑ c : Fin 128, cs x lab r c))))
    (((cnt lab r : ℕ) : ℝ) : EReal)

/-- The same assembly from ANY [8192 × 128] array `o` standing where the class sums stand: what the operations after
    the kernel compute of the kernel's output array and the labels. -/
def tailSpec (o : XArr) (lab : LArr) : EReal :=
  ∑ r : Fin 8192, Ideal.div (-(Ideal.log (Ideal.div (o (ix2 r (col lab r))) (∑ c : Fin 128, o (ix2 r c)))))
    (((cnt lab r : ℕ) : ℝ) : EReal)

/-- At the class sums it is `lossK`. -/
theorem tailSpec_of_cs (x : XArr) (lab : LArr) (o : XArr) (h : ∀ (r : Fin 8192) (c : Fin 128), o (ix2 r c) = cs x lab r c) :
    tailSpec o lab = lossK x lab := by
  unfold tailSpec lossK
  simp only [h]

/-! ## The online recurrence over the four key tiles of a row -/

/-- Key `q` of tile `j`: the tiles are consecutive runs of 2048 keys. -/
def key (j : Fin 4) (q : Fin 2048) : Fin 8192 := ⟨2048 * j.val + q.val, by have := j.isLt; have := q.isLt; omega⟩

/-- The largest similarity of row `r` within tile `j`. -/
def tileMax (x : XArr) (r : Fin 8192) (j : Fin 4) : EReal := Finset.univ.sup fun q : Fin 2048 => sim x r (key j q)

/-- The running maximum after the tiles before `n`: bottom before the first tile. -/
def runMax (x : XArr) (r : Fin 8192) : ℕ → EReal
  | 0 => ⊥
  | n + 1 => if h : n < 4 then max (runMax x r n) (tileMax x r ⟨n, h⟩) else runMax x r n

/-- The accumulator after the tiles before `n`: zero before the first tile; each tile rescales what was there by
    the exponential of the maximum's growth and adds its own shifted exponentials, class by class. -/
def runAcc (x : XArr) (lab : LArr) (r : Fin 8192) (c : Fin 128) : ℕ → EReal
  | 0 => 0
  | n + 1 => if h : n < 4 then
      Ideal.exp (runMax x r n - runMax x r (n + 1)) * runAcc x lab r c n
        + ∑ q : Fin 2048, Ideal.exp (sim x r (key ⟨n, h⟩ q) - runMax x r (n + 1)) * oh lab (key ⟨n, h⟩ q) c
    else runAcc x lab r c n

end Cert.Spec

end
-- ==== Proof.KI.Entry.lean ====
/-
  What the kernel region finds: the features array after its change of format (the identity over the extended
  reals), the one-hot matrix of the labels, the two argument arrays untouched; and each input window's block at a grid
  point as rows of those arrays — point t = 4·i + j reads row block i (1024 rows) of the features through the first
  window, key tile j (2048 rows) of the features through the second and of the one-hot matrix through the third.
-/
import proofs.«406752_j68152541053487_3_alg».proof.Proof.KI.Runs
import proofs.«406752_j68152541053487_3_alg».proof.Proof.Spec
import Idealize.ShloMosaic.Lib.StableHlo.Run
import Idealize.ShloMosaic.Lib.StableHlo.Predicate
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable {F : FTy → Type} [FloatOps F] [Named F]
variable (m : (ℓ : Loc nD τ sig) → Buf (Elt F) ℓ)

/-- The features as the kernel reads them, the one-hot matrix, and the three input blocks at a point, at their
    literal types. -/
abbrev f1A (c : Dev nD) : Vec F S8192x128 .bf16 := V m c main_v0
abbrev ohA (c : Dev nD) : Vec F S8192x128 .bf16 := V m c main_v1
abbrev fiB (c : Dev nD) (t : Fin cfg0.N) : Vec F S1024x128 .bf16 := iblk m c 0 t
abbrev fjB (c : Dev nD) (t : Fin cfg0.N) : Vec F S2048x128 .bf16 := iblk m c 1 t
abbrev ohB (c : Dev nD) (t : Fin cfg0.N) : Vec F S2048x128 .bf16 := iblk m c 2 t

/-- No operation of the two stretches before the region writes a reference other than the seven they define. -/
private theorem not_written (b : Ref sig .tc)
    (hb : b ≠ main_v0 ∧ b ≠ main_call0_v0 ∧ b ≠ main_call0_v1 ∧ b ≠ main_call0_v2 ∧ b ≠ main_call0_v3
      ∧ b ≠ main_call0_v4 ∧ b ≠ main_v1) :
    ∀ op ∈ (List.flatten [hostOps0 (F := F), hostOps0_1 (F := F)]), Proc.devRef (τ := τ) .tc b ∉ op.writes := by
  obtain ⟨h0, h1, h2, h3, h4, h5, h6⟩ := hb
  intro op hop
  simp only [List.flatten_cons, List.flatten_nil, List.append_nil, List.cons_append, List.nil_append,
    List.mem_cons, List.mem_nil_iff, or_false] at hop
  rcases hop with rfl | rfl | rfl | rfl | rfl | rfl | rfl <;>
    simp only [StableHlo.unary_writes, StableHlo.binary_writes, StableHlo.nullary_writes, Finset.mem_singleton] <;>
    exact StableHlo.devRef_ne_of_ne ‹_›

/-- Neither stretch of operations before the kernel writes an argument array. -/
theorem V_arg0 (c : Dev nD) : V m c main_arg0 = m ((c : Thread nD τ).loc main_arg0) := by
  exact StableHlo.after_of_forall_not_mem (b := Proc.devRef .tc main_arg0) _ (fun b => m (c, b))
    (not_written main_arg0 (by decide))
theorem V_arg1 (c : Dev nD) : V m c main_arg1 = m ((c : Thread nD τ).loc main_arg1) := by
  exact StableHlo.after_of_forall_not_mem (b := Proc.devRef .tc main_arg1) _ (fun b => m (c, b))
    (not_written main_arg1 (by decide))

/-- The three input windows' block indices over the grid: the first follows the row-block coordinate, the other two
    the key-tile coordinate; none moves along the feature / class axis. -/
private theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val % 4 ∧ win0_2.index t (1 : Fin 2) = 0 :=
  (by decide +kernel : ∀ t : Fin grid0.N, _)

/-- Row block `t / 4` of the features. -/
theorem fiB_apply (c : Dev nD) (t : Fin cfg0.N) (p : Fin 1024) (d : Fin 128) :
    fiB m c t (ix2 p d) = f1A m c (ix2 (⟨1024 * (t.val / 4) + p.val, by have := t.isLt; have : cfg0.N = 32 := N_0; have := p.isLt; omega⟩ : Fin 8192) d) := by
  obtain ⟨e0, e1, -⟩ := idx_facts t
  show V m c main_v0 (((cfg0.win 0).blk t).view.emb (ix2 p d)) = V m c main_v0 (ix2 _ d)
  refine congrArg (V m c main_v0) ?_
  funext a
  apply Fin.ext
  match a with
  | ⟨0, _⟩ => show win0_0.index t (0 : Fin 2) * 1024 + 1 * p.val = 1024 * (t.val / 4) + p.val; omega
  | ⟨1, _⟩ => show win0_0.index t (1 : Fin 2) * 128 + 1 * d.val = d.val; omega

/-- Key tile `t % 4` of the features. -/
theorem fjB_apply (c : Dev nD) (t : Fin cfg0.N) (q : Fin 2048) (d : Fin 128) :
    fjB m c t (ix2 q d) = f1A m c (ix2 (⟨2048 * (t.val % 4) + q.val, by have := q.isLt; omega⟩ : Fin 8192) d) := by
  obtain ⟨-, -, e0, e1, -⟩ := idx_facts t
  show V m c main_v0 (((cfg0.win 1).blk t).view.emb (ix2 q d)) = V m c main_v0 (ix2 _ d)
  refine congrArg (V m c main_v0) ?_
  funext a
  apply Fin.ext
  match a with
  | ⟨0, _⟩ => show win0_1.index t (0 : Fin 2) * 2048 + 1 * q.val = 2048 * (t.val % 4) + q.val; omega
  | ⟨1, _⟩ => show win0_1.index t (1 : Fin 2) * 128 + 1 * d.val = d.val; omega

/-- Key tile `t % 4` of the one-hot matrix. -/
theorem ohB_apply (c : Dev nD) (t : Fin cfg0.N) (q : Fin 2048) (cc : Fin 128) :
    ohB m c t (ix2 q cc) = ohA m c (ix2 (⟨2048 * (t.val % 4) + q.val, by have := q.isLt; omega⟩ : Fin 8192) cc) := by
  obtain ⟨-, -, -, -, e0, e1⟩ := idx_facts t
  show V m c main_v1 (((cfg0.win 2).blk t).view.emb (ix2 q cc)) = V m c main_v1 (ix2 _ cc)
  refine congrArg (V m c main_v1) ?_
  funext a
  apply Fin.ext
  match a with
  | ⟨0, _⟩ => show win0_2.index t (0 : Fin 2) * 2048 + 1 * q.val = 2048 * (t.val % 4) + q.val; omega
  | ⟨1, _⟩ => show win0_2.index t (1 : Fin 2) * 128 + 1 * cc.val = cc.val; omega

section AtIdeal

variable (mI : (ℓ : Loc nD τ sig) → Buf (Elt Ideal) ℓ)

/-- Over the extended reals the change of format is the identity: the kernel reads the features themselves. -/
theorem f1A_apply (c : Dev nD) (i : S8192x128.Idx) :
    f1A (F := Ideal) mI c i = (mI ((c : Thread nD τ).loc main_arg0) : Cert.Spec.XArr) i := by
  have e : (V mI c main_v0 : S8192x128.Idx → EReal)
      = truncf (F := Ideal) .bf16 (mI ((c : Thread nD τ).loc main_arg0) : S8192x128.Idx → EReal) bitsLt_bf16_f32 := by
    dsimp only [V, V0]
    simp only [hostOps0, hostOps0_1, List.flatten_cons, List.flatten_nil, List.append_nil, List.cons_append,
      List.nil_append]
    after_results
  exact congrFun e i

/-- A rank-2 index from its coordinates, in the two spellings. -/
private theorem ix2_eq_ij {n0 n1 : Nat} (a : Fin n0) (b : Fin n1) : ix2 a b = StableHlo.Predicate.ij a b := by
  funext d
  match d with
  | ⟨0, _⟩ => rfl
  | ⟨1, _⟩ => rfl

/-- The one-hot matrix: entry (k, cc) is one where key k's label is cc, else zero. -/
theorem ohA_apply (c : Dev nD) (k : Fin 8192) (cc : Fin 128) :
    ohA (F := Ideal) mI c (ix2 k cc) = Cert.Spec.oh (mI ((c : Thread nD τ).loc main_arg1) : Cert.Spec.LArr) k cc := by
  have e : (V mI c main_v1 : S8192x128.Idx → EReal)
      = uitofp (F := Ideal) .bf16 (cmpi .eq
          (broadcastInDim S8192x128 ![0, 1] bcast_S8192x1_S8192x128_0_1
            (broadcastInDim S8192x1 ![0] bcast_S8192_S8192x1_0
              (mI ((c : Thread nD τ).loc main_arg1) : S8192.Idx → BitVec 32)))
          (broadcastInDim S8192x128 ![0, 1] bcast_S1x128_S8192x128_0_1 (iotaInDim S1x128 32 1))) := by
    dsimp only [V, V0]
    simp only [hostOps0, hostOps0_1, List.flatten_cons, List.flatten_nil, List.append_nil, List.cons_append,
      List.nil_append]
    after_results
    rfl
  rw [show ohA (F := Ideal) mI c (ix2 k cc) = _ from congrFun e (ix2 k cc)]
  show FloatOps.uitofp (F := Ideal) .bf16 (IntOp.cmpi .eq
      (broadcastInDim S8192x128 ![0, 1] bcast_S8192x1_S8192x128_0_1
        (broadcastInDim S8192x1 ![0] bcast_S8192_S8192x1_0
          (mI ((c : Thread nD τ).loc main_arg1) : S8192.Idx → BitVec 32)) (ix2 k cc))
      (broadcastInDim S8192x128 ![0, 1] bcast_S1x128_S8192x128_0_1 (iotaInDim S1x128 32 1) (ix2 k cc))) = _
  rw [ix2_eq_ij, StableHlo.Predicate.bcast_rows, StableHlo.Predicate.bcast_of_row]
  have hk : (Shape.Idx.ofFin k : S8192.Idx) = ix1 k := by
    funext d
    match d with
    | ⟨0, _⟩ => exact Fin.ext rfl
  rw [hk]
  show FloatOps.uitofp (F := Ideal) .bf16 (IntOp.cmpi .eq
      ((mI ((c : Thread nD τ).loc main_arg1) : Cert.Spec.LArr) (ix1 k)) (BitVec.ofNat 32 cc.val)) = _
  unfold Cert.Spec.oh
  by_cases h : (mI ((c : Thread nD τ).loc main_arg1) : Cert.Spec.LArr) (ix1 k) = BitVec.ofNat 32 cc.val
  · rw [if_pos h, StableHlo.Predicate.cmpi_eq_iff.mpr h]
    show ((((1#1 : BitVec 1).toNat : ℕ) : ℝ) : EReal) = 1
    simp
  · rw [if_neg h, eq_zero_of_ne_one (mt StableHlo.Predicate.cmpi_eq_iff.mp h)]
    show ((((0#1 : BitVec 1).toNat : ℕ) : ℝ) : EReal) = 0
    simp

end AtIdeal

end Cert.KernelIdeal.Hand

end
-- ==== Proof.Payload.lean ====
/-
  The kernel body's arithmetic read at an index, at the ideal instance: the scaled similarities of a row block
  against a key tile, the running maximum, the rescaled per-class accumulator.
-/
import proofs.«406752_j68152541053487_3_alg».proof.Proof.Gen.KernelIdeal.Skeleton
import proofs.«406752_j68152541053487_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx

/-! ## Constants -/

/-- The named reciprocal of the temperature is, at the ideal instance, the rational the certificate's table gives it. -/
private theorem inv_temperature_eq :
    Named.named (F := Ideal) Cert.KernelIdeal.κ "inv_temperature" (φ := .f32) 0x41A00000#32 = Cert.Spec.invT :=
  IdealRules.named_const.ideal_named_scalar _ _ _ _ rfl

/-- The pattern of negative infinity denotes the bottom extended real. -/
private theorem ofBits_neg_inf : Ideal.ofBits .f32 0xFF800000#32 = (⊥ : EReal) := by simp [Ideal.ofBits, Ideal.ieee]

/-! ## The first product: row block times the transposed key tile (both operands contract their second axis) -/

private theorem lhs1_0 (i : S1024x2048.Idx) (q : dot_S1024x128_S2048x128_S1024x2048_1_1_0_0_n_n.contr.Idx) :
    (dot_S1024x128_S2048x128_S1024x2048_1_1_0_0_n_n.lhsIdx i q 0).val = (i 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
private theorem lhs1_1 (i : S1024x2048.Idx) (q : dot_S1024x128_S2048x128_S1024x2048_1_1_0_0_n_n.contr.Idx) :
    (dot_S1024x128_S2048x128_S1024x2048_1_1_0_0_n_n.lhsIdx i q 1).val = (q ⟨0, by decide⟩).val :=
  dot_S1024x128_S2048x128_S1024x2048_1_1_0_0_n_n.lhsIdx_val_of_single rfl i q
private theorem rhs1_0 (i : S1024x2048.Idx) (q : dot_S1024x128_S2048x128_S1024x2048_1_1_0_0_n_n.contr.Idx) :
    (dot_S1024x128_S2048x128_S1024x2048_1_1_0_0_n_n.rhsIdx i q 0).val = (i 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
private theorem rhs1_1 (i : S1024x2048.Idx) (q : dot_S1024x128_S2048x128_S1024x2048_1_1_0_0_n_n.contr.Idx) :
    (dot_S1024x128_S2048x128_S1024x2048_1_1_0_0_n_n.rhsIdx i q 1).val = (q ⟨0, by decide⟩).val :=
  dot_S1024x128_S2048x128_S1024x2048_1_1_0_0_n_n.rhsIdx_val_of_single rfl i q

/-- Into a zero accumulator the first product at (p, q) is the inner product of row p of the left operand and row q of
    the right one. -/
private theorem matmul1_apply (a : FVec Ideal S1024x128 .bf16) (b : FVec Ideal S2048x128 .bf16) (p : Fin 1024) (q : Fin 2048) :
    matmul dot_S1024x128_S2048x128_S1024x2048_1_1_0_0_n_n none a b (constant (F := Ideal) S1024x2048 .f32 0x00000000#32) (ix2 p q)
      = ∑ d : Fin 128, a (ix2 p d) * b (ix2 q d) := by
  simp only [matmul]
  rw [Ideal.matmul_constant_zero_apply, ← Equiv.sum_comp (contrEquiv1 dot_S1024x128_S2048x128_S1024x2048_1_1_0_0_n_n 128 rfl rfl).symm]
  refine Finset.sum_congr rfl fun k _ => ?_
  have hk := contrEquiv1_symm_val dot_S1024x128_S2048x128_S1024x2048_1_1_0_0_n_n 128 rfl rfl k
  have el : dot_S1024x128_S2048x128_S1024x2048_1_1_0_0_n_n.lhsIdx (ix2 p q) ((contrEquiv1 dot_S1024x128_S2048x128_S1024x2048_1_1_0_0_n_n 128 rfl rfl).symm k) = ix2 p k := funext fun a => Fin.ext (by
    match a with
    | ⟨0, _⟩ => exact lhs1_0 _ _
    | ⟨1, _⟩ => exact (lhs1_1 _ _).trans hk)
  have er : dot_S1024x128_S2048x128_S1024x2048_1_1_0_0_n_n.rhsIdx (ix2 p q) ((contrEquiv1 dot_S1024x128_S2048x128_S1024x2048_1_1_0_0_n_n 128 rfl rfl).symm k) = ix2 q k := funext fun a => Fin.ext (by
    match a with
    | ⟨0, _⟩ => exact rhs1_0 _ _
    | ⟨1, _⟩ => exact (rhs1_1 _ _).trans hk)
  rw [el, er]

/-! ## Layout: the keepdims column forms -/

/-- A vector of length 1024 viewed as a [1024, 1] column reads, at (p, 0), the vector at p. -/
private theorem shapeCast_col_apply {α : Type} (x : S1024.Idx → α) (h : S1024.ShapeCasts S1024x1) (p : Fin 1024) :
    shapeCast S1024x1 x h (ix2 p (0 : Fin 1)) = x (ix1 p) := by
  refine shapeCast_apply x h _ _ ?_
  rw [Shape.rowMajor_val_one, Shape.rowMajor_val_two]
  show p.val = p.val * 1 + 0
  omega

/-- A [1024, 1] column broadcast along a second axis of any extent reads, at (p, q), the column at (p, 0). -/
private theorem broadcastTo_col_apply {α : Type} {b : ℕ} (x : S1024x1.Idx → α) (h : S1024x1.Broadcasts ⟨2, ![1024, b]⟩)
    (p : Fin 1024) (q : Fin b) :
    broadcastTo ⟨2, ![1024, b]⟩ x h (ix2 p q) = x (ix2 p (0 : Fin 1)) := by
  refine broadcastTo_apply x h _ _ fun a => ?_
  match a with
  | ⟨0, _⟩ => rfl
  | ⟨1, _⟩ => rfl

/-- The exponential of a vector at an index is the exponential of the element. -/
private theorem exp_apply {s : Shape} {φ : FTy} (a : FVec Ideal s φ) (i : s.Idx) :
    Idealize.ShloMosaic.exp a i = Ideal.exp (a i) := rfl

/-! ## The lane maximum -/

/-- The fold of the maximum from bottom over a finite set is the supremum over it. -/
private theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The maximum of a [1024, 2048] array over its second axis, started from negative infinity, is at row p the supremum of
    the row: the fold of the maximum from bottom over the row's entries. -/
private theorem rowMax_apply (src : FVec Ideal S1024x2048 .f32) (h : S1024x2048.Reduces [1] S1024) (hφ : FKind.Formats .f32)
    (hacc : (0xFF800000#32 : BitVec 32) = FKind.maximumf.neutral .f32 hφ) (p : Fin 1024) :
    multiReduction .maximumf [1] S1024 src 0xFF800000#32 h hφ hacc (ix1 p) = Finset.univ.sup fun q : Fin 2048 => src (ix2 p q) := by
  refine (Ideal.multiReduction_maximumf_single src 0xFF800000#32 h hφ hacc (ix1 p)).trans ?_
  have hl : ∀ q : Fin 2048, h.lift (ix1 p) q = ix2 p q := fun q => funext fun c => Fin.ext (by
    match c with
    | ⟨0, _⟩ => rfl
    | ⟨1, _⟩ => rfl)
  have e : (Finset.univ : Finset (Fin 2048)).fold max (⊥ : EReal) (fun q => src (h.lift (ix1 p) q))
      = Finset.univ.sup fun q : Fin 2048 => src (ix2 p q) :=
    (fold_max_bot_eq_sup _ _).trans (Finset.sup_congr rfl fun q _ => congrArg src (hl q))
  show (Finset.univ : Finset (Fin 2048)).fold max (Ideal.ofBits .f32 0xFF800000#32) (fun q => src (h.lift (ix1 p) q)) = _
  rw [ofBits_neg_inf]
  exact e

/-! ## The second product: the shifted exponentials times the one-hot block (an ordinary matrix product) -/

private theorem lhs2_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
private theorem lhs2_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
private theorem rhs2_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
private theorem rhs2_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- Into a zero accumulator the second product at (p, c) is the sum over the keys q of the left operand at (p, q) times
    the right one at (q, c). -/
private theorem matmul2_apply (a : FVec Ideal S1024x2048 .bf16) (b : FVec Ideal S2048x128 .bf16) (p : Fin 1024) (c : Fin 128) :
    matmul dot_S1024x2048_S2048x128_S1024x128_1_0_0_1_n_n none a b (constant (F := Ideal) S1024x128 .f32 0x00000000#32) (ix2 p c)
      = ∑ q : Fin 2048, a (ix2 p q) * b (ix2 q c) := by
  simp only [matmul]
  rw [Ideal.matmul_constant_zero_apply, ← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 p c) ((contrEquiv1 dot_S1024x2048_S2048x128_S1024x128_1_0_0_1_n_n 2048 rfl rfl).symm k) = ix2 p k := funext fun a => Fin.ext (by
    match a with
    | ⟨0, _⟩ => exact lhs2_0 _ _
    | ⟨1, _⟩ => exact (lhs2_1 _ _).trans hk)
  have er : dot_S1024x2048_S2048x128_S1024x128_1_0_0_1_n_n.rhsIdx (ix2 p c) ((contrEquiv1 dot_S1024x2048_S2048x128_S1024x128_1_0_0_1_n_n 2048 rfl rfl).symm k) = ix2 k c := funext fun a => Fin.ext (by
    match a with
    | ⟨0, _⟩ => exact (rhs2_0 _ _).trans hk
    | ⟨1, _⟩ => exact rhs2_1 _ _)
  rw [el, er]

/-- The reset values: the accumulator zero, -/
theorem pay1_apply (p : Fin 1024) (c : Fin 128) : k0_pay1 (F := Ideal) (ix2 p c) = 0 := by
  unfold k0_pay1
  simp only [shapeCast_self, broadcast_apply]
  exact Ideal.ofBits_zero_f32

/-- the running maximum bottom. -/
theorem pay2_apply (p : Fin 1024) : k0_pay2 (F := Ideal) (ix2 p (0 : Fin 1)) = ⊥ := by
  unfold k0_pay2
  simp only [shapeCast_self, broadcast_apply]
  exact ofBits_neg_inf

/-- The scaled similarity of row `p` of the row block and key `q` of the key tile. -/
theorem pay3_apply (v3 : Vec Ideal S1024x128 .bf16) (v5 : Vec Ideal S2048x128 .bf16) (p : Fin 1024) (q : Fin 2048) :
    k0_pay3 (F := Ideal) v3 v5 (ix2 p q) = (∑ d : Fin 128, v3 (ix2 p d) * v5 (ix2 q d)) * Cert.Spec.invT := by
  unfold k0_pay3
  simp only [shapeCast_self, mulf_apply, broadcast_apply, inv_temperature_eq]
  rw [matmul1_apply]

/-- The new running maximum: the old one against the tile's largest similarity. -/
theorem pay4_apply (v3 : Vec Ideal S1024x128 .bf16) (v5 : Vec Ideal S2048x128 .bf16) (v12 : Vec Ideal S1024x1 .f32) (p : Fin 1024) :
    k0_pay4 (F := Ideal) v3 v5 v12 (ix2 p (0 : Fin 1))
      = max (v12 (ix2 p (0 : Fin 1))) (Finset.univ.sup fun q : Fin 2048 => k0_pay3 (F := Ideal) v3 v5 (ix2 p q)) := by
  unfold k0_pay4
  generalize k0_pay3 (F := Ideal) v3 v5 = s
  have e1 : shapeCast S1024x1 (multiReduction .maximumf [1] S1024 s 0xFF800000#32 reduces_S1024x2048_S1024 (.inl rfl) rfl)
      shapeCasts_S1024_S1024x1 (ix2 p (0 : Fin 1)) = Finset.univ.sup fun q : Fin 2048 => s (ix2 p q) :=
    (shapeCast_col_apply (multiReduction .maximumf [1] S1024 s 0xFF800000#32 reduces_S1024x2048_S1024 (.inl rfl) rfl)
      shapeCasts_S1024_S1024x1 p).trans (rowMax_apply s reduces_S1024x2048_S1024 (.inl rfl) rfl p)
  exact congrArg (max (v12 (ix2 p (0 : Fin 1)))) e1

/-- The new accumulator: the old one rescaled by the exponential of the maximum's growth, plus the tile's shifted
    exponentials against the one-hot block. -/
theorem pay5_apply (v3 : Vec Ideal S1024x128 .bf16) (v5 : Vec Ideal S2048x128 .bf16) (v12 : Vec Ideal S1024x1 .f32)
    (v20 : Vec Ideal S2048x128 .bf16) (v23 : Vec Ideal S1024x128 .f32) (p : Fin 1024) (c : Fin 128) :
    k0_pay5 (F := Ideal) v3 v5 v12 v20 v23 (ix2 p c)
      = Ideal.exp (v12 (ix2 p (0 : Fin 1)) - k0_pay4 (F := Ideal) v3 v5 v12 (ix2 p (0 : Fin 1))) * v23 (ix2 p c)
        + ∑ q : Fin 2048, Ideal.exp (k0_pay3 (F := Ideal) v3 v5 (ix2 p q) - k0_pay4 (F := Ideal) v3 v5 v12 (ix2 p (0 : Fin 1))) * v20 (ix2 q c) := by
  unfold k0_pay5
  generalize k0_pay4 (F := Ideal) v3 v5 v12 = m
  generalize k0_pay3 (F := Ideal) v3 v5 = s
  simp only [shapeCast_self, addf_apply, mulf_apply]
  rw [matmul2_apply]
  simp only [truncf_apply, exp_apply, subf_apply, broadcastTo_col_apply]

/-- The stored running maximum is the new one. -/
theorem pay6_apply (v3 : Vec Ideal S1024x128 .bf16) (v5 : Vec Ideal S2048x128 .bf16) (v12 : Vec Ideal S1024x1 .f32) (p : Fin 1024) :
    k0_pay6 (F := Ideal) v3 v5 v12 (ix2 p (0 : Fin 1)) = k0_pay4 (F := Ideal) v3 v5 v12 (ix2 p (0 : Fin 1)) := by
  unfold k0_pay6
  simp only [shapeCast_self]

end Cert.KernelIdeal.Payload

end
-- ==== Proof.Algebra.lean ====
/-
  The real-number algebra behind the claim: the online recurrence over a row's four key tiles ends at the class
  sums, and the loss assembled from the class sums is the loss (the factor exp (−M r) cancels in the quotient,
  the class columns partition the keys).
-/
import proofs.«406752_j68152541053487_3_alg».proof.Proof.Spec
import Mathlib.Data.EReal.Basic
import Mathlib.Data.EReal.Operations
import Mathlib.Data.EReal.Inv
import Mathlib.Algebra.BigOperators.Fin
import Mathlib.Algebra.BigOperators.Ring.Finset
import Mathlib.Analysis.SpecialFunctions.Exp
import Mathlib.Tactic.Ring
import Mathlib.Tactic.FieldSimp
import Mathlib.Tactic.Linarith

noncomputable section

namespace Cert.Spec

open Idealize.ShloMosaic Idealize.ShloMosaic.ValueIdx

/-! ## Coercions of finite sums and the reality of the similarities -/

/-- The coercion of a finite real sum is the sum of the coercions. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Under finiteness every scaled similarity is a real number. -/
private theorem sim_real {x : XArr} (hx : Finite x) (r k : Fin 8192) : ∃ s : ℝ, sim x r k = (s : EReal) := by
  choose f hf using hx
  refine ⟨(∑ d : Fin 128, f (ix2 r d) * f (ix2 k d)) * (268435456 / 13421773), ?_⟩
  unfold sim invT
  rw [EReal.coe_mul, coe_sum]
  simp only [hf, EReal.coe_mul]

/-! ## The four tiles enumerate the keys once -/

/-- Every key is the key of its tile and its place in the tile. -/
private theorem key_div_mod (k : Fin 8192) :
    key ⟨k.val / 2048, by have := k.isLt; omega⟩ ⟨k.val % 2048, Nat.mod_lt _ (by decide)⟩ = k := by
  apply Fin.ext
  show 2048 * (k.val / 2048) + k.val % 2048 = k.val
  exact Nat.div_add_mod k.val 2048

/-- The pairs (tile, place) and the keys correspond one to one. -/
private def keyEquiv : Fin 4 × Fin 2048 ≃ Fin 8192 where
  toFun p := key p.1 p.2
  invFun k := (⟨k.val / 2048, by have := k.isLt; omega⟩, ⟨k.val % 2048, Nat.mod_lt _ (by decide)⟩)
  left_inv := by
    rintro ⟨j, q⟩
    have hj := j.isLt
    have hq := q.isLt
    apply Prod.ext
    · apply Fin.ext
      show (2048 * j.val + q.val) / 2048 = j.val
      omega
    · apply Fin.ext
      show (2048 * j.val + q.val) % 2048 = q.val
      omega
  right_inv := fun k => key_div_mod k

/-- A sum over the keys is the sum over the four tiles of the sums over each tile. -/
private theorem sum_keys {M : Type} [AddCommMonoid M] (G : Fin 8192 → M) :
    ∑ k : Fin 8192, G k
      = (∑ q : Fin 2048, G (key ⟨0, by decide⟩ q)) + (∑ q : Fin 2048, G (key ⟨1, by decide⟩ q))
        + (∑ q : Fin 2048, G (key ⟨2, by decide⟩ q)) + (∑ q : Fin 2048, G (key ⟨3, by decide⟩ q)) := by
  rw [← Equiv.sum_comp keyEquiv G, Fintype.sum_prod_type, Fin.sum_univ_four]
  rfl

/-! ## The running maximum -/

private theorem runMax_succ (x : XArr) (r : Fin 8192) (n : ℕ) (h : n < 4) :
    runMax x r (n + 1) = max (runMax x r n) (tileMax x r ⟨n, h⟩) := by
  rw [runMax, dif_pos h]

private theorem tileMax_le_rowMax (x : XArr) (r : Fin 8192) (j : Fin 4) : tileMax x r j ≤ rowMax x r := by
  unfold tileMax rowMax
  exact Finset.sup_le fun q _ => Finset.le_sup (f := fun k : Fin 8192 => sim x r k) (Finset.mem_univ (key j q))

private theorem runMax_four_eq (x : XArr) (r : Fin 8192) :
    runMax x r 4 = max (max (max (tileMax x r ⟨0, by decide⟩) (tileMax x r ⟨1, by decide⟩))
      (tileMax x r ⟨2, by decide⟩)) (tileMax x r ⟨3, by decide⟩) := by
  rw [runMax_succ x r 3 (by decide), runMax_succ x r 2 (by decide), runMax_succ x r 1 (by decide),
    runMax_succ x r 0 (by decide)]
  have h0 : runMax x r 0 = ⊥ := by rw [runMax]
  rw [h0, max_eq_right bot_le]

private theorem tileMax_le_runMax_four (x : XArr) (r : Fin 8192) (j : Fin 4) : tileMax x r j ≤ runMax x r 4 := by
  rw [runMax_four_eq]
  match j with
  | ⟨0, _⟩ => exact le_trans (le_max_left _ _) (le_trans (le_max_left _ _) (le_max_left _ _))
  | ⟨1, _⟩ => exact le_trans (le_max_right _ _) (le_trans (le_max_left _ _) (le_max_left _ _))
  | ⟨2, _⟩ => exact le_trans (le_max_right _ _) (le_max_left _ _)
  | ⟨3, _⟩ => exact le_max_right _ _
  | ⟨n + 4, h⟩ => exact absurd h (by omega)

private theorem runMax_four_aux (x : XArr) (r : Fin 8192) : runMax x r 4 = rowMax x r := by
  apply le_antisymm
  · rw [runMax_four_eq]
    exact max_le (max_le (max_le (tileMax_le_rowMax x r _) (tileMax_le_rowMax x r _)) (tileMax_le_rowMax x r _))
      (tileMax_le_rowMax x r _)
  · unfold rowMax
    refine Finset.sup_le fun k _ => ?_
    have hk : sim x r k ≤ tileMax x r ⟨k.val / 2048, by have := k.isLt; omega⟩ := by
      unfold tileMax
      have := Finset.le_sup (f := fun q : Fin 2048 => sim x r (key ⟨k.val / 2048, by have := k.isLt; omega⟩ q))
        (Finset.mem_univ (⟨k.val % 2048, Nat.mod_lt _ (by decide)⟩ : Fin 2048))
      simpa only [key_div_mod] using this
    exact le_trans hk (tileMax_le_runMax_four x r _)

/-! ## The accumulator -/

/-- The one-hot entry as a real number. -/
private def ohR (lab : LArr) (k : Fin 8192) (c : Fin 128) : ℝ :=
  if lab (ix1 k) = BitVec.ofNat 32 c.val then 1 else 0

private theorem oh_eq (lab : LArr) (k : Fin 8192) (c : Fin 128) : oh lab k c = ((ohR lab k c : ℝ) : EReal) := by
  unfold oh ohR
  split_ifs <;> simp

/-- A shifted exponential times a real factor: the shift comes out as the factor exp (−b). -/
private theorem term_real (s b o : ℝ) :
    Ideal.exp ((s : EReal) - (b : EReal)) * ((o : ℝ) : EReal)
      = ((Real.exp (-b) * (Real.exp s * o) : ℝ) : EReal) := by
  rw [← EReal.coe_sub, Ideal.exp_coe, ← EReal.coe_mul]
  congr 1
  rw [sub_eq_add_neg, Real.exp_add]
  ring

/-- The same for the sum over one tile. -/
private theorem tile_sum (b : ℝ) (f o : Fin 2048 → ℝ) :
    ∑ q : Fin 2048, Ideal.exp ((f q : EReal) - (b : EReal)) * ((o q : ℝ) : EReal)
      = ((Real.exp (-b) * ∑ q : Fin 2048, Real.exp (f q) * o q : ℝ) : EReal) := by
  simp only [term_real]
  rw [← coe_sum, ← Finset.mul_sum]

/-- One step of the recurrence on real data: rescaling exp (−a) · P by exp (a − b) gives exp (−b) · P. -/
private theorem acc_step (a b P : ℝ) (f o : Fin 2048 → ℝ) :
    Ideal.exp ((a : EReal) - (b : EReal)) * ((Real.exp (-a) * P : ℝ) : EReal)
        + ∑ q : Fin 2048, Ideal.exp ((f q : EReal) - (b : EReal)) * ((o q : ℝ) : EReal)
      = ((Real.exp (-b) * (P + ∑ q : Fin 2048, Real.exp (f q) * o q) : ℝ) : EReal) := by
  rw [tile_sum, ← EReal.coe_sub, Ideal.exp_coe, ← EReal.coe_mul, ← EReal.coe_add]
  congr 1
  have h : Real.exp (a - b) * Real.exp (-a) = Real.exp (-b) := by
    rw [← Real.exp_add]
    congr 1
    ring
  rw [mul_add, ← h]
  ring

/-- The largest similarity within a tile is a real number. -/
private theorem tileMax_real {x : XArr} {r : Fin 8192} (s : Fin 8192 → ℝ) (hs : ∀ k, sim x r k = (s k : EReal))
    (j : Fin 4) : ∃ t : ℝ, tileMax x r j = (t : EReal) := by
  have hbot : tileMax x r j ≠ ⊥ := by
    have h0 : sim x r (key j ⟨0, by decide⟩) ≤ tileMax x r j :=
      Finset.le_sup (f := fun q : Fin 2048 => sim x r (key j q)) (Finset.mem_univ _)
    rw [hs] at h0
    exact ne_of_gt (lt_of_lt_of_le (EReal.bot_lt_coe _) h0)
  have htop : tileMax x r j ≠ ⊤ := by
    apply ne_of_lt
    unfold tileMax
    rw [Finset.sup_lt_iff bot_lt_top]
    intro q _
    rw [hs]
    exact EReal.coe_lt_top _
  exact ⟨(tileMax x r j).toReal, (EReal.coe_toReal htop hbot).symm⟩

private theorem coe_max (a b : ℝ) : max (a : EReal) (b : EReal) = ((max a b : ℝ) : EReal) :=
  (EReal.coe_strictMono.monotone.map_max).symm

/-- One step of the accumulator's recurrence when both running maxima are real. -/
private theorem runAcc_step {x : XArr} {lab : LArr} {r : Fin 8192} {c : Fin 128} (s : Fin 8192 → ℝ)
    (hs : ∀ k, sim x r k = (s k : EReal)) (n : ℕ) (h : n < 4) (a b P : ℝ)
    (ha : runMax x r n = (a : EReal)) (hb : runMax x r (n + 1) = (b : EReal))
    (hP : runAcc x lab r c n = ((Real.exp (-a) * P : ℝ) : EReal)) :
    runAcc x lab r c (n + 1)
      = ((Real.exp (-b) * (P + ∑ q : Fin 2048, Real.exp (s (key ⟨n, h⟩ q)) * ohR lab (key ⟨n, h⟩ q) c) : ℝ)
          : EReal) := by
  rw [runAcc, dif_pos h, ha, hb, hP]
  simp only [hs, oh_eq]
  exact acc_step a b P _ _

/-- The class sum on real data: the shift by the row's maximum comes out as one factor. -/
private theorem cs_real {x : XArr} {lab : LArr} {r : Fin 8192} (s : Fin 8192 → ℝ)
    (hs : ∀ k, sim x r k = (s k : EReal)) (m : ℝ) (hm : rowMax x r = (m : EReal)) (c : Fin 128) :
    cs x lab r c = ((Real.exp (-m) * ∑ k : Fin 8192, Real.exp (s k) * ohR lab k c : ℝ) : EReal) := by
  unfold cs
  rw [hm]
  simp only [hs, oh_eq, term_real]
  rw [← coe_sum, ← Finset.mul_sum]

/-- After the four tiles the accumulator holds the class sum. -/
theorem runAcc_four (x : XArr) (lab : LArr) (hx : Finite x) (r : Fin 8192) (c : Fin 128) :
    runAcc x lab r c 4 = cs x lab r c := by
  choose s hs using fun k => sim_real hx r k
  obtain ⟨t0, ht0⟩ := tileMax_real s hs ⟨0, by decide⟩
  obtain ⟨t1, ht1⟩ := tileMax_real s hs ⟨1, by decide⟩
  obtain ⟨t2, ht2⟩ := tileMax_real s hs ⟨2, by decide⟩
  obtain ⟨t3, ht3⟩ := tileMax_real s hs ⟨3, by decide⟩
  have m0 : runMax x r 0 = ⊥ := by rw [runMax]
  have m1 : runMax x r 1 = (t0 : EReal) := by
    rw [runMax_succ x r 0 (by decide), m0, ht0, max_eq_right bot_le]
  have m2 : runMax x r 2 = ((max t0 t1 : ℝ) : EReal) := by
    rw [runMax_succ x r 1 (by decide), m1, ht1, coe_max]
  have m3 : runMax x r 3 = ((max (max t0 t1) t2 : ℝ) : EReal) := by
    rw [runMax_succ x r 2 (by decide), m2, ht2, coe_max]
  have m4 : runMax x r 4 = ((max (max (max t0 t1) t2) t3 : ℝ) : EReal) := by
    rw [runMax_succ x r 3 (by decide), m3, ht3, coe_max]
  have a0 : runAcc x lab r c 0 = 0 := by rw [runAcc]
  have a1 : runAcc x lab r c 1
      = ((Real.exp (-t0) * ∑ q : Fin 2048, Real.exp (s (key ⟨0, by decide⟩ q)) * ohR lab (key ⟨0, by decide⟩ q) c : ℝ)
          : EReal) := by
    show runAcc x lab r c (0 + 1) = _
    rw [runAcc, dif_pos (by decide : 0 < 4), a0, mul_zero, zero_add,
      show runMax x r (0 + 1) = (t0 : EReal) from m1]
    simp only [hs, oh_eq]
    exact tile_sum _ _ _
  have a2 := runAcc_step (lab := lab) (c := c) s hs 1 (by decide) _ _ _ m1 m2 a1
  have a3 := runAcc_step (lab := lab) (c := c) s hs 2 (by decide) _ _ _ m2 m3 a2
  have a4 := runAcc_step (lab := lab) (c := c) s hs 3 (by decide) _ _ _ m3 m4 a3
  refine a4.trans ?_
  rw [cs_real s hs _ ((runMax_four_aux x r).symm.trans m4) c, sum_keys]

/-- After the four tiles the running maximum is the row's maximum. -/
theorem runMax_four (x : XArr) (r : Fin 8192) : runMax x r 4 = rowMax x r := by
  exact runMax_four_aux x r

/-! ## The loss from the class sums -/

/-- A word equals the word of a column index exactly when its value is that index. -/
private theorem eq_ofNat_iff (w : BitVec 32) (c : Fin 128) : w = BitVec.ofNat 32 c.val ↔ w.toNat = c.val := by
  have hc : c.val % 2 ^ 32 = c.val := Nat.mod_eq_of_lt (lt_trans c.isLt (by norm_num))
  constructor
  · intro h
    rw [h, BitVec.toNat_ofNat, hc]
  · intro h
    apply BitVec.eq_of_toNat_eq
    rw [BitVec.toNat_ofNat, hc, h]

/-- Each key lies in exactly one class column. -/
private theorem sum_ohR (lab : LArr) (hl : LabOk lab) (k : Fin 8192) : ∑ c : Fin 128, ohR lab k c = 1 := by
  have hk := hl k
  unfold ohR
  simp only [eq_ofNat_iff]
  rw [Finset.sum_eq_single (⟨(lab (ix1 k)).toNat, by omega⟩ : Fin 128)]
  · simp
  · intro c _ hc
    rw [if_neg]
    intro h
    exact hc (Fin.ext h.symm)
  · intro h
    exact absurd (Finset.mem_univ _) h

/-- The column of a row's own label holds the keys that carry that label. -/
private theorem ohR_col (lab : LArr) (hl : LabOk lab) (r k : Fin 8192) :
    ohR lab k (col lab r) = if lab (ix1 r) = lab (ix1 k) then 1 else 0 := by
  have hr := hl r
  have h : (lab (ix1 k) = BitVec.ofNat 32 (col lab r).val) ↔ (lab (ix1 r) = lab (ix1 k)) := by
    rw [eq_ofNat_iff]
    show (lab (ix1 k)).toNat = (lab (ix1 r)).toNat % 128 ↔ _
    rw [Nat.mod_eq_of_lt (by omega)]
    constructor
    · intro h
      exact BitVec.eq_of_toNat_eq h.symm
    · intro h
      rw [h]
  unfold ohR
  simp only [h]

/-- A row's largest similarity is a real number. -/
private theorem rowMax_real {x : XArr} {r : Fin 8192} (s : Fin 8192 → ℝ) (hs : ∀ k, sim x r k = (s k : EReal)) :
    ∃ m : ℝ, rowMax x r = (m : EReal) := by
  obtain ⟨t0, ht0⟩ := tileMax_real s hs ⟨0, by decide⟩
  obtain ⟨t1, ht1⟩ := tileMax_real s hs ⟨1, by decide⟩
  obtain ⟨t2, ht2⟩ := tileMax_real s hs ⟨2, by decide⟩
  obtain ⟨t3, ht3⟩ := tileMax_real s hs ⟨3, by decide⟩
  refine ⟨max (max (max t0 t1) t2) t3, ?_⟩
  rw [← runMax_four_aux, runMax_four_eq, ht0, ht1, ht2, ht3, coe_max, coe_max, coe_max]

/-- The loss assembled from the class sums is the loss. -/
theorem lossK_eq_loss (x : XArr) (lab : LArr) (hx : Finite x) (hl : LabOk lab) : lossK x lab = loss x lab := by
  unfold lossK loss perSample
  refine Finset.sum_congr rfl fun r _ => ?_
  choose s hs using fun k => sim_real hx r k
  obtain ⟨m, hm⟩ := rowMax_real s hs
  have hrow : rowSum x r = ((∑ k : Fin 8192, Real.exp (s k) : ℝ) : EReal) := by
    unfold rowSum e
    simp only [hs, Ideal.exp_coe]
    rw [← coe_sum]
  have hpos : posSum x lab r
      = ((∑ k : Fin 8192, if lab (ix1 r) = lab (ix1 k) then Real.exp (s k) else 0 : ℝ) : EReal) := by
    unfold posSum e
    simp only [hs, Ideal.exp_coe]
    rw [coe_sum]
    refine Finset.sum_congr rfl fun k _ => ?_
    split_ifs <;> simp
  have hR : 0 < ∑ k : Fin 8192, Real.exp (s k) :=
    Finset.sum_pos (fun k _ => Real.exp_pos _) ⟨r, Finset.mem_univ _⟩
  have hcol : cs x lab r (col lab r)
      = ((Real.exp (-m) * ∑ k : Fin 8192, if lab (ix1 r) = lab (ix1 k) then Real.exp (s k) else 0 : ℝ) : EReal) := by
    rw [cs_real s hs m hm]
    congr 2
    refine Finset.sum_congr rfl fun k _ => ?_
    rw [ohR_col lab hl]
    split_ifs <;> simp
  have hall : ∑ c : Fin 128, cs x lab r c = ((Real.exp (-m) * ∑ k : Fin 8192, Real.exp (s k) : ℝ) : EReal) := by
    simp only [cs_real s hs m hm]
    rw [← coe_sum, ← Finset.mul_sum, Finset.sum_comm]
    congr 2
    refine Finset.sum_congr rfl fun k _ => ?_
    rw [← Finset.mul_sum, sum_ohR lab hl, mul_one]
  have hdiv : Ideal.div (cs x lab r (col lab r)) (∑ c : Fin 128, cs x lab r c)
      = Ideal.div (posSum x lab r) (rowSum x r) := by
    have hE := Real.exp_pos (-m)
    rw [hcol, hall, hpos, hrow, Ideal.div_coe (ne_of_gt (mul_pos hE hR)), Ideal.div_coe (ne_of_gt hR),
      ← EReal.coe_mul, ← EReal.coe_mul]
    congr 1
    field_simp
  rw [hdiv]

end Cert.Spec

end
-- ==== Proof.KI.Values.lean ====
/-
  The kernel's result array over the extended reals. Row r of the result lies in row block r / 1024, which the grid
  visits at the four points 4·(r / 1024) + j, j = 0 … 3, one per key tile; the accumulator and the running maximum
  after point 4·i + j hold, at row p of the block, the online recurrence of row 1024·i + p after j + 1 tiles; the
  block written back at j = 3 is the accumulator after all four tiles, which is the class sum.
-/
import proofs.«406752_j68152541053487_3_alg».proof.Proof.KI.Pieces
import proofs.«406752_j68152541053487_3_alg».proof.Proof.KI.Entry
import proofs.«406752_j68152541053487_3_alg».proof.Proof.Payload
import proofs.«406752_j68152541053487_3_alg».proof.Proof.Algebra

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (mI : (ℓ : Loc nD τ sig) → Buf (Elt Ideal) ℓ)

/-- The two argument arrays as the specification reads them. -/
abbrev xA (c : Dev nD) : Cert.Spec.XArr := mI ((c : Thread nD τ).loc main_arg0)
abbrev lA (c : Dev nD) : Cert.Spec.LArr := mI ((c : Thread nD τ).loc main_arg1)

/-- Row `p` of the row block that point `t` visits, as a row of the whole array. -/
abbrev rowOf (t : Fin cfg0.N) (p : Fin 1024) : Fin 8192 :=
  ⟨1024 * (t.val / 4) + p.val, by have := t.isLt; have : cfg0.N = 32 := N_0; have := p.isLt; omega⟩

/-- The key tile that point `t` visits. -/
abbrev tileOf (t : Fin cfg0.N) : Fin 4 := ⟨t.val % 4, Nat.mod_lt _ (by decide)⟩

/-! ## The similarities at a point -/

/-- At point `t` the product of the two feature blocks, scaled, is the similarity of the block's row and the
    tile's key. -/
theorem pay3_sim (c : Dev nD) (t : Fin cfg0.N) (p : Fin 1024) (q : Fin 2048) :
    k0_pay3 (F := Ideal) (fiB mI c t) (fjB mI c t) (ix2 p q)
      = Cert.Spec.sim (xA mI c) (rowOf t p) (Cert.Spec.key (tileOf t) q) := by
  refine (Payload.pay3_apply (fiB mI c t) (fjB mI c t) p q).trans ?_
  unfold Cert.Spec.sim
  refine congrArg (· * Cert.Spec.invT) ?_
  refine Finset.sum_congr rfl fun d _ => ?_
  rw [fiB_apply, fjB_apply, f1A_apply, f1A_apply]
  rfl

/-! ## One step of the recurrence -/

/-- If the running maximum and the accumulator hold the recurrence of row `rowOf t p` after `n` tiles, with `n` the
    tile of point `t`, the body's update leaves the recurrence after `n + 1` tiles. -/
theorem step (c : Dev nD) (t : Fin cfg0.N) (p : Fin 1024) (n : ℕ) (hn : n = t.val % 4)
    (v12 : Vec Ideal S1024x1 .f32) (v23 : Vec Ideal S1024x128 .f32)
    (h12 : v12 (ix2 p (0 : Fin 1)) = Cert.Spec.runMax (xA mI c) (rowOf t p) n)
    (h23 : ∀ cc : Fin 128, v23 (ix2 p cc) = Cert.Spec.runAcc (xA mI c) (lA mI c) (rowOf t p) cc n) :
    k0_pay6 (F := Ideal) (fiB mI c t) (fjB mI c t) v12 (ix2 p (0 : Fin 1))
        = Cert.Spec.runMax (xA mI c) (rowOf t p) (n + 1)
      ∧ ∀ cc : Fin 128, k0_pay5 (F := Ideal) (fiB mI c t) (fjB mI c t) v12 (ohB mI c t) v23 (ix2 p cc)
          = Cert.Spec.runAcc (xA mI c) (lA mI c) (rowOf t p) cc (n + 1) := by
  subst hn
  have hn4 : t.val % 4 < 4 := Nat.mod_lt _ (by decide)
  have h4 : k0_pay4 (F := Ideal) (fiB mI c t) (fjB mI c t) v12 (ix2 p (0 : Fin 1))
      = Cert.Spec.runMax (xA mI c) (rowOf t p) (t.val % 4 + 1) := by
    rw [Cert.Spec.runMax, dif_pos hn4]
    refine (Payload.pay4_apply (fiB mI c t) (fjB mI c t) v12 p).trans ?_
    rw [h12]
    refine congrArg (max _) ?_
    unfold Cert.Spec.tileMax
    exact Finset.sup_congr rfl fun q _ => pay3_sim mI c t p q
  refine ⟨(Payload.pay6_apply (fiB mI c t) (fjB mI c t) v12 p).trans h4, fun cc => ?_⟩
  rw [Cert.Spec.runAcc, dif_pos hn4]
  refine (Payload.pay5_apply (fiB mI c t) (fjB mI c t) v12 (ohB mI c t) v23 p cc).trans ?_
  rw [h4, h12, h23 cc]
  have hadd : ∀ a b b' : EReal, b = b' → a + b = a + b' := fun a b b' h => by rw [h]
  refine hadd _ _ _ ?_
  refine Finset.sum_congr rfl fun q _ => ?_
  rw [pay3_sim, ohB_apply, ohA_apply]
  rfl

/-! ## The body at a point, by its three cases -/

/-- At a reset point (tile 0) the accumulator and the running maximum end at the update of zero and of bottom. -/
theorem ptA (c : Dev nD) (t : Fin cfg0.N) (h0 : t.val % 4 = 0) :
    (outsAt0 mI c t.val t.isLt).2.1
        = k0_pay5 (F := Ideal) (fiB mI c t) (fjB mI c t) (k0_pay2 (F := Ideal)) (ohB mI c t) (k0_pay1 (F := Ideal))
      ∧ (outsAt0 mI c t.val t.isLt).2.2
        = k0_pay6 (F := Ideal) (fiB mI c t) (fjB mI c t) (k0_pay2 (F := Ideal)) := by
  have h1 : ¬t.val % 4 = 3 := by omega
  rw [outsAt0_A mI c t h0 h1]
  dsimp only
  exact ⟨sout0_A_0_eq (F := Ideal) c (grid0.coords t) (ms0_0 t) (hs0_0 t) (ms0_1 t) (hs0_1 t) (ms0_2 t) (hs0_2 t)
      (ms0_3 t) (hs0_3 t) scM0_0 (Memref.isWhole_whole _) scM0_1 (Memref.isWhole_whole _) ((hcond0_0 t).mpr h0)
      (fun h => h1 ((hcond0_1 t).mp h)) (fiB mI c t) (fjB mI c t) (ohB mI c t),
    sout0_A_1_eq (F := Ideal) c (grid0.coords t) (ms0_0 t) (hs0_0 t) (ms0_1 t) (hs0_1 t) (ms0_2 t) (hs0_2 t)
      (ms0_3 t) (hs0_3 t) scM0_0 (Memref.isWhole_whole _) scM0_1 (Memref.isWhole_whole _) ((hcond0_0 t).mpr h0)
      (fun h => h1 ((hcond0_1 t).mp h)) (fiB mI c t) (fjB mI c t) (ohB mI c t)⟩

/-- At tiles 1 and 2 they end at the update of what the point before left. -/
theorem ptB (c : Dev nD) (t : Fin cfg0.N) (h0 : ¬t.val % 4 = 0) (h1 : ¬t.val % 4 = 3) :
    (outsAt0 mI c t.val t.isLt).2.1
        = k0_pay5 (F := Ideal) (fiB mI c t) (fjB mI c t)
            (outsAt0 mI c (t.val - 1) (Nat.lt_of_le_of_lt (Nat.sub_le _ _) t.isLt)).2.2 (ohB mI c t)
            (outsAt0 mI c (t.val - 1) (Nat.lt_of_le_of_lt (Nat.sub_le _ _) t.isLt)).2.1
      ∧ (outsAt0 mI c t.val t.isLt).2.2
        = k0_pay6 (F := Ideal) (fiB mI c t) (fjB mI c t)
            (outsAt0 mI c (t.val - 1) (Nat.lt_of_le_of_lt (Nat.sub_le _ _) t.isLt)).2.2 := by
  rw [outsAt0_B mI c t h0 h1]
  dsimp only
  exact ⟨sout0_B_0_eq (F := Ideal) c (grid0.coords t) (ms0_0 t) (hs0_0 t) (ms0_1 t) (hs0_1 t) (ms0_2 t) (hs0_2 t)
      (ms0_3 t) (hs0_3 t) scM0_0 (Memref.isWhole_whole _) scM0_1 (Memref.isWhole_whole _)
      (fun h => h0 ((hcond0_0 t).mp h)) (fun h => h1 ((hcond0_1 t).mp h)) (fiB mI c t) (fjB mI c t) (ohB mI c t)
      (outsAt0 mI c (t.val - 1) (Nat.lt_of_le_of_lt (Nat.sub_le _ _) t.isLt)).2.1
      (outsAt0 mI c (t.val - 1) (Nat.lt_of_le_of_lt (Nat.sub_le _ _) t.isLt)).2.2,
    sout0_B_1_eq (F := Ideal) c (grid0.coords t) (ms0_0 t) (hs0_0 t) (ms0_1 t) (hs0_1 t) (ms0_2 t) (hs0_2 t)
      (ms0_3 t) (hs0_3 t) scM0_0 (Memref.isWhole_whole _) scM0_1 (Memref.isWhole_whole _)
      (fun h => h0 ((hcond0_0 t).mp h)) (fun h => h1 ((hcond0_1 t).mp h)) (fiB mI c t) (fjB mI c t) (ohB mI c t)
      (outsAt0 mI c (t.val - 1) (Nat.lt_of_le_of_lt (Nat.sub_le _ _) t.isLt)).2.1
      (outsAt0 mI c (t.val - 1) (Nat.lt_of_le_of_lt (Nat.sub_le _ _) t.isLt)).2.2⟩

/-- At tile 3 likewise, and the output block is the updated accumulator. -/
theorem ptC (c : Dev nD) (t : Fin cfg0.N) (h0 : ¬t.val % 4 = 0) (h1 : t.val % 4 = 3) :
    (outsAt0 mI c t.val t.isLt).1
        = k0_pay5 (F := Ideal) (fiB mI c t) (fjB mI c t)
            (outsAt0 mI c (t.val - 1) (Nat.lt_of_le_of_lt (Nat.sub_le _ _) t.isLt)).2.2 (ohB mI c t)
            (outsAt0 mI c (t.val - 1) (Nat.lt_of_le_of_lt (Nat.sub_le _ _) t.isLt)).2.1
      ∧ (outsAt0 mI c t.val t.isLt).2.1
        = k0_pay5 (F := Ideal) (fiB mI c t) (fjB mI c t)
            (outsAt0 mI c (t.val - 1) (Nat.lt_of_le_of_lt (Nat.sub_le _ _) t.isLt)).2.2 (ohB mI c t)
            (outsAt0 mI c (t.val - 1) (Nat.lt_of_le_of_lt (Nat.sub_le _ _) t.isLt)).2.1
      ∧ (outsAt0 mI c t.val t.isLt).2.2
        = k0_pay6 (F := Ideal) (fiB mI c t) (fjB mI c t)
            (outsAt0 mI c (t.val - 1) (Nat.lt_of_le_of_lt (Nat.sub_le _ _) t.isLt)).2.2 := by
  rw [outsAt0_C mI c t h0 h1]
  dsimp only
  exact ⟨out0_C_3_eq (F := Ideal) c (grid0.coords t) (ms0_0 t) (hs0_0 t) (ms0_1 t) (hs0_1 t) (ms0_2 t) (hs0_2 t)
      (ms0_3 t) (hs0_3 t) scM0_0 (Memref.isWhole_whole _) scM0_1 (Memref.isWhole_whole _)
      (fun h => h0 ((hcond0_0 t).mp h)) ((hcond0_1 t).mpr h1) (fiB mI c t) (fjB mI c t) (ohB mI c t)
      (outsAt0 mI c (t.val - 1) (Nat.lt_of_le_of_lt (Nat.sub_le _ _) t.isLt)).2.1
      (outsAt0 mI c (t.val - 1) (Nat.lt_of_le_of_lt (Nat.sub_le _ _) t.isLt)).2.2,
    sout0_C_0_eq (F := Ideal) c (grid0.coords t) (ms0_0 t) (hs0_0 t) (ms0_1 t) (hs0_1 t) (ms0_2 t) (hs0_2 t)
      (ms0_3 t) (hs0_3 t) scM0_0 (Memref.isWhole_whole _) scM0_1 (Memref.isWhole_whole _)
      (fun h => h0 ((hcond0_0 t).mp h)) ((hcond0_1 t).mpr h1) (fiB mI c t) (fjB mI c t) (ohB mI c t)
      (outsAt0 mI c (t.val - 1) (Nat.lt_of_le_of_lt (Nat.sub_le _ _) t.isLt)).2.1
      (outsAt0 mI c (t.val - 1) (Nat.lt_of_le_of_lt (Nat.sub_le _ _) t.isLt)).2.2,
    sout0_C_1_eq (F := Ideal) c (grid0.coords t) (ms0_0 t) (hs0_0 t) (ms0_1 t) (hs0_1 t) (ms0_2 t) (hs0_2 t)
      (ms0_3 t) (hs0_3 t) scM0_0 (Memref.isWhole_whole _) scM0_1 (Memref.isWhole_whole _)
      (fun h => h0 ((hcond0_0 t).mp h)) ((hcond0_1 t).mpr h1) (fiB mI c t) (fjB mI c t) (ohB mI c t)
      (outsAt0 mI c (t.val - 1) (Nat.lt_of_le_of_lt (Nat.sub_le _ _) t.isLt)).2.1
      (outsAt0 mI c (t.val - 1) (Nat.lt_of_le_of_lt (Nat.sub_le _ _) t.isLt)).2.2⟩

/-! ## The recurrence along the grid -/

/-- At a reset point the two scratch buffers hold the recurrence after one tile. -/
theorem invA (c : Dev nD) (t : Fin cfg0.N) (h0 : t.val % 4 = 0) (p : Fin 1024) :
    (outsAt0 mI c t.val t.isLt).2.2 (ix2 p (0 : Fin 1)) = Cert.Spec.runMax (xA mI c) (rowOf t p) (t.val % 4 + 1)
      ∧ ∀ cc : Fin 128, (outsAt0 mI c t.val t.isLt).2.1 (ix2 p cc)
          = Cert.Spec.runAcc (xA mI c) (lA mI c) (rowOf t p) cc (t.val % 4 + 1) := by
  obtain ⟨e1, e2⟩ := ptA mI c t h0
  rw [e1, e2]
  exact step mI c t p (t.val % 4) rfl (k0_pay2 (F := Ideal)) (k0_pay1 (F := Ideal))
    ((Payload.pay2_apply p).trans (by rw [h0, Cert.Spec.runMax]))
    (fun cc => (Payload.pay1_apply p cc).trans (by rw [h0, Cert.Spec.runAcc]))

/-- At every other point they hold the recurrence after one tile more than the point before; at tile 3 the output
    block holds the same accumulator. -/
theorem invS (c : Dev nD) (t : Fin cfg0.N) (h0 : ¬t.val % 4 = 0) (p : Fin 1024)
    (i12 : (outsAt0 mI c (t.val - 1) (Nat.lt_of_le_of_lt (Nat.sub_le _ _) t.isLt)).2.2 (ix2 p (0 : Fin 1))
      = Cert.Spec.runMax (xA mI c) (rowOf t p) (t.val % 4))
    (i23 : ∀ cc : Fin 128, (outsAt0 mI c (t.val - 1) (Nat.lt_of_le_of_lt (Nat.sub_le _ _) t.isLt)).2.1 (ix2 p cc)
      = Cert.Spec.runAcc (xA mI c) (lA mI c) (rowOf t p) cc (t.val % 4)) :
    (outsAt0 mI c t.val t.isLt).2.2 (ix2 p (0 : Fin 1)) = Cert.Spec.runMax (xA mI c) (rowOf t p) (t.val % 4 + 1)
      ∧ (∀ cc : Fin 128, (outsAt0 mI c t.val t.isLt).2.1 (ix2 p cc)
          = Cert.Spec.runAcc (xA mI c) (lA mI c) (rowOf t p) cc (t.val % 4 + 1))
      ∧ (t.val % 4 = 3 → ∀ cc : Fin 128, (outsAt0 mI c t.val t.isLt).1 (ix2 p cc)
          = Cert.Spec.runAcc (xA mI c) (lA mI c) (rowOf t p) cc (t.val % 4 + 1)) := by
  have hs := step mI c t p (t.val % 4) rfl
    (outsAt0 mI c (t.val - 1) (Nat.lt_of_le_of_lt (Nat.sub_le _ _) t.isLt)).2.2
    (outsAt0 mI c (t.val - 1) (Nat.lt_of_le_of_lt (Nat.sub_le _ _) t.isLt)).2.1 i12 i23
  by_cases h1 : t.val % 4 = 3
  · obtain ⟨e0, e1, e2⟩ := ptC mI c t h0 h1
    rw [e0, e1, e2]
    exact ⟨hs.1, hs.2, fun _ => hs.2⟩
  · obtain ⟨e1, e2⟩ := ptB mI c t h0 h1
    rw [e1, e2]
    exact ⟨hs.1, hs.2, fun h => absurd h h1⟩

/-- After point `n` the running maximum and the accumulator hold, at row `p` of the block, the recurrence of that row
    after `n % 4 + 1` tiles; at tile 3 so does the output block. -/
theorem inv (c : Dev nD) : ∀ (n : ℕ) (h : n < cfg0.N) (p : Fin 1024),
    (outsAt0 mI c n h).2.2 (ix2 p (0 : Fin 1)) = Cert.Spec.runMax (xA mI c) (rowOf ⟨n, h⟩ p) (n % 4 + 1)
      ∧ (∀ cc : Fin 128, (outsAt0 mI c n h).2.1 (ix2 p cc)
          = Cert.Spec.runAcc (xA mI c) (lA mI c) (rowOf ⟨n, h⟩ p) cc (n % 4 + 1))
      ∧ (n % 4 = 3 → ∀ cc : Fin 128, (outsAt0 mI c n h).1 (ix2 p cc)
          = Cert.Spec.runAcc (xA mI c) (lA mI c) (rowOf ⟨n, h⟩ p) cc (n % 4 + 1)) := by
  intro n
  induction n with
  | zero =>
    intro h p
    have hA := invA mI c ⟨0, h⟩ rfl p
    exact ⟨hA.1, hA.2, fun h3 => absurd h3 (by decide)⟩
  | succ n ih =>
    intro h p
    by_cases h0 : (n + 1) % 4 = 0
    · have hA := invA mI c ⟨n + 1, h⟩ h0 p
      exact ⟨hA.1, hA.2, fun h3 => absurd h3 (by omega)⟩
    · have hlt : n < cfg0.N := Nat.lt_of_succ_lt h
      obtain ⟨i12, i23, -⟩ := ih hlt p
      have e1 : n / 4 = (n + 1) / 4 := by omega
      have e2 : n % 4 + 1 = (n + 1) % 4 := by omega
      have hr : rowOf ⟨n, hlt⟩ p = rowOf ⟨n + 1, h⟩ p :=
        Fin.ext (by show 1024 * (n / 4) + p.val = 1024 * ((n + 1) / 4) + p.val; rw [e1])
      rw [hr, e2] at i12
      have i23' : ∀ cc : Fin 128, (outsAt0 mI c n hlt).2.1 (ix2 p cc)
          = Cert.Spec.runAcc (xA mI c) (lA mI c) (rowOf ⟨n + 1, h⟩ p) cc ((n + 1) % 4) := fun cc => by
        have h23 := i23 cc
        rw [hr, e2] at h23
        exact h23
      exact invS mI c ⟨n + 1, h⟩ h0 p i12 i23'

/-! ## From the blocks to the array -/

/-- The result window's block index over the grid: it follows the row-block coordinate. -/
theorem idx3_facts : ∀ t : Fin cfg0.N,
    win0_3.index t (0 : Fin 2) = t.val / 4 ∧ win0_3.index t (1 : Fin 2) = 0 :=
  (by decide +kernel : ∀ t : Fin grid0.N, _)

/-- The class sums as contents of the result array. -/
abbrev csArr (c : Dev nD) : Cert.Spec.XArr :=
  fun i => Cert.Spec.cs (xA mI c) (lA mI c) ⟨(i 0).val, idx2_lt0 i⟩ ⟨(i 1).val, idx2_lt1 i⟩

/-- The block a point of tile 3 leaves in the output's staging buffer is that point's block of the class sums. -/
theorem blk3 (c : Dev nD) (hx : Cert.Spec.Finite (xA mI c)) (t : Fin cfg0.N) (h3 : t.val % 4 = 3)
    (j : S1024x128.Idx) :
    (outsAt0 mI c t.val t.isLt).1 j = csArr mI c (((cfg0.win 3).blk t).view.emb j) := by
  obtain ⟨p, q, rfl⟩ : ∃ p q, j = ix2 p q := ⟨j 0, j 1, eq_ix2 j⟩
  obtain ⟨e0, e1⟩ := idx3_facts t
  have hemb : ((cfg0.win 3).blk t).view.emb (ix2 p q) = ix2 (rowOf t p) q := by
    funext a
    apply Fin.ext
    match a with
    | ⟨0, _⟩ => show win0_3.index t (0 : Fin 2) * 1024 + 1 * p.val = 1024 * (t.val / 4) + p.val; omega
    | ⟨1, _⟩ => show win0_3.index t (1 : Fin 2) * 128 + 1 * q.val = q.val; omega
  rw [hemb]
  show _ = Cert.Spec.cs (xA mI c) (lA mI c) (rowOf t p) q
  rw [← Cert.Spec.runAcc_four _ _ hx]
  have h4 : t.val % 4 + 1 = 4 := by omega
  have hI := (inv mI c t.val t.isLt p).2.2 h3 q
  rw [h4] at hI
  exact hI

/-- What a writing point writes back is its block of the class sums. -/
theorem flushed3 (c : Dev nD) (hx : Cert.Spec.Finite (xA mI c)) (t : Fin cfg0.N)
    (hf : (cfg0.win 3).flush t = true) :
    (dats (F := Ideal) mI 0 c).flushed 3 t = ((cfg0.win 3).blk t).view.read (Elt Ideal) (csArr mI c) := by
  have h3 : t.val % 4 = 3 := (flush0_3 t).mp hf
  show (cfg0.win 3).cut (grid0.coords t) ((dats (F := Ideal) mI 0 c).after 3 t) = _
  rw [after0_3]
  funext j
  exact blk3 mI c hx t h3 j

/-- An index of the result array is in point `t`'s block iff each coordinate is in the block's range on its axis. -/
theorem mem_blk3 (t : Fin cfg0.N) (i : S8192x128.Idx) :
    i ∈ ((cfg0.win 3).blk t).view.set ↔ ∀ a : Fin 2, win0_3.index t a * S1024x128.size a ≤ (i a).val
      ∧ (i a).val < win0_3.index t a * S1024x128.size a + S1024x128.size a := by
  show i ∈ ((View.whole main_v2).slice (win0_3.rect t)).set ↔ _
  rw [View.set_slice_whole, Rect.mem_set_unit]
  exact Iff.rfl

/-- The result array after the run is the class sums: the points of tile 3 write the eight row blocks. -/
theorem final3 (c : Dev nD) (hx : Cert.Spec.Finite (xA mI c)) :
    (dats (F := Ideal) mI 0 c).arrAt 3 cfg0.N = csArr mI c :=
  (dats (F := Ideal) mI 0 c).arrAt_eq_of_cover 3 (csArr mI c) (flushed3 mI c hx) fun i => by
    have hi0 : (i 0).val < 8192 := (i 0).isLt
    have hi1 : (i 1).val < 128 := (i 1).isLt
    have hN : cfg0.N = 32 := N_0
    obtain ⟨tt, htt⟩ : ∃ tt : Fin cfg0.N, tt.val = 4 * ((i 0).val / 1024) + 3 := ⟨⟨_, by omega⟩, rfl⟩
    obtain ⟨e0, e1⟩ := idx3_facts tt
    refine ⟨tt, (flush0_3 tt).mpr (by omega), (mem_blk3 tt i).mpr fun a => ?_⟩
    match a with
    | ⟨0, _⟩ =>
      show win0_3.index tt (0 : Fin 2) * 1024 ≤ (i 0).val ∧ (i 0).val < win0_3.index tt (0 : Fin 2) * 1024 + 1024
      omega
    | ⟨1, _⟩ =>
      show win0_3.index tt (1 : Fin 2) * 128 ≤ (i 1).val ∧ (i 1).val < win0_3.index tt (1 : Fin 2) * 128 + 128
      omega

/-- THE RESULT ARRAY: after the run, entry (r, cc) of the kernel's result is the class sum. -/
theorem out_eq (c : Dev nD) (hx : Cert.Spec.Finite (xA mI c)) (r : Fin 8192) (cc : Fin 128) :
    ((dats (F := Ideal) mI 0 c).arrAt 3 cfg0.N : Cert.Spec.XArr) (ix2 r cc) = Cert.Spec.cs (xA mI c) (lA mI c) r cc := by
  exact congrFun (final3 mI c hx) (ix2 r cc)

end Cert.KernelIdeal.Hand

end
-- ==== Proof.Tail.lean ====
/-
  The operations after the kernel, read off any contents of the core's buffers: from the kernel's output array `o`
  (standing in `main_v2`) and the labels they compute, row by row, the sum of the row over the 128 class columns,
  the entry at the row's own label, the histogram of the labels over 20 bins read back at each row's label, and from
  these the loss. With every label in [0, 20) no index is out of range: the histogram at a row's label is the count of
  the keys carrying that label, and the masked read of the row's own column is the entry itself.
-/
import proofs.«406752_j68152541053487_3_alg».proof.Proof.Gen.KernelIdeal.Launch
import proofs.«406752_j68152541053487_3_alg».proof.Proof.Spec
import Idealize.ShloMosaic.Lib.StableHlo.Run
import Idealize.ShloMosaic.Lib.StableHlo.Predicate
import Idealize.ShloMosaic.Lib.ValueIdx
import Idealize.ShloMosaic.Lib.Pipeline.Value
import Idealize.ShloMosaic.PureOps.Ideal.Laws
import Idealize.ShloMosaic.Lib.IdealHost

noncomputable section

namespace Cert.KernelIdeal.Tail

open Cert.KernelIdeal Cert.KernelIdeal.Gen
open Idealize.ShloMosaic Idealize.ShloMosaic.TcCoe Idealize.ShloMosaic.ValueIdx Idealize.SL.Sem

/-- The buffers' contents after the three stretches of operations that follow the kernel. -/
abbrev afterTail (W : Valuation τ sig (Elt Ideal)) : Valuation τ sig (Elt Ideal) :=
  StableHlo.after hostOps1_2 (StableHlo.after hostOps1_1 (StableHlo.after hostOps1 W))

open Cert.Spec

/-! ## Indices and words -/

/-- The rank-1 index set is its coordinate range. -/
private def idxEquiv1 : S8192.Idx ≃ Fin 8192 where
  toFun j := j 0
  invFun r := ix1 r
  left_inv j := (eq_ix1 j).symm
  right_inv _ := rfl

/-- A word below 20 read signed is its value. -/
private theorem toInt_toNat_small {a : BitVec 32} (ha : a.toNat < 20) : a.toInt.toNat = a.toNat := by
  rw [StableHlo.Predicate.toInt_eq_toNat_of_lt (by omega)]
  exact Int.toNat_natCast _

/-- A word in [0, 20) is not negative, so the wrap-around of a negative index leaves it alone. -/
private theorem norm_word (a K : BitVec 32) (ha : a.toNat < 20) :
    Scalar.select (IntOp.cmpi .slt a 0#32) (IntOp.addi a K) a = a := by
  have h : ¬ IntOp.cmpi .slt a 0#32 = 1#1 := fun h1 => by
    have h2 := (StableHlo.Predicate.slt_iff_toNat (a := a) (b := 0#32) (by omega) (by decide)).mp h1
    have h0 : (0#32 : BitVec 32).toNat = 0 := rfl
    omega
  rw [eq_zero_of_ne_one h, select_zero]

/-- A word in [0, 20) passes the bounds test 0 ≤ a ≤ 127. -/
private theorem bounds_word (a : BitVec 32) (ha : a.toNat < 20) :
    IntOp.andi (IntOp.andi (IntOp.cmpi .sge a 0#32) (IntOp.cmpi .sle a 127#32)) 1#1 = 1#1 := by
  have h0 : (0#32 : BitVec 32).toNat = 0 := rfl
  have h127 : (127#32 : BitVec 32).toNat = 127 := rfl
  rw [(StableHlo.Predicate.sge_iff_toNat (a := a) (b := 0#32) (by omega) (by decide)).mpr (by omega),
    (StableHlo.Predicate.sle_iff_toNat (a := a) (b := 127#32) (by omega) (by decide)).mpr (by omega)]
  rfl

/-! ## The row sum -/

private theorem rowsum_apply (o : XArr) (r : Fin 8192) :
    Host.reduceAdd (F := Ideal) (φ := .f32) o (constant S_ .f32 0x00000000#32) reducesTo_S8192x128_S8192_d1 h_S_ (ix1 r)
      = ∑ c : Fin 128, o (ix2 r c) := by
  simp only [Host.reduceAdd, Ideal.hostReduceAdd_def]
  rw [Ideal.hostReduceAdd_single reducesTo_S8192x128_S8192_d1 (by decide)]
  show Ideal.ofBits .f32 0x00000000#32 + _ = _
  rw [Ideal.ofBits_zero_f32, zero_add]
  refine Finset.sum_congr rfl fun c _ => ?_
  exact congrArg o (funext fun a => Fin.ext (by match a with | ⟨0, _⟩ => rfl | ⟨1, _⟩ => rfl))

/-! ## Operations at an index -/

private theorem cmpi_at {s : Shape} {w : Nat} (p : CmpIPredicate) (x y : IVec s w) (i : s.Idx) :
    cmpi p x y i = IntOp.cmpi p (x i) (y i) := rfl
private theorem addi_at {s : Shape} {w : Nat} (x y : IVec s w) (i : s.Idx) : addi x y i = IntOp.addi (x i) (y i) := rfl
private theorem andi_at {s : Shape} {w : Nat} (x y : IVec s w) (i : s.Idx) : andi x y i = IntOp.andi (x i) (y i) := rfl
/-- A splat of a word reads the word. -/
private theorem splatI_at {t : Shape} {w : Nat} (h : S_.BroadcastsInDim t ![]) (b : BitVec w) (j : t.Idx) :
    broadcastInDim t ![] h (constantI S_ w b) j = b := rfl
/-- A splat of a float pattern reads what the pattern denotes. -/
private theorem splatF_at {t : Shape} (h : S_.BroadcastsInDim t ![]) (b : BitVec 32) (j : t.Idx) :
    broadcastInDim t ![] h (constant (F := Ideal) S_ .f32 b) j = Ideal.ofBits .f32 b := rfl

/-- A vector laid as a column reads, at row `r`, its entry `r`. -/
private theorem col_apply {α : Type} (v : S8192.Idx → α) (r : Fin 8192) :
    broadcastInDim S8192x1 ![0] bcast_S8192_S8192x1_0 v (ix2 r 0) = v (ix1 r) :=
  broadcastInDim_apply _ bcast_S8192_S8192x1_0 v (ix2 r 0) (ix1 r) (fun a => match a with
    | ⟨0, _⟩ => by show r.val = if (8192 : Nat) = 1 then 0 else r.val; rw [if_neg (by decide)])

/-- A column viewed with a further unit axis reads the same entry. -/
private theorem unsqueeze_apply {α : Type} (x : S8192x1.Idx → α) (h : S8192x1.ShapeCasts S8192x1x1) (r : Fin 8192) :
    shapeCast S8192x1x1 x h (ix3 r 0 0) = x (ix2 r 0) :=
  shapeCast_apply x h (ix3 r 0 0) (ix2 r 0) (by
    rw [Shape.rowMajor_val_two, Shape.rowMajor_val_three]
    show r.val * 1 + 0 = (r.val * 1 + 0) * 1 + 0
    omega)

/-- A column viewed as a vector reads the same entry. -/
private theorem squeeze_apply {α : Type} (x : S8192x1.Idx → α) (h : S8192x1.ShapeCasts S8192) (r : Fin 8192) :
    shapeCast S8192 x h (ix1 r) = x (ix2 r 0) :=
  shapeCast_apply x h (ix1 r) (ix2 r 0) (by
    rw [Shape.rowMajor_val_two, Shape.rowMajor_val_one]
    show r.val * 1 + 0 = r.val
    omega)

/-! ## The index of the row's own column -/

/-- The wrapped label column reads the label itself, the labels being in range. -/
private theorem normcol_apply (lab : LArr) (hl : LabOk lab) (K : BitVec 32) (r : Fin 8192) :
    select (cmpi .slt (broadcastInDim S8192x1 ![0] bcast_S8192_S8192x1_0 lab) (broadcastInDim S8192x1 ![] bcast_S_S8192x1 (constantI S_ 32 0#32)))
      (addi (broadcastInDim S8192x1 ![0] bcast_S8192_S8192x1_0 lab) (broadcastInDim S8192x1 ![] bcast_S_S8192x1 (constantI S_ 32 K)))
      (broadcastInDim S8192x1 ![0] bcast_S8192_S8192x1_0 lab) (ix2 r 0) = lab (ix1 r) := by
  rw [select_apply, cmpi_at, addi_at, splatI_at, splatI_at, col_apply, norm_word _ _ (hl r)]

/-- The wrapped labels laid as a column likewise. -/
private theorem normvec_apply (lab : LArr) (hl : LabOk lab) (K : BitVec 32) (r : Fin 8192) :
    broadcastInDim S8192x1 ![0] bcast_S8192_S8192x1_0
      (select (cmpi .slt lab (broadcastInDim S8192 ![] bcast_S_S8192 (constantI S_ 32 0#32)))
        (addi lab (broadcastInDim S8192 ![] bcast_S_S8192 (constantI S_ 32 K))) lab) (ix2 r 0) = lab (ix1 r) := by
  rw [col_apply, select_apply, cmpi_at, addi_at, splatI_at, splatI_at, norm_word _ _ (hl r)]

/-- The bounds mask of an index in [0, 20), and-reduced over its unit axis, is set. -/
private theorem mask_apply (idx lo hi : IVec S8192x1x1 32) (r : Fin 8192)
    (hlo : lo (ix3 r 0 0) = 0#32) (hhi : hi (ix3 r 0 0) = 127#32) (hidx : (idx (ix3 r 0 0)).toNat < 20) :
    Host.reduce IntOp.andi (andi (cmpi .sge idx lo) (cmpi .sle idx hi)) (constantI S_ 1 1#1)
      reducesTo_S8192x1x1_S8192x1_d2 h_S_ (ix2 r 0) = 1#1 := by
  have hR : S8192x1x1.Reduces [2] S8192x1 := by decide
  rw [Host.reduce_eq_fold_single IntOp.andi _ _ reducesTo_S8192x1x1_S8192x1_d2 hR h_S_]
  show (Finset.univ : Finset (Fin 1)).fold IntOp.andi 1#1 _ = 1#1
  rw [Finset.univ_unique]
  refine Finset.fold_singleton.trans ?_
  have hi3 : hR.lift (ix2 r 0) (default : Fin 1) = ix3 r 0 0 :=
    funext fun a => Fin.ext (by match a with | ⟨0, _⟩ => rfl | ⟨1, _⟩ => rfl | ⟨2, _⟩ => rfl)
  show IntOp.andi (andi (cmpi .sge idx lo) (cmpi .sle idx hi) (hR.lift (ix2 r 0) (default : Fin 1))) 1#1 = 1#1
  rw [hi3, andi_at, cmpi_at, cmpi_at, hlo, hhi]
  exact bounds_word _ hidx

/-! ## The two gathers and the scatter, at an index -/

private abbrev G2 := gather_S8192x128_S8192x1x1_S8192x1_n_1_0_0_1_2_11
private abbrev G1 := gather_S20_S8192x1_S8192_n_0_n_n_0_1_1
private abbrev SC := scatter_S20_S8192x1_S8192_n_0_0_1

/-- The gather along a row: result (r, 0) reads row `r` of the array at the start index `idx[r, 0, 0]`, read signed
    and clamped into the 128 columns. -/
private theorem gather_row_apply {α : Type} (o : S8192x128.Idx → α) (idx : IVec S8192x1x1 32) (r : Fin 8192) :
    Host.gather G2 o idx (ix2 r 0) = o (ix2 r ⟨min (idx (ix3 r 0 0)).toInt.toNat 127, by omega⟩) := by
  -- the row: axis 0 is the batching axis, paired with axis 0 of the start indices
  have e0 : (G2.operandIdx (ix2 r 0) idx 0).val = r.val := by
    have hb : (0 : Fin S8192x128.rank) ∈ G2.operandBatchingDims := by decide
    have hk : (0 : Fin S8192x128.rank) ∉ G2.sKept := fun h => ((GatherDims.mem_sKept _ _).mp h).2 hb
    show G2.start (ix2 r 0) idx 0 + G2.batchCoord (ix2 r 0) 0 + G2.offCoord (ix2 r 0) 0 = r.val
    rw [GatherDims.start_batching _ _ _ _ hb, GatherDims.offCoord_eq_zero _ _ _ hk, Nat.zero_add, Nat.add_zero]
    unfold GatherDims.batchCoord
    rw [dif_pos hb]
    rfl
  -- the column: axis 1 is collapsed and carries the start index
  have e1 : (G2.operandIdx (ix2 r 0) idx 1).val = min (idx (ix3 r 0 0)).toInt.toNat 127 := by
    have hb : (1 : Fin S8192x128.rank) ∉ G2.operandBatchingDims := by decide
    have hc : (1 : Fin S8192x128.rank) ∈ G2.collapsedSliceDims := by decide
    have hk : (1 : Fin S8192x128.rank) ∉ G2.sKept := fun h => ((GatherDims.mem_sKept _ _).mp h).1 hc
    have hm : (1 : Fin S8192x128.rank) ∈ G2.startIndexMap := by decide
    show G2.start (ix2 r 0) idx 1 + G2.batchCoord (ix2 r 0) 1 + G2.offCoord (ix2 r 0) 1 = min (idx (ix3 r 0 0)).toInt.toNat 127
    rw [GatherDims.batchCoord_eq_zero _ _ _ hb, GatherDims.offCoord_eq_zero _ _ _ hk]
    simp only [Nat.add_zero]
    unfold GatherDims.start
    rw [dif_pos hm]
    have hsi : G2.siIdx (ix2 r 0) ⟨List.idxOf (1 : Fin S8192x128.rank) G2.startIndexMap, List.idxOf_lt_length_iff.2 hm⟩
        = ix3 r 0 0 :=
      funext fun b => Fin.ext (by match b with | ⟨0, _⟩ => rfl | ⟨1, _⟩ => rfl | ⟨2, _⟩ => rfl)
    rw [hsi]
    rfl
  unfold Host.gather
  exact congrArg o (funext fun a => Fin.ext (by match a with | ⟨0, _⟩ => exact e0 | ⟨1, _⟩ => exact e1))

private theorem ofFin_eq {n : Nat} (k : Fin n) : Shape.Idx.ofFin k = ix1 k :=
  funext fun a => by match a with | ⟨0, _⟩ => exact Fin.ext rfl
private theorem ixP_eq {n : Nat} (p : Fin n) : StableHlo.Predicate.ixP p = ix2 p (0 : Fin 1) :=
  funext fun a => by match a with | ⟨0, _⟩ => rfl | ⟨1, _⟩ => rfl

/-- The gather out of the 20 bins: result `r` reads the bin at the start index `idx[r, 0]`, read signed and clamped. -/
private theorem gather_bin_apply {α : Type} (x : S20.Idx → α) (idx : IVec S8192x1 32) (r : Fin 8192) :
    Host.gather G1 x idx (ix1 r) = x (ix1 ⟨min (idx (ix2 r 0)).toInt.toNat 19, by omega⟩) := by
  have h := StableHlo.Predicate.gather_take G1 rfl rfl rfl rfl x idx r (by decide)
  rw [ofFin_eq] at h
  refine h.trans (congrArg x ?_)
  rw [ofFin_eq]
  exact congrArg ix1 (Fin.ext (by
    show min (idx (StableHlo.Predicate.ixP r)).toInt.toNat (20 - 1) = min (idx (ix2 r 0)).toInt.toNat 19
    rw [ixP_eq]))

/-- An update whose scatter index is in range lands on the bin the index names. -/
private theorem scatter_idx (idx : IVec S8192x1 32) (j : S8192.Idx) (hj : (idx (ix2 (j 0) 0)).toNat < 20) :
    SC.resultIdx? j idx = some (ix1 ⟨(idx (ix2 (j 0) 0)).toNat, hj⟩) := by
  have hm : (0 : Fin S20.rank) ∈ SC.scatterDimsToOperandDims := by decide
  have hk : (0 : Fin S20.rank) ∉ SC.sKept := by decide
  have hstart : ∀ a : Fin S20.rank, SC.start j idx a = ((idx (ix2 (j 0) 0)).toNat : Int) := by
    intro a
    obtain rfl : a = 0 := Subsingleton.elim _ _
    unfold ScatterDims.start
    rw [dif_pos hm]
    have hsi : SC.siIdx j ⟨List.idxOf (0 : Fin S20.rank) SC.scatterDimsToOperandDims, List.idxOf_lt_length_iff.2 hm⟩
        = ix2 (n0 := 8192) (j 0) 0 :=
      funext fun b => Fin.ext (by match b with | ⟨0, _⟩ => rfl | ⟨1, _⟩ => rfl)
    rw [hsi]
    exact StableHlo.Predicate.toInt_eq_toNat_of_lt (by omega)
  have hwin : ∀ a : Fin S20.rank, SC.window j a = 0 := by
    intro a
    obtain rfl : a = 0 := Subsingleton.elim _ _
    unfold ScatterDims.window
    rw [dif_neg hk]
  have hin : ∀ a : Fin S20.rank, 0 ≤ SC.start j idx a + SC.window j a ∧ SC.start j idx a + SC.window j a < S20.size a := by
    intro a
    rw [hstart, hwin]
    obtain rfl : a = 0 := Subsingleton.elim _ _
    refine ⟨by omega, ?_⟩
    show ((idx (ix2 (j 0) 0)).toNat : Int) + ((0 : Nat) : Int) < ((20 : Nat) : Int)
    omega
  unfold ScatterDims.resultIdx?
  rw [dif_pos hin]
  refine congrArg some (funext fun a => Fin.ext ?_)
  obtain rfl : a = 0 := Subsingleton.elim _ _
  show (SC.start j idx 0 + SC.window j 0).toNat = (idx (ix2 (j 0) 0)).toNat
  rw [hstart, hwin]
  omega

/-- So an update lands on bin `b` exactly when its index is `b`. -/
private theorem scatter_lands (idx : IVec S8192x1 32) (hidx : ∀ k : Fin 8192, (idx (ix2 k 0)).toNat < 20) (j : S8192.Idx)
    (b : Fin 20) : SC.resultIdx? j idx = some (ix1 b) ↔ (idx (ix2 (j 0) 0)).toNat = b.val := by
  rw [scatter_idx idx j (hidx (j 0))]
  constructor
  · intro h
    exact congrArg Fin.val (congrFun (Option.some.inj h) 0)
  · intro h
    rw [show (⟨(idx (ix2 (j 0) 0)).toNat, hidx (j 0)⟩ : Fin 20) = b from Fin.ext h]

/-- A sum of ones over a finite set is its number of elements. -/
private theorem sum_ones {ι : Type} (S : Finset ι) : ∑ _j ∈ S, (1 : EReal) = (((S.card : ℕ) : ℝ) : EReal) := by
  rw [Finset.sum_const, nsmul_one]
  rfl

/-- The histogram: from zeros, adding one per key at the key's index, bin `b` holds the number of keys whose index is `b`. -/
private theorem hist_apply (idx : IVec S8192x1 32) (hidx : ∀ k : Fin 8192, (idx (ix2 k 0)).toNat < 20) (b : Fin 20) :
    Host.scatterAdd (F := Ideal) (φ := .f32) SC (broadcastInDim S20 ![] bcast_S_S20 (constant S_ .f32 0x00000000#32)) idx
        (broadcastInDim S8192 ![] bcast_S_S8192 (constant S_ .f32 0x3F800000#32)) (ix1 b)
      = ((((Finset.univ.filter fun k : Fin 8192 => (idx (ix2 k 0)).toNat = b.val).card : ℕ) : ℝ) : EReal) := by
  show Ideal.hostScatterAdd SC (broadcastInDim S20 ![] bcast_S_S20 (constant (F := Ideal) S_ .f32 0x00000000#32)) idx
    (broadcastInDim S8192 ![] bcast_S_S8192 (constant (F := Ideal) S_ .f32 0x3F800000#32)) (ix1 b) = _
  unfold Ideal.hostScatterAdd
  rw [splatF_at, Ideal.ofBits_zero_f32, zero_add,
    Finset.sum_congr rfl (fun j _ => (splatF_at bcast_S_S8192 0x3F800000#32 j).trans Ideal.ofBits_one_f32), sum_ones]
  refine congrArg (fun n : ℕ => ((n : ℝ) : EReal)) ?_
  refine Finset.card_bij (fun j _ => j 0) (fun j hj => ?_) (fun j _ j' _ h => ?_) (fun k hk => ?_)
  · exact Finset.mem_filter.mpr ⟨Finset.mem_univ _, (scatter_lands idx hidx j b).mp (Finset.mem_filter.mp hj).2⟩
  · rw [eq_ix1 j, eq_ix1 j', h]
  · exact ⟨ix1 k, Finset.mem_filter.mpr ⟨Finset.mem_univ _, (scatter_lands idx hidx (ix1 k) b).mpr (Finset.mem_filter.mp hk).2⟩, rfl⟩

/-! ## The row's own entry, the count at the row's label, and the assembly -/

/-- The masked gather along a row at an index in [0, 20): the bounds mask is set and the clamp does nothing, so the
    result is the array's entry at that column. -/
private theorem take_apply {α : Type} (o : S8192x128.Idx → α) (idx lo hi : IVec S8192x1x1 32) (nan : S8192x1.Idx → α)
    (r : Fin 8192) (hlo : lo (ix3 r 0 0) = 0#32) (hhi : hi (ix3 r 0 0) = 127#32) (hidx : (idx (ix3 r 0 0)).toNat < 20) :
    select (Host.reduce IntOp.andi (andi (cmpi .sge idx lo) (cmpi .sle idx hi)) (constantI S_ 1 1#1)
        reducesTo_S8192x1x1_S8192x1_d2 h_S_) (Host.gather G2 o idx) nan (ix2 r 0)
      = o (ix2 r ⟨(idx (ix3 r 0 0)).toNat, by omega⟩) := by
  rw [select_apply, mask_apply idx lo hi r hlo hhi hidx, select_one, gather_row_apply]
  refine congrArg (fun c => o (ix2 r c)) (Fin.ext ?_)
  show min (idx (ix3 r 0 0)).toInt.toNat 127 = (idx (ix3 r 0 0)).toNat
  rw [toInt_toNat_small hidx]
  omega

/-- The histogram read back at a row's index is the number of keys that carry the row's index. -/
private theorem count_apply (idx : IVec S8192x1 32) (hidx : ∀ k : Fin 8192, (idx (ix2 k 0)).toNat < 20) (r : Fin 8192) :
    Host.gather G1 (Host.scatterAdd (F := Ideal) (φ := .f32) SC (broadcastInDim S20 ![] bcast_S_S20 (constant S_ .f32 0x00000000#32)) idx
        (broadcastInDim S8192 ![] bcast_S_S8192 (constant S_ .f32 0x3F800000#32))) idx (ix1 r)
      = ((((Finset.univ.filter fun k : Fin 8192 => (idx (ix2 k 0)).toNat = (idx (ix2 r 0)).toNat).card : ℕ) : ℝ) : EReal) := by
  rw [gather_bin_apply]
  have hb : (⟨min (idx (ix2 r 0)).toInt.toNat 19, by omega⟩ : Fin 20) = ⟨(idx (ix2 r 0)).toNat, hidx r⟩ :=
    Fin.ext (by
      show min (idx (ix2 r 0)).toInt.toNat 19 = (idx (ix2 r 0)).toNat
      rw [toInt_toNat_small (hidx r)]
      have := hidx r
      omega)
  rw [hb, hist_apply idx hidx]

/-- The last five operations: from the three row quantities, the quotient, its logarithm negated, the division by the
    count, and the sum over the rows. -/
private theorem assemble (v6 v3 v22 : S8192.Idx → EReal) (A B C : Fin 8192 → EReal)
    (h6 : ∀ r, v6 (ix1 r) = A r) (h3 : ∀ r, v3 (ix1 r) = B r) (h22 : ∀ r, v22 (ix1 r) = C r) :
    Host.reduceAdd (F := Ideal) (φ := .f32) (Host.divf (Host.negf (Host.log (Host.divf v6 v3))) v22)
        (constant S_ .f32 0x00000000#32) reducesTo_S8192_S_d0 h_S_
      = fun _ => ∑ r : Fin 8192, Ideal.div (-(Ideal.log (Ideal.div (A r) (B r)))) (C r) := by
  funext i
  simp only [Host.reduceAdd, Ideal.hostReduceAdd_def]
  rw [Ideal.hostReduceAdd_total reducesTo_S8192_S_d0 (fun b => b.elim0)]
  show Ideal.ofBits .f32 0x00000000#32 + _ = _
  rw [Ideal.ofBits_zero_f32, zero_add, ← Equiv.sum_comp idxEquiv1.symm]
  refine Finset.sum_congr rfl fun r _ => ?_
  show Ideal.div (-(Ideal.log (Ideal.div (v6 (ix1 r)) (v3 (ix1 r))))) (v22 (ix1 r)) = _
  rw [h6, h3, h22]

/-- The result buffer after them is the assembly of the specification from the output array and the labels. -/
theorem tail_eq (W : Valuation τ sig (Elt Ideal))
    (o : Cert.Spec.XArr) (lab : Cert.Spec.LArr)
    (ho : W (Proc.devRef .tc main_v2) = o) (hlab : W (Proc.devRef .tc main_arg1) = lab) (hl : Cert.Spec.LabOk lab) :
    afterTail W (Proc.devRef .tc main_v27) = fun _ => Cert.Spec.tailSpec o lab := by
  show StableHlo.after hostOps1_2 (StableHlo.after hostOps1_1 (StableHlo.after hostOps1 W)) (Proc.devRef .tc main_v27) = _
  after_results_simp
  simp only [StableHlo.TRef.ofBuf, StableHlo.TRef.toBuf, cast_eq, ho, hlab]
  refine (assemble _ _ _ (fun r => o (ix2 r (col lab r))) (fun r => ∑ c : Fin 128, o (ix2 r c))
    (fun r => (((cnt lab r : ℕ) : ℝ) : EReal)) (fun r => ?_) (fun r => ?_) (fun r => ?_)).trans ?_
  · -- the row's own entry: the index is the row's label, in range
    refine (squeeze_apply _ _ r).trans ?_
    refine (take_apply o _ _ _ _ r ?_ ?_ ?_).trans ?_
    · rfl
    · rfl
    · exact (congrArg BitVec.toNat ((unsqueeze_apply _ _ r).trans (normcol_apply lab hl _ r))).trans_lt (hl r)
    · refine congrArg (fun c => o (ix2 r c)) (Fin.ext ?_)
      show BitVec.toNat _ = (lab (ix1 r)).toNat % 128
      refine (congrArg BitVec.toNat ((unsqueeze_apply _ _ r).trans (normcol_apply lab hl _ r))).trans ?_
      have := hl r
      omega
  · exact rowsum_apply o r
  · -- the count: the scatter indices are the labels
    refine (count_apply _ (fun k => ?_) r).trans ?_
    · rw [normvec_apply lab hl]
      exact hl k
    · refine congrArg (fun n : ℕ => ((n : ℝ) : EReal)) ?_
      unfold Cert.Spec.cnt
      refine congrArg Finset.card (Finset.filter_congr fun k _ => ?_)
      rw [normvec_apply lab hl, normvec_apply lab hl]
      exact ⟨fun h => (BitVec.eq_of_toNat_eq h).symm, fun h => by rw [h]⟩
  · rfl

/-- None of them writes the features, -/
theorem tail_arg0 {F : FTy → Type} [FloatOps F] [Named F] (W : Valuation τ sig (Elt F)) :
    StableHlo.after hostOps1_2 (StableHlo.after hostOps1_1 (StableHlo.after hostOps1 W)) (Proc.devRef .tc main_arg0) = W (Proc.devRef .tc main_arg0) := by
  after_results_simp

/-- nor the labels. -/
theorem tail_arg1 {F : FTy → Type} [FloatOps F] [Named F] (W : Valuation τ sig (Elt F)) :
    StableHlo.after hostOps1_2 (StableHlo.after hostOps1_1 (StableHlo.after hostOps1 W)) (Proc.devRef .tc main_arg1) = W (Proc.devRef .tc main_arg1) := by
  after_results_simp

end Cert.KernelIdeal.Tail

end
-- ==== Proof.RefValue.lean ====
/-
  The reference program's result, read one operation at a time, is the loss of the specification.
-/
import proofs.«406752_j68152541053487_3_alg».proof.Proof.Gen.ReferenceIdeal.Read
import proofs.«406752_j68152541053487_3_alg».proof.Proof.Spec
import Idealize.ShloMosaic.Lib.StableHlo.Predicate

noncomputable section

namespace Cert.ReferenceIdeal.RefValue

open Cert.ReferenceIdeal Cert.ReferenceIdeal.Gen Cert.ReferenceIdeal.Read
open Idealize.ShloMosaic Idealize.ShloMosaic.ValueIdx

/-! ## The temperature literal -/

/-- The pattern `0x3D4CCCCD` has exponent field 122 and fraction 5033165, so it denotes
    `(2^23 + 5033165) · 2^(122 - 127 - 23) = 13421773 / 2^28`. -/
private theorem temp_lit : Ideal.ofBits .f32 0x3D4CCCCD#32 = ((13421773 / 268435456 : ℝ) : EReal) := by
  simp [Ideal.ofBits, Ideal.ieee, -EReal.coe_mul]; norm_num

/-- Dividing by the temperature is multiplying by its exact reciprocal. -/
private theorem div_temp (v : EReal) :
    Ideal.div v (Ideal.ofBits .f32 0x3D4CCCCD#32) = v * Cert.Spec.invT := by
  rw [temp_lit, Ideal.div_coe (by norm_num)]
  unfold Cert.Spec.invT
  rw [show ((1 / (13421773 / 268435456) : ℝ)) = (268435456 / 13421773 : ℝ) by norm_num]

/-! ## The composed index maps are the coordinate indices -/

private theorem lidx_eq (r k : Fin 8192) (d : Fin 128) : lidx_main_v1 (ix2 r k) d = ix2 r d :=
  funext fun a => Fin.ext (by match a with | ⟨0, _⟩ => rfl | ⟨1, _⟩ => rfl)

private theorem ridx_eq (r k : Fin 8192) (d : Fin 128) : idx_main_v0 (ridx_main_v1 (ix2 r k) d) = ix2 k d :=
  funext fun a => Fin.ext (by match a with | ⟨0, _⟩ => rfl | ⟨1, _⟩ => rfl)

private theorem idx10_eq (r k : Fin 8192) : idx_main_v10 (ix1 r) k = ix2 r k :=
  funext fun a => Fin.ext (by match a with | ⟨0, _⟩ => rfl | ⟨1, _⟩ => rfl)

private theorem idx12_eq (r k : Fin 8192) : idx_main_v12 (ix1 r) k = ix2 r k :=
  funext fun a => Fin.ext (by match a with | ⟨0, _⟩ => rfl | ⟨1, _⟩ => rfl)

private theorem idx57_eq (r k : Fin 8192) : idx_main_v5 (idx_main_v7 (ix2 r k)) = ix1 r :=
  funext fun a => Fin.ext (by match a with | ⟨0, _⟩ => rfl)

private theorem idx68_eq (r k : Fin 8192) : idx_main_v6 (idx_main_v8 (ix2 r k)) = ix1 k :=
  funext fun a => Fin.ext (by match a with | ⟨0, _⟩ => rfl)

/-! ## The similarity, its exponential, and the row sum -/

/-- The scaled product of rows `r` and `k`. -/
private theorem v3_at (x0 : (⟨S8192x128, .f32⟩ : BufTy).Contents (Elt Ideal)) (r k : Fin 8192) :
    val_main_v3 (F := Ideal) x0 (ix2 r k) = Cert.Spec.sim x0 r k := by
  rw [val_main_v3_apply, val_main_v1_apply, val_main_v2_apply, val_main_cst_apply, Ideal.hostDivf_def,
    Ideal.ofBits_def, div_temp]
  unfold Cert.Spec.sim
  refine congrArg (· * Cert.Spec.invT) (Finset.sum_congr rfl fun d _ => ?_)
  rw [val_main_v0_apply, lidx_eq, ridx_eq]

private theorem v4_at (x0 : (⟨S8192x128, .f32⟩ : BufTy).Contents (Elt Ideal)) (r k : Fin 8192) :
    val_main_v4 (F := Ideal) x0 (ix2 r k) = Cert.Spec.e x0 r k := by
  rw [val_main_v4_apply, Ideal.hostUnary_exp_def, v3_at]
  rfl

private theorem v10_at (x0 : (⟨S8192x128, .f32⟩ : BufTy).Contents (Elt Ideal)) (r : Fin 8192) :
    val_main_v10 (F := Ideal) x0 (ix1 r) = Cert.Spec.rowSum x0 r := by
  rw [val_main_v10_apply, val_main_cst_0_apply, Ideal.ofBits_def, Ideal.ofBits_zero_f32, zero_add]
  unfold Cert.Spec.rowSum
  refine Finset.sum_congr rfl fun k _ => ?_
  rw [idx10_eq, v4_at]

/-! ## The equality mask, the masked row sum -/

/-- The mask bit of the pair `(r, k)` is set exactly when the two labels agree. -/
private theorem v9_at (x1 : (⟨S8192, .i32⟩ : BufTy).Contents (Elt Ideal)) (r k : Fin 8192) :
    val_main_v9 (F := Ideal) x1 (ix2 r k) = 1#1 ↔ x1 (ix1 r) = x1 (ix1 k) := by
  rw [val_main_v9_apply, val_main_v7_apply, val_main_v8_apply, val_main_v5_apply, val_main_v6_apply,
    idx57_eq, idx68_eq]
  exact StableHlo.Predicate.cmpi_eq_iff

private theorem v11_at (x0 : (⟨S8192x128, .f32⟩ : BufTy).Contents (Elt Ideal))
    (x1 : (⟨S8192, .i32⟩ : BufTy).Contents (Elt Ideal)) (r k : Fin 8192) :
    val_main_v11 (F := Ideal) x0 x1 (ix2 r k) = if x1 (ix1 r) = x1 (ix1 k) then Cert.Spec.e x0 r k else 0 := by
  rw [val_main_v11_apply, val_main_call0_v1_apply, val_main_call0_v0_apply, val_main_cst_1_apply,
    Ideal.ofBits_def, Ideal.ofBits_zero_f32, v4_at]
  by_cases h : x1 (ix1 r) = x1 (ix1 k)
  · rw [(v9_at x1 r k).mpr h, select_one, if_pos h]
  · rw [eq_zero_of_ne_one (fun hb => h ((v9_at x1 r k).mp hb)), select_zero, if_neg h]

private theorem v12_at (x0 : (⟨S8192x128, .f32⟩ : BufTy).Contents (Elt Ideal))
    (x1 : (⟨S8192, .i32⟩ : BufTy).Contents (Elt Ideal)) (r : Fin 8192) :
    val_main_v12 (F := Ideal) x0 x1 (ix1 r) = Cert.Spec.posSum x0 x1 r := by
  rw [val_main_v12_apply, val_main_cst_2_apply, Ideal.ofBits_def, Ideal.ofBits_zero_f32, zero_add]
  unfold Cert.Spec.posSum
  refine Finset.sum_congr rfl fun k _ => ?_
  rw [idx12_eq, v11_at]

/-! ## The count of the row's label -/

private theorem ij_eq (r k : Fin 8192) : StableHlo.Predicate.ij r k = ix2 r k :=
  funext fun a => by match a with | ⟨0, _⟩ => rfl | ⟨1, _⟩ => rfl

/-- The integer sum of the widened mask along a row counts the keys that carry the row's label. -/
private theorem v14_toNat (x1 : (⟨S8192, .i32⟩ : BufTy).Contents (Elt Ideal)) (r : Fin 8192) :
    (val_main_v14 (F := Ideal) x1 (ix1 r)).toNat = Cert.Spec.cnt x1 r := by
  unfold val_main_v14 val_main_v13 val_main_c
  rw [StableHlo.Predicate.toNat_reduce_count_cols (by norm_num)]
  unfold Cert.Spec.cnt
  refine congrArg Finset.card (Finset.filter_congr fun q _ => ?_)
  rw [ij_eq]
  exact v9_at x1 r q

private theorem cnt_le (x1 : Cert.Spec.LArr) (r : Fin 8192) : Cert.Spec.cnt x1 r ≤ 8192 := by
  unfold Cert.Spec.cnt
  exact (Finset.card_le_univ _).trans (by simp)

private theorem sitofp_ideal (b : BitVec 32) : FloatOps.sitofp (F := Ideal) .f32 b = ((b.toInt : ℝ) : EReal) := rfl

private theorem v15_at (x1 : (⟨S8192, .i32⟩ : BufTy).Contents (Elt Ideal)) (r : Fin 8192) :
    val_main_v15 (F := Ideal) x1 (ix1 r) = (((Cert.Spec.cnt x1 r : ℕ) : ℝ) : EReal) := by
  have hn := v14_toNat x1 r
  have hle := cnt_le x1 r
  rw [val_main_v15_apply, sitofp_ideal,
    StableHlo.Predicate.toInt_eq_toNat_of_lt (by rw [hn]; omega), hn, Int.cast_natCast]

/-! ## One row's term, and the total -/

private theorem v19_at (x0 : (⟨S8192x128, .f32⟩ : BufTy).Contents (Elt Ideal))
    (x1 : (⟨S8192, .i32⟩ : BufTy).Contents (Elt Ideal)) (r : Fin 8192) :
    val_main_v19 (F := Ideal) x0 x1 (ix1 r) = Cert.Spec.perSample x0 x1 r := by
  rw [val_main_v19_apply, val_main_v18_apply, val_main_v17_apply, val_main_v16_apply, v12_at, v10_at, v15_at,
    Ideal.hostDivf_def, Ideal.hostDivf_def, Ideal.hostUnary_log_def, Ideal.hostNegf_def, Ideal.negf_def]
  rfl

/-- The rank-1 index set is its coordinate range. -/
private def idxEquiv1 : S8192.Idx ≃ Fin 8192 where
  toFun j := j 0
  invFun r := ix1 r
  left_inv j := (eq_ix1 j).symm
  right_inv _ := rfl

/-- The reference's last stage, at the ideal instance, is the loss. -/
theorem ref_eq (x0 : (⟨S8192x128, .f32⟩ : BufTy).Contents (Elt Ideal)) (x1 : (⟨S8192, .i32⟩ : BufTy).Contents (Elt Ideal)) :
    val_main_v20 (F := Ideal) x0 x1 = fun _ => Cert.Spec.loss x0 x1 := by
  funext i
  rw [val_main_v20_apply, val_main_cst_3_apply, Ideal.ofBits_def, Ideal.ofBits_zero_f32, zero_add]
  unfold Cert.Spec.loss
  rw [← Equiv.sum_comp idxEquiv1.symm]
  refine Finset.sum_congr rfl fun r _ => ?_
  exact v19_at x0 x1 r

end Cert.ReferenceIdeal.RefValue

end
-- ==== Proof.PreDecode.lean ====
/-
  What the precondition says of the two argument arrays: every feature a real number, every label in [0, 20).
-/
import proofs.«406752_j68152541053487_3_alg».proof.Pre_finite_inputs
import proofs.«406752_j68152541053487_3_alg».proof.Proof.Gen.Pre_finite_inputs
import proofs.«406752_j68152541053487_3_alg».proof.Proof.Spec
import Idealize.ShloMosaic.Lib.ReduceAll
import Idealize.ShloMosaic.Lib.StableHlo.Predicate

noncomputable section

namespace Cert.PreDecode

open Idealize.ShloMosaic Idealize.ShloMosaic.ValueIdx

/-- The shape with no axes has a single index. -/
private instance subsingleton_scalar_idx : Subsingleton Cert.Pre_finite_inputs.S_.Idx :=
  ⟨fun a b => funext fun d => d.elim0⟩

/-- An extended real whose absolute value lies strictly below +∞ is a real number: at −∞ the absolute value is +∞,
    and at +∞ likewise. -/
private theorem real_of_abs_lt_top (a : EReal) (h : max a (-a) < ⊤) : ∃ v : ℝ, a = (v : EReal) := by
  induction a using EReal.rec with
  | bot => simp at h
  | coe r => exact ⟨r, rfl⟩
  | top => simp at h

/-- A 32-bit word that is non-negative as a signed integer and below 20 as a signed integer has a value below 20. -/
private theorem toNat_lt_twenty (a : BitVec 32) (h0 : (0#32 : BitVec 32).toInt ≤ a.toInt)
    (h1 : a.toInt < (20#32 : BitVec 32).toInt) : a.toNat < 20 := by
  have e0 : (0#32 : BitVec 32).toInt = 0 := by decide
  have e20 : (20#32 : BitVec 32).toInt = 20 := by decide
  rw [e0] at h0
  rw [e20] at h1
  rw [BitVec.toInt_eq_toNat_cond] at h0 h1
  split at h0 <;> omega

/-- The printed precondition, all ones, gives the two hypotheses of the specification. -/
theorem pre_decode [Cert.Pre_finite_inputs.Facts] (x0 : FVec Ideal Cert.Pre_finite_inputs.S8192x128 .f32) (x1 : IVec Cert.Pre_finite_inputs.S8192 32)
    (h : Cert.Pre_finite_inputs.fn (F := Ideal) x0 x1 = fun _ => 1#1) :
    Cert.Spec.Finite x0 ∧ Cert.Spec.LabOk x1 := by
  have h0 := congrFun h ValueIdx.ix0
  dsimp only [Cert.Pre_finite_inputs.fn] at h0
  -- the outer conjunction: both reductions came out 1
  obtain ⟨hA, hB⟩ := IntOp.andi_eq_one.1 h0
  constructor
  · -- every feature: |x| < +∞
    intro i
    have e := Host.reduce_andi_all _ _ _ _ _ hA i
    have e' : Ideal.cmp .olt (max (x0 i) (-(x0 i))) (Ideal.ofBits .f32 0x7F800000#32) = 1#1 := e
    have htop : Ideal.ofBits .f32 0x7F800000#32 = (⊤ : EReal) := by simp [Ideal.ofBits, Ideal.ieee]
    rw [htop] at e'
    simp only [Ideal.cmp, StableHlo.Predicate.ofBool_eq_one_iff, decide_eq_true_eq] at e'
    exact real_of_abs_lt_top (x0 i) e'
  · -- every label: 0 ≤ lab < 20 as signed words
    intro k
    have e := Host.reduce_andi_all _ _ _ _ _ hB (ix1 k)
    obtain ⟨e1, e2⟩ := IntOp.andi_eq_one.1 e
    have g1 : IntOp.cmpi .sge (x1 (ix1 k)) 0#32 = 1#1 := e1
    have g2 : IntOp.cmpi .slt (x1 (ix1 k)) 20#32 = 1#1 := e2
    exact toNat_lt_twenty _ (IntOp.cmpi_sge.1 g1) (IntOp.cmpi_slt.1 g2)

end Cert.PreDecode

end
-- ==== Proof.lean ====
/-
  The certificate. The kernel computes a supervised contrastive loss over 8192 feature rows and their labels: a
  Pallas kernel forms, row block by row block and key tile by key tile, the similarities scaled by the reciprocal
  temperature, keeps a running row maximum and a per-class accumulator of shifted exponentials that it rescales when
  the maximum grows, and writes the accumulator out after the last key tile; the host then reads each row's total and
  its own class's entry, counts the labels by a histogram, and sums −log (own / total) / count. The reference forms
  the full matrix of exponentials of the similarities divided by the temperature and the same quotients from it.

  Over the extended reals, for finite features and labels in the label range [0, 20), the two results are one
  number: the kernel's literal scale is named as the exact reciprocal of the reference's literal temperature; the
  running maximum's factor exp (−M) is common to a row's own-class sum and its total and cancels in their quotient;
  the 128 one-hot columns partition the keys; and the histogram bin of a row's label is the count of keys carrying it.

  The frame claims (termination, no fault, arguments unchanged) hold for the kernel's program at both instances by one
  run of @main as a list of segments: the body's triple in each of its three control cases, the pipeline's proof data
  carrying the two scratch buffers from point to point, and the features array shared by two input windows at half
  shares. The reference's frame is its run with the result dropped.
-/
import proofs.«406752_j68152541053487_3_alg».proof.Defs
import proofs.«406752_j68152541053487_3_alg».proof.Proof.Gen.Kernel
import proofs.«406752_j68152541053487_3_alg».proof.Proof.Gen.KernelIdeal
import proofs.«406752_j68152541053487_3_alg».proof.Proof.Gen.ReferenceIdeal
import proofs.«406752_j68152541053487_3_alg».proof.Proof.Gen.ReferenceIdeal.Run
import proofs.«406752_j68152541053487_3_alg».proof.Proof.Gen.ReferenceIdeal.Read
import proofs.«406752_j68152541053487_3_alg».proof.Proof.Gen.Pre_finite_inputs
import proofs.«406752_j68152541053487_3_alg».proof.Proof.KB.Launch
import proofs.«406752_j68152541053487_3_alg».proof.Proof.KI.Launch
import proofs.«406752_j68152541053487_3_alg».proof.Proof.KI.Values
import proofs.«406752_j68152541053487_3_alg».proof.Proof.Tail
import proofs.«406752_j68152541053487_3_alg».proof.Proof.RefValue
import proofs.«406752_j68152541053487_3_alg».proof.Proof.PreDecode
import proofs.«406752_j68152541053487_3_alg».proof.Proof.Algebra
import Idealize.ShloMosaic.Adequacy
import Idealize.ShloMosaic.Init

noncomputable section

namespace Cert.Proof

open Idealize.ShloMosaic Idealize.ShloMosaic.TcCoe Idealize.SL.Sem

/-- The kernel's program terminates without a fault and leaves its arguments as they were, at the word level. -/
theorem frame_k [hp : Cert.Pre_finite_inputs.Facts] : Cert.frame_Kernel (hKernel := Cert.Kernel.Gen.facts) := fun m ρ _ =>
  (θ_run (Cert.Kernel.defs (F := Bits)) _ _).mono (fun _ h c => ⟨(h c).2.1, (h c).2.2⟩) (Cert.Kernel.Hand.run_main (F := Bits) m ρ)

/-- The same over the extended reals. -/
theorem frame_ki [hp : Cert.Pre_finite_inputs.Facts] : Cert.frame_KernelIdeal (hKernelIdeal := Cert.KernelIdeal.Gen.facts) := fun m ρ _ =>
  (θ_run (Cert.KernelIdeal.defs (F := Ideal)) _ _).mono (fun _ h c => ⟨(h c).2.1, (h c).2.2⟩) (Cert.KernelIdeal.Hand.run_main (F := Ideal) m ρ)

/-- The reference's frame is its run with the result dropped. -/
theorem frame_ri [hp : Cert.Pre_finite_inputs.Facts] : Cert.frame_ReferenceIdeal (hReferenceIdeal := Cert.ReferenceIdeal.Gen.facts) := fun m ρ _ =>
  (θ_run (Cert.ReferenceIdeal.defs (F := Ideal)) _ _).mono (fun _ h c => (h c).2) (Cert.ReferenceIdeal.Value.run (F := Ideal) m ρ)

/-- The one rewrite of the idealization: the kernel's scale literal denotes, by the certificate's table, the exact
    reciprocal of the binary value of the reference's temperature literal. -/
theorem preserves : Cert.preserves_Kernel_KernelIdeal :=
  IdealRules.named_const.statement Cert.KernelIdeal.κ "inv_temperature" .f32 0x41A00000#32 ((268435456 / 13421773 : ℝ) : EReal) rfl

/-- Both idealized programs end at the loss of the specification. -/
theorem algebraic [hp : Cert.Pre_finite_inputs.Facts] :
    Cert.algebraic_KernelIdeal_ReferenceIdeal (hKernelIdeal := Cert.KernelIdeal.Gen.facts) (hReferenceIdeal := Cert.ReferenceIdeal.Gen.facts) := by
  intro m ρ m' ρ' hpre hagree
  refine ⟨fun c => fun _ => Cert.Spec.loss (Cert.KernelIdeal.Hand.xA m c) (Cert.KernelIdeal.Hand.lA m c), ?_, ?_⟩
  · refine (θ_run (Cert.KernelIdeal.defs (F := Ideal)) _ _).mono (fun _ h c => ⟨(h c).1.trans ?_, (h c).2.1, (h c).2.2⟩)
      (Cert.KernelIdeal.Hand.run_main (F := Ideal) m ρ)
    obtain ⟨hx, hl⟩ := Cert.PreDecode.pre_decode _ _ (hpre c)
    have hlab : Cert.KernelIdeal.Hand.Wₓ m c (Proc.devRef .tc Cert.KernelIdeal.main_arg1) = Cert.KernelIdeal.Hand.lA m c :=
      (Cert.KernelIdeal.Hand.Wₓ_of_ne m c Cert.KernelIdeal.main_arg1 (by decide)).trans (Cert.KernelIdeal.Hand.keep_pre m c Cert.KernelIdeal.main_arg1 (.inr rfl))
    refine (Cert.KernelIdeal.Tail.tail_eq (Cert.KernelIdeal.Hand.Wₓ m c) _ _ (Cert.KernelIdeal.Hand.Wₓ_v2 m c) hlab hl).trans ?_
    funext _
    rw [Cert.Spec.tailSpec_of_cs (Cert.KernelIdeal.Hand.xA m c) (Cert.KernelIdeal.Hand.lA m c) _ (Cert.KernelIdeal.Hand.out_eq m c hx),
      Cert.Spec.lossK_eq_loss _ _ hx hl]
  · refine (θ_run (Cert.ReferenceIdeal.defs (F := Ideal)) _ _).mono (fun _ h c => ⟨(h c).1.trans ?_, (h c).2.1, (h c).2.2⟩)
      (Cert.ReferenceIdeal.Value.run (F := Ideal) m' ρ')
    exact (Cert.ReferenceIdeal.Read.val_main_v20_eq _ _).trans ((Cert.ReferenceIdeal.RefValue.ref_eq _ _).trans (by rw [(hagree c).1, (hagree c).2]; rfl))

/-- The claim. -/
theorem claim : Cert.Claim :=
  ⟨Cert.Kernel.Gen.facts, Cert.KernelIdeal.Gen.facts, Cert.ReferenceIdeal.Gen.facts, Cert.Pre_finite_inputs.Gen.facts,
    frame_k (hp := Cert.Pre_finite_inputs.Gen.facts), frame_ki (hp := Cert.Pre_finite_inputs.Gen.facts),
    frame_ri (hp := Cert.Pre_finite_inputs.Gen.facts), preserves, algebraic (hp := Cert.Pre_finite_inputs.Gen.facts)⟩

end Cert.Proof

end
